-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S64x128 : Shape := ⟨2, ![64, 128]⟩
abbrev S64 : Shape := ⟨1, ![64]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S200000x128 .f32) (main_arg1 : FVec F S64x128 .f32) (main_arg2 : FVec F S64 .f32) (main_arg3 : FVec F S64x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S200000x128 : Shape := ⟨2, ![200000, 128]⟩
abbrev S64x128 : Shape := ⟨2, ![64, 128]⟩
abbrev S64 : Shape := ⟨1, ![64]⟩
abbrev S1x128 : Shape := ⟨2, ![1, 128]⟩
abbrev S5000x128 : Shape := ⟨2, ![5000, 128]⟩
abbrev S128 : Shape := ⟨1, ![128]⟩
abbrev S128x64 : Shape := ⟨2, ![128, 64]⟩
abbrev S1x64 : Shape := ⟨2, ![1, 64]⟩
abbrev S1x64x128 : Shape := ⟨3, ![1, 64, 128]⟩
abbrev S5000x64 : Shape := ⟨2, ![5000, 64]⟩
abbrev S5000 : Shape := ⟨1, ![5000]⟩
abbrev S5000x1 : Shape := ⟨2, ![5000, 1]⟩
abbrev S64x1 : Shape := ⟨2, ![64, 1]⟩

abbrev nBuf : Space → Nat
  | .hbm => 8
  | .vmem => 13
  | .smem => 0
  | _ => 0

abbrev bufTy : (tb : Table) → Fin (tcTables nBuf tb) → BufTy
  | .hbm, ⟨0, _⟩ => ⟨S200000x128, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S1x128, .f32⟩
  | .hbm, ⟨5, _⟩ => ⟨S128x64, .f32⟩
  | .hbm, ⟨6, _⟩ => ⟨S1x64, .f32⟩
  | .hbm, ⟨7, _⟩ => ⟨S1x64x128, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S64x128, .f32⟩
  | .local _ .vmem, ⟨10, _⟩ => ⟨S1x64x128, .f32⟩
  | .local _ .vmem, ⟨11, _⟩ => ⟨S64x128, .f32⟩
  | .local _ .vmem, ⟨12, _⟩ => ⟨S1x64, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c39_i32 : BitVec 32 := 39#32
  let v12 : BitVec 1 := Scalar.cmpi .eq arg0 c39_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![40], ![false]⟩

def k1_cond2 (i : grid1.Coords) : BitVec 1 :=
  let arg0 : BitVec 32 := BitVec.ofNat 32 (i 0).val
  let c39_i32 : BitVec 32 := 39#32
  let v44 : BitVec 1 := Scalar.cmpi .eq arg0 c39_i32
  let v45 : BitVec 32 := Scalar.extui v44
  let c0_i32_22 : BitVec 32 := 0#32
  let v46 : BitVec 1 := Scalar.cmpi .ne v45 c0_i32_22
  v46

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  shapeCasts_S128_S1x128 : S128.ShapeCasts S1x128
  transposes_S64x128_S128x64_1_0 : S64x128.Transposes [1, 0] S128x64
  shapeCasts_S64_S1x64 : S64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x128_S5000x128 : S1x128.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  reduces_S5000x64_S64 : S5000x64.Reduces [0] S64
  transposes_S1x64_p1_0_S64x1 : S1x64.Transposes [1, 0] S64x1
  broadcasts_S64x1_S64x128 : S64x1.Broadcasts S64x128
  reduces_S64x128_S128 : S64x128.Reduces [0] S128
  broadcasts_S1x128_S64x128 : S1x128.Broadcasts S64x128
  shapeCasts_S64x128_S1x64x128 : S64x128.ShapeCasts S1x64x128
  inb_S1x64x128_S1x64x128_0_0_0 : ∀ a, (![0, 0, 0] : Fin 3 → Nat) a + S1x64x128.size a ≤ S1x64x128.size a
  h_S1x64x128 : 0 < S1x64x128.numel
  dot_S5000x128_S128x64_S5000x64_1_0_0_1_n_n_wf : DotDims.WF S5000x128 S128x64 S5000x64 [1] [0] [0] [1] [] []
  dot_S5000x64_S5000x128_S64x128_0_0_1_1_n_n_wf : DotDims.WF S5000x64 S5000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64x128.size a ≤ S1x64x128.size a
  hwx1_5 : ∀ i : grid1.Coords, EltTy.bits .f32 = 32 ∨ (Rect.block (s := S1x64x128) S1x64x128.size (cc1_transform_5 i) (hinb1_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x64x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S200000x128 : Shape := ⟨2, ![200000, 128]⟩
abbrev S64x128 : Shape := ⟨2, ![64, 128]⟩
abbrev S64 : Shape := ⟨1, ![64]⟩
abbrev S_ : Shape := ⟨0, ![]⟩
abbrev S128 : Shape := ⟨1, ![128]⟩
abbrev S1x128 : Shape := ⟨2, ![1, 128]⟩
abbrev S128x64 : Shape := ⟨2, ![128, 64]⟩
abbrev S200000x64 : Shape := ⟨2, ![200000, 64]⟩
abbrev S1x64 : Shape := ⟨2, ![1, 64]⟩
abbrev S200000 : Shape := ⟨1, ![200000]⟩
abbrev S200000x1 : Shape := ⟨2, ![200000, 1]⟩
abbrev S64x200000 : Shape := ⟨2, ![64, 200000]⟩
abbrev S64x1 : Shape := ⟨2, ![64, 1]⟩
abbrev S1x64x128 : Shape := ⟨3, ![1, 64, 128]⟩
abbrev S1x1x128 : Shape := ⟨3, ![1, 1, 128]⟩

abbrev nBuf : Space → Nat
  | .hbm => 52
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S200000x128, .f32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S200000x128, .f32⟩
  | .hbm, ⟨13, _⟩ => ⟨S200000x128, .f32⟩
  | .hbm, ⟨14, _⟩ => ⟨S128x64, .f32⟩
  | .hbm, ⟨15, _⟩ => ⟨S200000x64, .f32⟩
  | .hbm, ⟨16, _⟩ => ⟨S1x64, .f32⟩
  | .hbm, ⟨17, _⟩ => ⟨S200000x64, .f32⟩
  | .hbm, ⟨18, _⟩ => ⟨S200000x64, .f32⟩
  | .hbm, ⟨19, _⟩ => ⟨S_, .f32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S200000x1, .f32⟩
  | .hbm, ⟨25, _⟩ => ⟨S200000x64, .f32⟩
  | .hbm, ⟨26, _⟩ => ⟨S200000x64, .f32⟩
  | .hbm, ⟨27, _⟩ => ⟨S200000x64, .f32⟩
  | .hbm, ⟨28, _⟩ => ⟨S_, .f32⟩
  | .hbm, ⟨29, _⟩ => ⟨S200000, .f32⟩
  | .hbm, ⟨30, _⟩ => ⟨S200000x1, .f32⟩
  | .hbm, ⟨31, _⟩ => ⟨S200000x64, .f32⟩
  | .hbm, ⟨32, _⟩ => ⟨S200000x64, .f32⟩
  | .hbm, ⟨33, _⟩ => ⟨S64x200000, .f32⟩
  | .hbm, ⟨34, _⟩ => ⟨S64x128, .f32⟩
  | .hbm, ⟨35, _⟩ => ⟨S_, .f32⟩
  | .hbm, ⟨36, _⟩ => ⟨S64, .f32⟩
  | .hbm, ⟨37, _⟩ => ⟨S64x1, .f32⟩
  | .hbm, ⟨38, _⟩ => ⟨S64x128, .f32⟩
  | .hbm, ⟨39, _⟩ => ⟨S64x128, .f32⟩
  | .hbm, ⟨40, _⟩ => ⟨S64x128, .f32⟩
  | .hbm, ⟨41, _⟩ => ⟨S1x64x128, .f32⟩
  | .hbm, ⟨42, _⟩ => ⟨S1x64x128, .f32⟩
  | .hbm, ⟨43, _⟩ => ⟨S_, .f32⟩
  | .hbm, ⟨44, _⟩ => ⟨S1x128, .f32⟩
  | .hbm, ⟨45, _⟩ => ⟨S1x1x128, .f32⟩
  | .hbm, ⟨46, _⟩ => ⟨S1x1x128, .f32⟩
  | .hbm, ⟨47, _⟩ => ⟨S_, .f32⟩
  | .hbm, ⟨48, _⟩ => ⟨S1x1x128, .f32⟩
  | .hbm, ⟨49, _⟩ => ⟨S1x1x128, .f32⟩
  | .hbm, ⟨50, _⟩ => ⟨S1x64x128, .f32⟩
  | .hbm, ⟨51, _⟩ => ⟨S1x64x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  reducesTo_S200000x128_S128_d0 : S200000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S200000x128_0_1 : S1x128.BroadcastsInDim S200000x128 (![0, 1] : Fin 2 → Fin S200000x128.rank)
  transposes_S64x128_S128x64_1_0 : S64x128.Transposes [1, 0] S128x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  reducesTo_S200000x64_S200000_d1 : S200000x64.ReducesTo [1] S200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  transposes_S200000x64_S64x200000_1_0 : S200000x64.Transposes [1, 0] S64x200000
  reducesTo_S200000x64_S64_d0 : S200000x64.ReducesTo [0] S64
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64x128_S1x64x128_1_2 : S64x128.BroadcastsInDim S1x64x128 (![1, 2] : Fin 2 → Fin S1x64x128.rank)
  reducesTo_S1x64x128_S1x128_d1 : S1x64x128.ReducesTo [1] S1x128
  bcast_S1x128_S1x1x128_0_2 : S1x128.BroadcastsInDim S1x1x128 (![0, 2] : Fin 2 → Fin S1x1x128.rank)
  bcast_S_S1x1x128 : S_.BroadcastsInDim S1x1x128 (![] : Fin 0 → Fin S1x1x128.rank)
  bcast_S1x1x128_S1x64x128_0_1_2 : S1x1x128.BroadcastsInDim S1x64x128 (![0, 1, 2] : Fin 3 → Fin S1x64x128.rank)
  dot_S200000x128_S128x64_S200000x64_1_0_0_1_n_n_wf : DotDims.WF S200000x128 S128x64 S200000x64 [1] [0] [0] [1] [] []
  dot_S64x200000_S200000x128_S64x128_1_0_0_1_n_n_wf : DotDims.WF S64x200000 S200000x128 S64x128 [1] [0] [0] [1] [] []

variable [Facts₀]

def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S64x200000_S200000x128_S64x128_1_0_0_1_n_n : DotDims S64x200000 S200000x128 S64x128 where
  lhsContracting := [1]
  rhsContracting := [0]
  lhsNonContracting := [0]
  rhsNonContracting := [1]
  lhsBatch := []
  rhsBatch := []
  wf := dot_S64x200000_S200000x128_S64x128_1_0_0_1_n_n_wf

class Facts : Prop extends Facts₀ where

variable [Facts]
-- ==== Proof.Kernel.Norm.Shared.lean ====
/-
  The column-norm region (the first kernel launch: 40 grid points, each taking a block of 5000 points): what its three
  control cases share.

  The body resets its accumulator (a 1 x 128 scratch) at the first point, adds the block's column sums of squares at
  every point, and at the last point stores the accumulator's square root into the output block, which is written back
  only there. So a point is in one of three cases — first, middle, last — decided by the grid coordinate alone; at the
  first and middle points the output window is idle. Everything is stated at a parameter `V`: the core's buffer
  contents when the region is entered.
-/
import proofs.«181373_j45552423141540_1_alg».proof.Proof.Gen.Kernel.Launch
import proofs.«181373_j45552423141540_1_alg».proof.Proof.Gen.Kernel.Skeleton
import proofs.«181373_j45552423141540_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The points' staging buffer holds the point's block of 5000 points at every grid point, for any proof data whose
    array is the entry contents and whose body leaves the block in place. -/
theorem before_pts_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

end

/-! ## The two conditions, decided over the grid -/

/-- "This is the first grid point": the condition under which the accumulator is reset. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 40 = 0 :=
  (by decide +kernel : ∀ t : Fin grid0.N, isFirst (grid0.coords t) ↔ t.val % 40 = 0)

/-- "This is the last grid point": the condition under which the norm is stored. -/
abbrev isLast (i : grid0.Coords) : Prop := k0_cond2 i = 1#1
theorem isLast_iff : ∀ t : Fin cfg0.N, isLast (grid0.coords t) ↔ t.val % 40 = 39 :=
  (by decide +kernel : ∀ t : Fin grid0.N, isLast (grid0.coords t) ↔ t.val % 40 = 39)

/-! ## Where the windows are idle -/

/-- The points' window is never idle. -/
theorem live_pts : ∀ t : Fin cfg0.N, cfg0.idle 0 (grid0.coords t) = false := by decide +kernel
/-- Away from the last point the output window is idle and is not written back. -/
theorem idle_out : ∀ t : Fin cfg0.N, ¬isLast (grid0.coords t) → cfg0.idle 1 (grid0.coords t) = true := by decide +kernel
theorem noFlush_out : ∀ t : Fin cfg0.N, ¬isLast (grid0.coords t) → (cfg0.win 1).flush t = false := by decide +kernel
/-- At the last point it is live. -/
theorem live_out : ∀ t : Fin cfg0.N, isLast (grid0.coords t) → cfg0.idle 1 (grid0.coords t) = false := by decide +kernel

/-! ## The memrefs the body is called with -/

/-- One staging buffer of the output window, through which its contents are stated. -/
abbrev outView : View sig .tc .vmem S1x128 .f32 := (Memref.whole cc0_stg1_0 : Memref sig .tc .vmem S1x128 .f32).view
/-- Each window's current staging memref at point `t`, as the pipeline passes it, and its wholeness. -/
abbrev mPts (t : Fin cfg0.N) : Memref sig .tc .vmem S5000x128 .f32 := win0_0.stage (cfg0.slots t 0)
abbrev hPts (t : Fin cfg0.N) : (mPts t).IsWhole := hstage0_0 ((cfg0.slots t 0).cast nbuf0_0)
abbrev mOut (t : Fin cfg0.N) : Memref sig .tc .vmem S1x128 .f32 := win0_1.stage (cfg0.slots t 1)
abbrev hOut (t : Fin cfg0.N) : (mOut t).IsWhole := hstage0_1 ((cfg0.slots t 1).cast nbuf0_1)
/-- The accumulator: a whole scoped buffer of the kernel's own. -/
abbrev mAcc : Memref sig .tc .vmem S1x128 .f32 := Memref.whole cc0_scratch0
abbrev accView : View sig .tc .vmem S1x128 .f32 := mAcc.view

/-- The class's invariant with the accumulator as a memref owned at some contents, the later launch's scoped buffers
    at some contents beside it. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem classInv_eq (c : Dev nD) :
    (Pipeline.ΦA spec0 c : sProp 𝕄)
      = iprop(iprop((∃ d, owns (c : Thread nD τ) mAcc fullShare d) ∗ otherScoped (F := F) c) ∗ (∃ r, prngReg c r)) := by
  unfold Pipeline.ΦA otherScoped; rw [scopedRest0_eq]; simp only [mAcc, owns_whole]; try rfl

end Cert.Kernel.Norm

end
-- ==== Proof.Kernel.Norm.First.lean ====
/-
  The column-norm body at the FIRST grid point: the accumulator, at anything, is reset and then takes the first block's
  column sums of squares; nothing is stored into the output block, which is handed back untouched.
-/
import proofs.«181373_j45552423141540_1_alg».proof.Proof.Kernel.Norm.Shared

set_option maxRecDepth 16384

noncomputable section

namespace Cert.Kernel.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave (last first) in the output block and in the accumulator, with the proof that on
    whole memrefs the body runs to the continuation holding the block of points as it was, the output block and the
    accumulator with those pieces written. -/
noncomputable def runFirst (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : isFirst i) (hLast : ¬isLast i)
    (x0 : Vec F S5000x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) aPts fullShare x0 ∗ owns (c : Thread nD τ) aOut fullShare xi1 ∗ (∃ d, owns (c : Thread nD τ) aAcc fullShare d)
            ∗ (iprop(owns (c : Thread nD τ) aPts fullShare x0 ∗ owns (c : Thread nD τ) aOut fullShare xi1 ∗ (∃ f, aAcc.view.loc (c : Thread nD τ) ↦[aAcc.view.set]{fullShare} aAcc.view.writes (Elt F) f LS0)) -∗ K ⟨⟩))
          ⊢ wp frame (wpE (defs₀ (F := F)) Variants.none c none) E (cc0__colnorm_kernel i aPts hPts' aOut hOut' aAcc hAcc') K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%ds0, %fs0, -, HS0⟩, Hk⟩
    obtain rfl := hPts'.eq_unread hf0; obtain rfl := hOut'.eq_unread hf1
    sl_exec (disch := first | exact hFirst | exact hLast)
    sl_step
    iapply Hk
    isplitl [H0]
    · iexists _; isplitr; · ipureintro; exact hPts'.read_unread _
      iexact H0
    isplitl [H1]
    · iexists _; isplitr; · ipureintro; exact hOut'.read_unread _
      iexact H1
    iexists _; iexact HS0

end Cert.Kernel.Norm

end
-- ==== Proof.Kernel.Norm.Middle.lean ====
/-
  The column-norm body at a MIDDLE grid point: the accumulator, at what the point before left, takes this block's column
  sums of squares; nothing is stored into the output block, which is handed back untouched.
-/
import proofs.«181373_j45552423141540_1_alg».proof.Proof.Kernel.Norm.First

set_option maxRecDepth 16384

noncomputable section

namespace Cert.Kernel.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave (last first) in the output block and in the accumulator, with the proof that on
    whole memrefs the body runs to the continuation holding the block of points as it was, the output block and the
    accumulator with those pieces written. -/
noncomputable def runMiddle (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : ¬isLast i)
    (x0 : Vec F S5000x128 .f32) (xs0 : Vec F S1x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) aPts fullShare x0 ∗ owns (c : Thread nD τ) aOut fullShare xi1 ∗ owns (c : Thread nD τ) aAcc fullShare xs0
            ∗ (iprop(owns (c : Thread nD τ) aPts fullShare x0 ∗ owns (c : Thread nD τ) aOut fullShare xi1 ∗ (∃ f, aAcc.view.loc (c : Thread nD τ) ↦[aAcc.view.set]{fullShare} aAcc.view.writes (Elt F) f LS0)) -∗ K ⟨⟩))
          ⊢ wp frame (wpE (defs₀ (F := F)) Variants.none c none) E (cc0__colnorm_kernel i aPts hPts' aOut hOut' aAcc hAcc') K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%fs0, %hfs0, HS0⟩, Hk⟩
    obtain rfl := hPts'.eq_unread hf0; obtain rfl := hOut'.eq_unread hf1; obtain rfl := hAcc'.eq_unread hfs0
    sl_exec (disch := first | exact hFirst | exact hLast)
    sl_step
    iapply Hk
    isplitl [H0]
    · iexists _; isplitr; · ipureintro; exact hPts'.read_unread _
      iexact H0
    isplitl [H1]
    · iexists _; isplitr; · ipureintro; exact hOut'.read_unread _
      iexact H1
    iexists _; iexact HS0

end Cert.Kernel.Norm

end
-- ==== Proof.Kernel.Norm.Last.lean ====
/-
  The column-norm body at the LAST grid point: the accumulator takes the last block's column sums of squares, and its
  square root is stored over the whole output block.
-/
import proofs.«181373_j45552423141540_1_alg».proof.Proof.Kernel.Norm.Middle

set_option maxRecDepth 16384

noncomputable section

namespace Cert.Kernel.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave (last first) in the output block and in the accumulator, with the proof that on
    whole memrefs the body runs to the continuation holding the block of points as it was, the output block and the
    accumulator with those pieces written. -/
noncomputable def runLast (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) :
    Σ' (L1 : List (View.Piece (Elt F) S1x128 .f32)), { LS0 : List (View.Piece (Elt F) S1x128 .f32) //
      ∀ (E : Set ℕ) (K : PUnit → sProp 𝕄),
        iprop(owns (c : Thread nD τ) aPts fullShare x0 ∗ (∃ d, owns (c : Thread nD τ) aOut fullShare d) ∗ owns (c : Thread nD τ) aAcc fullShare xs0
            ∗ (iprop(owns (c : Thread nD τ) aPts fullShare x0 ∗ (∃ f, aOut.view.loc (c : Thread nD τ) ↦[aOut.view.set]{fullShare} aOut.view.writes (Elt F) f L1) ∗ (∃ f, aAcc.view.loc (c : Thread nD τ) ↦[aAcc.view.set]{fullShare} aAcc.view.writes (Elt F) f LS0)) -∗ K ⟨⟩))
          ⊢ wp frame (wpE (defs₀ (F := F)) Variants.none c none) E (cc0__colnorm_kernel i aPts hPts' aOut hOut' aAcc hAcc') K } := by
  refine ⟨?_, ?_, fun E K => ?run⟩
  case run =>
    simp only [cc0__colnorm_kernel_eq_skeleton]; unfold cc0__colnorm_kernel_skel
    unfold owns
    iintro ⟨⟨%f0, %hf0, H0⟩, ⟨%d1, %f1, -, H1⟩, ⟨%fs0, %hfs0, HS0⟩, Hk⟩
    obtain rfl := hPts'.eq_unread hf0; obtain rfl := hAcc'.eq_unread hfs0
    sl_exec (disch := first | exact hFirst | exact hLast)
    sl_step
    iapply Hk
    isplitl [H0]
    · iexists _; isplitr; · ipureintro; exact hPts'.read_unread _
      iexact H0
    isplitl [H1]; · iexists _; iexact H1
    iexists _; iexact HS0

end Cert.Kernel.Norm

end
-- ==== Proof.Kernel.Norm.Body.lean ====
/-
  The column-norm region: what the accumulator and the output block hold after each grid point, the region's proof
  data, and the body obligation.

  After the first point the accumulator holds the first block's column sums of squares over a reset; after every later
  point, what the point before left plus that point's block's. The output block is stored whole at the last point, from
  the accumulator's contents there. The region's invariant is the class's before the first point and afterwards carries
  the accumulator at exactly these contents (the later launch's scoped buffers ride along at some contents).
-/
import proofs.«181373_j45552423141540_1_alg».proof.Proof.Kernel.Norm.Last

set_option maxRecDepth 16384

noncomputable section

namespace Cert.Kernel.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- The first point's pieces for the accumulator cover it. -/
theorem accCover_first (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : isFirst i) (hLast : ¬isLast i)
    (x0 : Vec F S5000x128 .f32) (y : S1x128.Idx) :
    ∃ pc ∈ (runFirst c i aPts hPts' aOut hOut' aAcc hAcc' hFirst hLast x0).2.1, y ∈ pc.1.set :=
  View.cover_of_tiledL (runFirst c i aPts hPts' aOut hOut' aAcc hAcc' hFirst hLast x0).2.1 S1x128.size (by sl_kernel_rfl) y

/-- What the first point leaves in the accumulator: its pieces read back. -/
def accFirst (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : isFirst i) (hLast : ¬isLast i)
    (x0 : Vec F S5000x128 .f32) : Vec F S1x128 .f32 :=
  accView.read (Elt F) (accView.writes (Elt F) accView.junk (runFirst c i aPts hPts' aOut hOut' aAcc hAcc' hFirst hLast x0).2.1)

/-- A middle point's pieces for the accumulator cover it. -/
theorem accCover_mid (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : ¬isLast i)
    (x0 : Vec F S5000x128 .f32) (xs0 : Vec F S1x128 .f32) (y : S1x128.Idx) :
    ∃ pc ∈ (runMiddle c i aPts hPts' aOut hOut' aAcc hAcc' hFirst hLast x0 xs0).2.1, y ∈ pc.1.set :=
  View.cover_of_tiledL (runMiddle c i aPts hPts' aOut hOut' aAcc hAcc' hFirst hLast x0 xs0).2.1 S1x128.size (by sl_kernel_rfl) y

/-- What a middle point leaves in the accumulator, over what the point before left. -/
def accMid (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : ¬isLast i)
    (x0 : Vec F S5000x128 .f32) (xs0 : Vec F S1x128 .f32) : Vec F S1x128 .f32 :=
  accView.read (Elt F) (accView.writes (Elt F) accView.junk (runMiddle c i aPts hPts' aOut hOut' aAcc hAcc' hFirst hLast x0 xs0).2.1)

/-- The last point's pieces for the output block, and for the accumulator, cover them. -/
theorem outCover_last (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) (y : S1x128.Idx) :
    ∃ pc ∈ (runLast c i aPts hPts' aOut hOut' aAcc hAcc' hFirst hLast x0 xs0).1, y ∈ pc.1.set :=
  View.cover_of_tiledL (runLast c i aPts hPts' aOut hOut' aAcc hAcc' hFirst hLast x0 xs0).1 S1x128.size (by sl_kernel_rfl) y
theorem accCover_last (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) (y : S1x128.Idx) :
    ∃ pc ∈ (runLast c i aPts hPts' aOut hOut' aAcc hAcc' hFirst hLast x0 xs0).2.1, y ∈ pc.1.set :=
  View.cover_of_tiledL (runLast c i aPts hPts' aOut hOut' aAcc hAcc' hFirst hLast x0 xs0).2.1 S1x128.size (by sl_kernel_rfl) y

/-- What the last point leaves in the output block and in the accumulator. -/
def outLast (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) : Vec F S1x128 .f32 :=
  outView.read (Elt F) (outView.writes (Elt F) outView.junk (runLast c i aPts hPts' aOut hOut' aAcc hAcc' hFirst hLast x0 xs0).1)
def accLast (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) : Vec F S1x128 .f32 :=
  accView.read (Elt F) (accView.writes (Elt F) accView.junk (runLast c i aPts hPts' aOut hOut' aAcc hAcc' hFirst hLast x0 xs0).2.1)

/-- Away from the last point nothing is stored into the output block: a placeholder nothing consults (the window is
    idle there, neither written back nor read at the next point). -/
def outIdle : Vec F S1x128 .f32 := outView.read (Elt F) (outView.writes (Elt F) outView.junk [])

section

variable (V : (c : Dev nD) → (b : Ref sig .tc) → Buf (Elt F) ((c : Thread nD τ).loc b))

/-! ## Point by point -/

/-- What the output block and the accumulator hold after the body at position `n`: the first point's contents at 0;
    afterwards the last point's or a middle point's, over the accumulator the point before left. -/
def contentsAt (c : Dev nD) : (n : ℕ) → n < cfg0.N → Vec F S1x128 .f32 × Vec F S1x128 .f32
  | 0, hn => (outIdle, accFirst c (grid0.coords ⟨0, hn⟩) (mPts ⟨0, hn⟩) (hPts ⟨0, hn⟩) (mOut ⟨0, hn⟩) (hOut ⟨0, hn⟩) mAcc (Memref.isWhole_whole _) ((isFirst_iff ⟨0, hn⟩).mpr (Nat.zero_mod _)) (fun h => (fun h => by (try dsimp only at h); omega) ((isLast_iff ⟨0, hn⟩).mp h)) (blk V c 0 ⟨0, hn⟩))
  | n + 1, hn =>
    have hnf : ¬isFirst (grid0.coords ⟨n + 1, hn⟩) := fun h => (fun h => by have hN : n + 1 < 40 := lt_of_lt_of_eq hn (show cfg0.N = 40 from N_0); (try dsimp only at h); omega) ((isFirst_iff ⟨n + 1, hn⟩).mp h)
    if h1 : (n + 1) % 40 = 39 then
      (outLast c (grid0.coords ⟨n + 1, hn⟩) (mPts ⟨n + 1, hn⟩) (hPts ⟨n + 1, hn⟩) (mOut ⟨n + 1, hn⟩) (hOut ⟨n + 1, hn⟩) mAcc (Memref.isWhole_whole _) hnf ((isLast_iff ⟨n + 1, hn⟩).mpr h1) (blk V c 0 ⟨n + 1, hn⟩) (contentsAt c n (Nat.lt_of_succ_lt hn)).2,
        accLast c (grid0.coords ⟨n + 1, hn⟩) (mPts ⟨n + 1, hn⟩) (hPts ⟨n + 1, hn⟩) (mOut ⟨n + 1, hn⟩) (hOut ⟨n + 1, hn⟩) mAcc (Memref.isWhole_whole _) hnf ((isLast_iff ⟨n + 1, hn⟩).mpr h1) (blk V c 0 ⟨n + 1, hn⟩) (contentsAt c n (Nat.lt_of_succ_lt hn)).2)
    else
      (outIdle, accMid c (grid0.coords ⟨n + 1, hn⟩) (mPts ⟨n + 1, hn⟩) (hPts ⟨n + 1, hn⟩) (mOut ⟨n + 1, hn⟩) (hOut ⟨n + 1, hn⟩) mAcc (Memref.isWhole_whole _) hnf (fun h => h1 ((isLast_iff ⟨n + 1, hn⟩).mp h)) (blk V c 0 ⟨n + 1, hn⟩) (contentsAt c n (Nat.lt_of_succ_lt hn)).2)

/-- A point that is not the first is not in the first case. -/
theorem notFirst_of (t : Fin cfg0.N) (h0 : ¬t.val % 40 = 0) : ¬isFirst (grid0.coords t) := fun h => h0 ((isFirst_iff t).mp h)

/-- `contentsAt` at the first point. -/
theorem contentsAt_first (c : Dev nD) (t : Fin cfg0.N) (h0 : t.val % 40 = 0) (h1 : ¬t.val % 40 = 39) :
    contentsAt V c t.val t.isLt = (outIdle, accFirst c (grid0.coords t) (mPts t) (hPts t) (mOut t) (hOut t) mAcc (Memref.isWhole_whole _) ((isFirst_iff t).mpr h0) (fun h => h1 ((isLast_iff t).mp h)) (blk V c 0 t)) := by
  obtain ⟨n, hn⟩ := t
  cases n with
  | zero => exact rfl
  | succ n => exact (by exfalso; have hN : n + 1 < 40 := lt_of_lt_of_eq hn (show cfg0.N = 40 from N_0); (try dsimp only at h0); omega)

/-- `contentsAt` at a middle point: over what the point before left. -/
theorem contentsAt_mid (c : Dev nD) (t : Fin cfg0.N) (h0 : ¬t.val % 40 = 0) (h1 : ¬t.val % 40 = 39) :
    contentsAt V c t.val t.isLt = (outIdle, accMid c (grid0.coords t) (mPts t) (hPts t) (mOut t) (hOut t) mAcc (Memref.isWhole_whole _) (notFirst_of t h0) (fun h => h1 ((isLast_iff t).mp h)) (blk V c 0 t) (contentsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `contentsAt` at the last point: over what the point before left. -/
theorem contentsAt_last (c : Dev nD) (t : Fin cfg0.N) (h0 : ¬t.val % 40 = 0) (h1 : t.val % 40 = 39) :
    contentsAt V c t.val t.isLt = (outLast c (grid0.coords t) (mPts t) (hPts t) (mOut t) (hOut t) mAcc (Memref.isWhole_whole _) (notFirst_of t h0) ((isLast_iff t).mpr h1) (blk V c 0 t) (contentsAt V c (t.val - 1) (Nat.lt_of_le_of_lt (Nat.sub_le _ _) t.isLt)).2,
      accLast c (grid0.coords t) (mPts t) (hPts t) (mOut t) (hOut t) mAcc (Memref.isWhole_whole _) (notFirst_of t h0) ((isLast_iff t).mpr h1) (blk V c 0 t) (contentsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant -/

/-- The region's invariant before position `n`: the class's before the first point; afterwards the accumulator at what
    the point before left, the later launch's scoped buffers at some contents, the generator register at some state. -/
def inv (c : Dev nD) : (n : ℕ) → n ≤ cfg0.N → sProp 𝕄
  | 0, _ => Pipeline.ΦA spec0 c
  | n + 1, hn => iprop(iprop(owns (c : Thread nD τ) mAcc fullShare ((contentsAt V c n hn).2) ∗ otherScoped (F := F) c) ∗ (∃ r, prngReg c r))

theorem inv_zero (c : Dev nD) (n : ℕ) (h : n ≤ cfg0.N) (hz : n = 0) : inv V c n h = Pipeline.ΦA spec0 c := by
  subst hz; rfl

theorem inv_succ (c : Dev nD) (n : ℕ) (hn : n < cfg0.N) :
    inv V c (n + 1) hn = iprop(iprop(owns (c : Thread nD τ) mAcc fullShare ((contentsAt V c n hn).2) ∗ otherScoped (F := F) c) ∗ (∃ r, prngReg c r)) := rfl

theorem inv_pos (c : Dev nD) (n : ℕ) (h : n ≤ cfg0.N) (hz : n ≠ 0) :
    inv V c n h = iprop(iprop(owns (c : Thread nD τ) mAcc fullShare ((contentsAt V c (n - 1) (by omega)).2) ∗ otherScoped (F := F) c) ∗ (∃ r, prngReg c r)) := by
  cases n with
  | zero => exact absurd rfl hz
  | succ n => rfl

/-! ## The proof data -/

/-- The region's proof data on core `c`: the arrays as the region finds them; after the body at point `t` the points'
    buffer at its block and the output's at `contentsAt`; the invariant above; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => (contentsAt V c t.val t.isLt).1
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]

theorem inv_castSucc (c : Dev nD) (t : Fin cfg0.N) :
    (dat V c).Φ t.castSucc = inv V c t.val (Nat.le_of_lt t.isLt) := by
  dsimp only [dat]; simp only [Fin.coe_castSucc]

theorem after_pts (c : Dev nD) (t : Fin cfg0.N) : (dat V c).after 0 t = blk V c 0 t := by dsimp only [dat]
theorem after_out (c : Dev nD) (t : Fin cfg0.N) : (dat V c).after 1 t = (contentsAt V c t.val t.isLt).1 := by dsimp only [dat]

theorem before_pts (c : Dev nD) (t : Fin cfg0.N) (d) : (dat V c).before 0 t d = blk V c 0 t :=
  before_pts_of V (dat V c) (A_eq V c 0) (after_pts V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (mPts t) fullShare ((dat V c).before 0 t d))
    ∗ (∃ d, owns (c : Thread nD τ) (mOut t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point. The points' memref holds the point's block; the coordinate says which case the point is in;
    the invariant hands the body the accumulator at what the point before left (at anything at the first point) and
    takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_pts]
  rw [show (dat V c).owesAt () t.succ = (dat V c).owesAt () t.castSucc from rfl]
  rw [show (dat V c).Φ t.succ = inv V c (t.val + 1) t.isLt from rfl, inv_succ]
  have hN : t.val < 40 := lt_of_lt_of_eq t.isLt (show cfg0.N = 40 from N_0)
  rw [show (dat V c).leavesExact 0 t = owns (c : Thread nD τ) (mPts t) fullShare ((dat V c).after 0 t) from by
    unfold Dat.leavesExact; rw [live_pts t], after_pts]
  by_cases h0 : t.val % 40 = 0
  · have h1 : ¬t.val % 40 = 39 := by omega
    have hz : t.val = 0 := by omega
    rw [Dat.leavesExact_idle (dat V c) 1 t (idle_out t (fun h => h1 ((isLast_iff t).mp h))) (noFlush_out t (fun h => h1 ((isLast_iff t).mp h)))]
    rw [contentsAt_first V c t h0 h1]
    unfold accFirst; (try dsimp only)
    rw [inv_castSucc V c t, inv_zero V c _ _ hz, classInv_eq]
    iintro ⟨⟨⟨HS0, Hrest⟩, Hg⟩, Ho, ⟨%d0, H0⟩, ⟨%d1, H1⟩⟩
    iapply ((runFirst c (grid0.coords t) _ _ _ _ _ _ ((isFirst_iff t).mpr h0) (fun h => h1 ((isLast_iff t).mp h)) (blk V c 0 t)).2.2 _ Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (accCover_first c _ _ _ _ _ _ _ _ _ _)
        iexact Hrest
      iexact Hg
    isplitl [Ho]; · iexact Ho
    isplitl [H0]; · iexact H0
    iexists _; iexact H1
  · have hz : t.val ≠ 0 := fun h => h0 (by rw [h])
    by_cases h1 : t.val % 40 = 39
    · rw [show (dat V c).leavesExact 1 t = owns (c : Thread nD τ) (mOut t) fullShare ((dat V c).after 1 t) from by
        unfold Dat.leavesExact; rw [live_out t ((isLast_iff t).mpr h1)], after_out]
      rw [contentsAt_last V c t h0 h1]
      unfold outLast accLast; (try dsimp only)
      rw [inv_castSucc V c t, inv_pos V c _ _ hz]
      iintro ⟨⟨⟨HS0, Hrest⟩, Hg⟩, Ho, ⟨%d0, H0⟩, ⟨%d1, H1⟩⟩
      iapply ((runLast c (grid0.coords t) _ _ _ _ _ _ (notFirst_of t h0) ((isLast_iff t).mpr h1) (blk V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCover_last c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (outCover_last c _ _ _ _ _ _ _ _ _ _ _)
    · rw [Dat.leavesExact_idle (dat V c) 1 t (idle_out t (fun h => h1 ((isLast_iff t).mp h))) (noFlush_out t (fun h => h1 ((isLast_iff t).mp h)))]
      rw [contentsAt_mid V c t h0 h1]
      unfold accMid; (try dsimp only)
      rw [inv_castSucc V c t, inv_pos V c _ _ hz]
      iintro ⟨⟨⟨HS0, Hrest⟩, Hg⟩, Ho, ⟨%d0, H0⟩, ⟨%d1, H1⟩⟩
      iapply ((runMiddle c (grid0.coords t) _ _ _ _ _ _ (notFirst_of t h0) (fun h => h1 ((isLast_iff t).mp h)) (blk V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCover_mid c _ _ _ _ _ _ _ _ _ _ _)
          iexact Hrest
        iexact Hg
      isplitl [Ho]; · iexact Ho
      isplitl [H0]; · iexact H0
      iexists _; iexact H1

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the class's back: the accumulator's named contents are forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 40 := N_0; omega), classInv_eq]
  iintro ⟨⟨HS0, Hrest⟩, Hg⟩
  isplitl [HS0 Hrest]
  · isplitl [HS0]
    · iexists _; iexact HS0
    iexact Hrest
  iexact Hg

end

end Cert.Kernel.Norm

end
-- ==== Proof.Kernel.Agg.Shared.lean ====
/-
  The aggregation region (the second kernel launch: 40 grid points, each taking a block of 5000 points): what its
  three control cases share.

  The body resets two accumulators at the first point (a 64 x 128 one for the assignment-weighted sums of the scaled
  points and a 1 x 64 one for the total assignments), adds the block's contributions to both at every point, and at the
  last point forms the residuals from them, scales each feature column by its norm over the clusters and stores the
  result block, which is written back only there. A point is in one of three cases — first, middle, last — decided by
  the grid coordinate alone; at the first and middle points the output window is idle. The column norms, the transposed
  weights, the bias row and the centres are one block each, the same at every point. Everything is stated at a
  parameter `V`: the core's buffer contents when the region is entered.
-/
import proofs.«181373_j45552423141540_1_alg».proof.Proof.Gen.Kernel.Launch
import proofs.«181373_j45552423141540_1_alg».proof.Proof.Gen.Kernel.Skeleton
import proofs.«181373_j45552423141540_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, fetched there or not (where it is not
    fetched its block index has not moved), for any proof data whose array is the entry contents and whose body leaves
    the block in place. -/
theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every grid point, fetched there or not (where it is not
    fetched its block index has not moved), for any proof data whose array is the entry contents and whose body leaves
    the block in place. -/
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every grid point, fetched there or not (where it is not
    fetched its block index has not moved), for any proof data whose array is the entry contents and whose body leaves
    the block in place. -/
theorem before_in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every grid point, fetched there or not (where it is not
    fetched its block index has not moved), for any proof data whose array is the entry contents and whose body leaves
    the block in place. -/
theorem before_in3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every grid point, fetched there or not (where it is not
    fetched its block index has not moved), for any proof data whose array is the entry contents and whose body leaves
    the block in place. -/
theorem before_in4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

end

/-! ## The two conditions, decided over the grid -/

/-- "This is the first grid point": the condition under which the accumulators are reset. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val % 40 = 0 :=
  (by decide +kernel : ∀ t : Fin grid1.N, isFirst (grid1.coords t) ↔ t.val % 40 = 0)

/-- "This is the last grid point": the condition under which the result block is stored. -/
abbrev isLast (i : grid1.Coords) : Prop := k1_cond2 i = 1#1
theorem isLast_iff : ∀ t : Fin cfg1.N, isLast (grid1.coords t) ↔ t.val % 40 = 39 :=
  (by decide +kernel : ∀ t : Fin grid1.N, isLast (grid1.coords t) ↔ t.val % 40 = 39)

/-! ## Where the windows are idle -/

theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem live_in3 : ∀ t : Fin cfg1.N, cfg1.idle 3 (grid1.coords t) = false := by decide +kernel
theorem live_in4 : ∀ t : Fin cfg1.N, cfg1.idle 4 (grid1.coords t) = false := by decide +kernel
/-- Away from the last point the output window is idle and is not written back; at the last point it is live. -/
theorem idle_out : ∀ t : Fin cfg1.N, ¬isLast (grid1.coords t) → cfg1.idle 5 (grid1.coords t) = true := by decide +kernel
theorem noFlush_out : ∀ t : Fin cfg1.N, ¬isLast (grid1.coords t) → (cfg1.win 5).flush t = false := by decide +kernel
theorem live_out : ∀ t : Fin cfg1.N, isLast (grid1.coords t) → cfg1.idle 5 (grid1.coords t) = false := by decide +kernel

/-! ## The memrefs the body is called with -/

/-- One staging buffer of the output window, through which its contents are stated. -/
abbrev outView : View sig .tc .vmem S1x64x128 .f32 := (Memref.whole cc1_stg5_0 : Memref sig .tc .vmem S1x64x128 .f32).view
abbrev mPts (t : Fin cfg1.N) : Memref sig .tc .vmem S5000x128 .f32 := win1_0.stage (cfg1.slots t 0)
abbrev hPts (t : Fin cfg1.N) : (mPts t).IsWhole := hstage1_0 ((cfg1.slots t 0).cast nbuf1_0)
abbrev mNrm (t : Fin cfg1.N) : Memref sig .tc .vmem S1x128 .f32 := win1_1.stage (cfg1.slots t 1)
abbrev hNrm (t : Fin cfg1.N) : (mNrm t).IsWhole := hstage1_1 ((cfg1.slots t 1).cast nbuf1_1)
abbrev mWt (t : Fin cfg1.N) : Memref sig .tc .vmem S128x64 .f32 := win1_2.stage (cfg1.slots t 2)
abbrev hWt (t : Fin cfg1.N) : (mWt t).IsWhole := hstage1_2 ((cfg1.slots t 2).cast nbuf1_2)
abbrev mBias (t : Fin cfg1.N) : Memref sig .tc .vmem S1x64 .f32 := win1_3.stage (cfg1.slots t 3)
abbrev hBias (t : Fin cfg1.N) : (mBias t).IsWhole := hstage1_3 ((cfg1.slots t 3).cast nbuf1_3)
abbrev mCen (t : Fin cfg1.N) : Memref sig .tc .vmem S64x128 .f32 := win1_4.stage (cfg1.slots t 4)
abbrev hCen (t : Fin cfg1.N) : (mCen t).IsWhole := hstage1_4 ((cfg1.slots t 4).cast nbuf1_4)
abbrev mOut (t : Fin cfg1.N) : Memref sig .tc .vmem S1x64x128 .f32 := win1_5.stage (cfg1.slots t 5)
abbrev hOut (t : Fin cfg1.N) : (mOut t).IsWhole := hstage1_5 ((cfg1.slots t 5).cast nbuf1_5)
/-- The two accumulators: whole scoped buffers of the kernel's own. -/
abbrev mSums : Memref sig .tc .vmem S64x128 .f32 := Memref.whole cc1_scratch0
abbrev mTot : Memref sig .tc .vmem S1x64 .f32 := Memref.whole cc1_scratch1
abbrev sumsView : View sig .tc .vmem S64x128 .f32 := mSums.view
abbrev totView : View sig .tc .vmem S1x64 .f32 := mTot.view

/-- The earlier launch's scoped buffers, each at some contents, in front of an assertion about the two accumulators. -/
def withOthers (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ P)

/-- The class's invariant with the two accumulators as memrefs owned at some contents. -/
theorem classInv_eq (c : Dev nD) :
    (Pipeline.ΦA spec1 c : sProp 𝕄)
      = iprop(withOthers (F := F) c iprop((∃ d, owns (c : Thread nD τ) mSums fullShare d) ∗ (∃ d, owns (c : Thread nD τ) mTot fullShare d)) ∗ (∃ r, prngReg c r)) := by
  unfold Pipeline.ΦA withOthers; rw [scopedRest1_eq]; simp only [mSums, mTot, owns_whole]; try rfl

end Cert.Kernel.Agg

end
-- ==== Proof.Kernel.Agg.First.lean ====
/-
  The aggregation body at the FIRST grid point: both accumulators, at anything, are reset and then take the first block's
  contributions; nothing is stored into the result block, which is handed back untouched.
-/
import proofs.«181373_j45552423141540_1_alg».proof.Proof.Kernel.Agg.Shared

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in the result block and in the two accumulators, with the proof that
    on whole memrefs the body runs to the continuation holding the five input blocks as they were, the result block and
    the accumulators with those pieces written. -/
noncomputable def runFirst (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) :
    Σ' (L5 : List (View.Piece (Elt F) S1x64x128 .f32)), Σ' (LS0 : List (View.Piece (Elt F) S64x128 .f32)), { LS1 : List (View.Piece (Elt F) S1x64 .f32) //
      ∀ (xi5 : Vec F S1x64x128 .f32) (E : Set ℕ) (K : PUnit → sProp 𝕄),
        iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ owns (c : Thread nD τ) aOut fullShare xi5 ∗ (∃ d, owns (c : Thread nD τ) aSums fullShare d) ∗ (∃ d, owns (c : Thread nD τ) aTot fullShare d)
            ∗ (iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ owns (c : Thread nD τ) aOut fullShare xi5 ∗ (∃ f, aSums.view.loc (c : Thread nD τ) ↦[aSums.view.set]{fullShare} aSums.view.writes (Elt F) f LS0) ∗ (∃ f, aTot.view.loc (c : Thread nD τ) ↦[aTot.view.set]{fullShare} aTot.view.writes (Elt F) f LS1)) -∗ K ⟨⟩))
          ⊢ wp frame (wpE (defs₀ (F := F)) Variants.none c none) E (cc1__agg_kernel i aPts hPts' aNrm hNrm' aWt hWt' aBias hBias' aCen hCen' aOut hOut' aSums hSums' aTot hTot') K } := by
  refine ⟨[], ?_, ?_, fun xi5 E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := hPts'.eq_unread hf0; obtain rfl := hNrm'.eq_unread hf1; obtain rfl := hWt'.eq_unread hf2; obtain rfl := hBias'.eq_unread hf3; obtain rfl := hCen'.eq_unread hf4; obtain rfl := hOut'.eq_unread hf5
    sl_exec (disch := first | exact hFirst | exact hLast)
    sl_step
    iapply Hk
    isplitl [H0]
    · iexists _; isplitr; · ipureintro; exact hPts'.read_unread _
      iexact H0
    isplitl [H1]
    · iexists _; isplitr; · ipureintro; exact hNrm'.read_unread _
      iexact H1
    isplitl [H2]
    · iexists _; isplitr; · ipureintro; exact hWt'.read_unread _
      iexact H2
    isplitl [H3]
    · iexists _; isplitr; · ipureintro; exact hBias'.read_unread _
      iexact H3
    isplitl [H4]
    · iexists _; isplitr; · ipureintro; exact hCen'.read_unread _
      iexact H4
    isplitl [H5]
    · iexists _; isplitr; · ipureintro; exact hOut'.read_unread _
      iexact H5
    isplitl [HS0]; · iexists _; iexact HS0
    iexists _; iexact HS1

end Cert.Kernel.Agg

end
-- ==== Proof.Kernel.Agg.Middle.lean ====
/-
  The aggregation body at a MIDDLE grid point: both accumulators, at what the point before left, take this block's
  contributions; nothing is stored into the result block, which is handed back untouched.
-/
import proofs.«181373_j45552423141540_1_alg».proof.Proof.Kernel.Agg.First

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in the result block and in the two accumulators, with the proof that
    on whole memrefs the body runs to the continuation holding the five input blocks as they were, the result block and
    the accumulators with those pieces written. -/
noncomputable def runMiddle (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) :
    Σ' (L5 : List (View.Piece (Elt F) S1x64x128 .f32)), Σ' (LS0 : List (View.Piece (Elt F) S64x128 .f32)), { LS1 : List (View.Piece (Elt F) S1x64 .f32) //
      ∀ (xi5 : Vec F S1x64x128 .f32) (E : Set ℕ) (K : PUnit → sProp 𝕄),
        iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ owns (c : Thread nD τ) aOut fullShare xi5 ∗ owns (c : Thread nD τ) aSums fullShare xs0 ∗ owns (c : Thread nD τ) aTot fullShare xs1
            ∗ (iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ owns (c : Thread nD τ) aOut fullShare xi5 ∗ (∃ f, aSums.view.loc (c : Thread nD τ) ↦[aSums.view.set]{fullShare} aSums.view.writes (Elt F) f LS0) ∗ (∃ f, aTot.view.loc (c : Thread nD τ) ↦[aTot.view.set]{fullShare} aTot.view.writes (Elt F) f LS1)) -∗ K ⟨⟩))
          ⊢ wp frame (wpE (defs₀ (F := F)) Variants.none c none) E (cc1__agg_kernel i aPts hPts' aNrm hNrm' aWt hWt' aBias hBias' aCen hCen' aOut hOut' aSums hSums' aTot hTot') K } := by
  refine ⟨[], ?_, ?_, fun xi5 E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := hPts'.eq_unread hf0; obtain rfl := hNrm'.eq_unread hf1; obtain rfl := hWt'.eq_unread hf2; obtain rfl := hBias'.eq_unread hf3; obtain rfl := hCen'.eq_unread hf4; obtain rfl := hOut'.eq_unread hf5; obtain rfl := hSums'.eq_unread hfs0; obtain rfl := hTot'.eq_unread hfs1
    sl_exec (disch := first | exact hFirst | exact hLast)
    sl_step
    iapply Hk
    isplitl [H0]
    · iexists _; isplitr; · ipureintro; exact hPts'.read_unread _
      iexact H0
    isplitl [H1]
    · iexists _; isplitr; · ipureintro; exact hNrm'.read_unread _
      iexact H1
    isplitl [H2]
    · iexists _; isplitr; · ipureintro; exact hWt'.read_unread _
      iexact H2
    isplitl [H3]
    · iexists _; isplitr; · ipureintro; exact hBias'.read_unread _
      iexact H3
    isplitl [H4]
    · iexists _; isplitr; · ipureintro; exact hCen'.read_unread _
      iexact H4
    isplitl [H5]
    · iexists _; isplitr; · ipureintro; exact hOut'.read_unread _
      iexact H5
    isplitl [HS0]; · iexists _; iexact HS0
    iexists _; iexact HS1

end Cert.Kernel.Agg

end
-- ==== Proof.Kernel.Agg.Last.lean ====
/-
  The aggregation body at the LAST grid point: both accumulators take the last block's contributions, and the scaled
  residuals formed from them are stored over the whole result block.
-/
import proofs.«181373_j45552423141540_1_alg».proof.Proof.Kernel.Agg.Middle

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in the result block and in the two accumulators, with the proof that
    on whole memrefs the body runs to the continuation holding the five input blocks as they were, the result block and
    the accumulators with those pieces written. -/
noncomputable def runLast (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) :
    Σ' (L5 : List (View.Piece (Elt F) S1x64x128 .f32)), Σ' (LS0 : List (View.Piece (Elt F) S64x128 .f32)), { LS1 : List (View.Piece (Elt F) S1x64 .f32) //
      ∀ (E : Set ℕ) (K : PUnit → sProp 𝕄),
        iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ (∃ d, owns (c : Thread nD τ) aOut fullShare d) ∗ owns (c : Thread nD τ) aSums fullShare xs0 ∗ owns (c : Thread nD τ) aTot fullShare xs1
            ∗ (iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ (∃ f, aOut.view.loc (c : Thread nD τ) ↦[aOut.view.set]{fullShare} aOut.view.writes (Elt F) f L5) ∗ (∃ f, aSums.view.loc (c : Thread nD τ) ↦[aSums.view.set]{fullShare} aSums.view.writes (Elt F) f LS0) ∗ (∃ f, aTot.view.loc (c : Thread nD τ) ↦[aTot.view.set]{fullShare} aTot.view.writes (Elt F) f LS1)) -∗ K ⟨⟩))
          ⊢ wp frame (wpE (defs₀ (F := F)) Variants.none c none) E (cc1__agg_kernel i aPts hPts' aNrm hNrm' aWt hWt' aBias hBias' aCen hCen' aOut hOut' aSums hSums' aTot hTot') K } := by
  refine ⟨?_, ?_, ?_, fun E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := hPts'.eq_unread hf0; obtain rfl := hNrm'.eq_unread hf1; obtain rfl := hWt'.eq_unread hf2; obtain rfl := hBias'.eq_unread hf3; obtain rfl := hCen'.eq_unread hf4; obtain rfl := hSums'.eq_unread hfs0; obtain rfl := hTot'.eq_unread hfs1
    sl_exec (disch := first | exact hFirst | exact hLast)
    sl_step
    iapply Hk
    isplitl [H0]
    · iexists _; isplitr; · ipureintro; exact hPts'.read_unread _
      iexact H0
    isplitl [H1]
    · iexists _; isplitr; · ipureintro; exact hNrm'.read_unread _
      iexact H1
    isplitl [H2]
    · iexists _; isplitr; · ipureintro; exact hWt'.read_unread _
      iexact H2
    isplitl [H3]
    · iexists _; isplitr; · ipureintro; exact hBias'.read_unread _
      iexact H3
    isplitl [H4]
    · iexists _; isplitr; · ipureintro; exact hCen'.read_unread _
      iexact H4
    isplitl [H5]; · iexists _; iexact H5
    isplitl [HS0]; · iexists _; iexact HS0
    iexists _; iexact HS1

end Cert.Kernel.Agg

end
-- ==== Proof.Kernel.Agg.Body.lean ====
/-
  The aggregation region: what the two accumulators and the result block hold after each grid point, the region's
  proof data, and the body obligation.

  After the first point each accumulator holds the first block's contribution over a reset; after every later point,
  what the point before left plus that point's block's. The result block is stored whole at the last point, from the
  accumulators' contents there and the centres. The region's invariant is the class's before the first point and
  afterwards carries both accumulators at exactly these contents (the earlier launch's scoped buffers ride along at some
  contents).
-/
import proofs.«181373_j45552423141540_1_alg».proof.Proof.Kernel.Agg.Last

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem sumsCover_first (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) (y : S64x128.Idx) :
    ∃ pc ∈ (runFirst c i aPts hPts' aNrm hNrm' aWt hWt' aBias hBias' aCen hCen' aOut hOut' aSums hSums' aTot hTot' hFirst hLast x0 x1 x2 x3 x4).2.1, y ∈ pc.1.set :=
  View.cover_of_tiledL (runFirst c i aPts hPts' aNrm hNrm' aWt hWt' aBias hBias' aCen hCen' aOut hOut' aSums hSums' aTot hTot' hFirst hLast x0 x1 x2 x3 x4).2.1 S64x128.size (by sl_kernel_rfl) y
theorem totCover_first (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) (y : S1x64.Idx) :
    ∃ pc ∈ (runFirst c i aPts hPts' aNrm hNrm' aWt hWt' aBias hBias' aCen hCen' aOut hOut' aSums hSums' aTot hTot' hFirst hLast x0 x1 x2 x3 x4).2.2.1, y ∈ pc.1.set :=
  View.cover_of_tiledL (runFirst c i aPts hPts' aNrm hNrm' aWt hWt' aBias hBias' aCen hCen' aOut hOut' aSums hSums' aTot hTot' hFirst hLast x0 x1 x2 x3 x4).2.2.1 S1x64.size (by sl_kernel_rfl) y
/-- What the first point leaves in the two accumulators: its pieces read back. -/
def sumsFirst (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) : Vec F S64x128 .f32 :=
  sumsView.read (Elt F) (sumsView.writes (Elt F) sumsView.junk (runFirst c i aPts hPts' aNrm hNrm' aWt hWt' aBias hBias' aCen hCen' aOut hOut' aSums hSums' aTot hTot' hFirst hLast x0 x1 x2 x3 x4).2.1)
def totFirst (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) : Vec F S1x64 .f32 :=
  totView.read (Elt F) (totView.writes (Elt F) totView.junk (runFirst c i aPts hPts' aNrm hNrm' aWt hWt' aBias hBias' aCen hCen' aOut hOut' aSums hSums' aTot hTot' hFirst hLast x0 x1 x2 x3 x4).2.2.1)

theorem sumsCover_mid (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) (y : S64x128.Idx) :
    ∃ pc ∈ (runMiddle c i aPts hPts' aNrm hNrm' aWt hWt' aBias hBias' aCen hCen' aOut hOut' aSums hSums' aTot hTot' hFirst hLast x0 x1 x2 x3 x4 xs0 xs1).2.1, y ∈ pc.1.set :=
  View.cover_of_tiledL (runMiddle c i aPts hPts' aNrm hNrm' aWt hWt' aBias hBias' aCen hCen' aOut hOut' aSums hSums' aTot hTot' hFirst hLast x0 x1 x2 x3 x4 xs0 xs1).2.1 S64x128.size (by sl_kernel_rfl) y
theorem totCover_mid (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) (y : S1x64.Idx) :
    ∃ pc ∈ (runMiddle c i aPts hPts' aNrm hNrm' aWt hWt' aBias hBias' aCen hCen' aOut hOut' aSums hSums' aTot hTot' hFirst hLast x0 x1 x2 x3 x4 xs0 xs1).2.2.1, y ∈ pc.1.set :=
  View.cover_of_tiledL (runMiddle c i aPts hPts' aNrm hNrm' aWt hWt' aBias hBias' aCen hCen' aOut hOut' aSums hSums' aTot hTot' hFirst hLast x0 x1 x2 x3 x4 xs0 xs1).2.2.1 S1x64.size (by sl_kernel_rfl) y
/-- What a middle point leaves in the two accumulators, over what the point before left. -/
def sumsMid (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) : Vec F S64x128 .f32 :=
  sumsView.read (Elt F) (sumsView.writes (Elt F) sumsView.junk (runMiddle c i aPts hPts' aNrm hNrm' aWt hWt' aBias hBias' aCen hCen' aOut hOut' aSums hSums' aTot hTot' hFirst hLast x0 x1 x2 x3 x4 xs0 xs1).2.1)
def totMid (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) : Vec F S1x64 .f32 :=
  totView.read (Elt F) (totView.writes (Elt F) totView.junk (runMiddle c i aPts hPts' aNrm hNrm' aWt hWt' aBias hBias' aCen hCen' aOut hOut' aSums hSums' aTot hTot' hFirst hLast x0 x1 x2 x3 x4 xs0 xs1).2.2.1)

theorem outCover_last (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) (y : S1x64x128.Idx) :
    ∃ pc ∈ (runLast c i aPts hPts' aNrm hNrm' aWt hWt' aBias hBias' aCen hCen' aOut hOut' aSums hSums' aTot hTot' hFirst hLast x0 x1 x2 x3 x4 xs0 xs1).1, y ∈ pc.1.set :=
  View.cover_of_tiledL (runLast c i aPts hPts' aNrm hNrm' aWt hWt' aBias hBias' aCen hCen' aOut hOut' aSums hSums' aTot hTot' hFirst hLast x0 x1 x2 x3 x4 xs0 xs1).1 S1x64x128.size (by sl_kernel_rfl) y
theorem sumsCover_last (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) (y : S64x128.Idx) :
    ∃ pc ∈ (runLast c i aPts hPts' aNrm hNrm' aWt hWt' aBias hBias' aCen hCen' aOut hOut' aSums hSums' aTot hTot' hFirst hLast x0 x1 x2 x3 x4 xs0 xs1).2.1, y ∈ pc.1.set :=
  View.cover_of_tiledL (runLast c i aPts hPts' aNrm hNrm' aWt hWt' aBias hBias' aCen hCen' aOut hOut' aSums hSums' aTot hTot' hFirst hLast x0 x1 x2 x3 x4 xs0 xs1).2.1 S64x128.size (by sl_kernel_rfl) y
theorem totCover_last (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) (y : S1x64.Idx) :
    ∃ pc ∈ (runLast c i aPts hPts' aNrm hNrm' aWt hWt' aBias hBias' aCen hCen' aOut hOut' aSums hSums' aTot hTot' hFirst hLast x0 x1 x2 x3 x4 xs0 xs1).2.2.1, y ∈ pc.1.set :=
  View.cover_of_tiledL (runLast c i aPts hPts' aNrm hNrm' aWt hWt' aBias hBias' aCen hCen' aOut hOut' aSums hSums' aTot hTot' hFirst hLast x0 x1 x2 x3 x4 xs0 xs1).2.2.1 S1x64.size (by sl_kernel_rfl) y
/-- What the last point leaves in the result block and in the two accumulators. -/
def outLast (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) : Vec F S1x64x128 .f32 :=
  outView.read (Elt F) (outView.writes (Elt F) outView.junk (runLast c i aPts hPts' aNrm hNrm' aWt hWt' aBias hBias' aCen hCen' aOut hOut' aSums hSums' aTot hTot' hFirst hLast x0 x1 x2 x3 x4 xs0 xs1).1)
def sumsLast (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) : Vec F S64x128 .f32 :=
  sumsView.read (Elt F) (sumsView.writes (Elt F) sumsView.junk (runLast c i aPts hPts' aNrm hNrm' aWt hWt' aBias hBias' aCen hCen' aOut hOut' aSums hSums' aTot hTot' hFirst hLast x0 x1 x2 x3 x4 xs0 xs1).2.1)
def totLast (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) : Vec F S1x64 .f32 :=
  totView.read (Elt F) (totView.writes (Elt F) totView.junk (runLast c i aPts hPts' aNrm hNrm' aWt hWt' aBias hBias' aCen hCen' aOut hOut' aSums hSums' aTot hTot' hFirst hLast x0 x1 x2 x3 x4 xs0 xs1).2.2.1)

/-- Away from the last point nothing is stored into the result block: a placeholder nothing consults (the window is
    idle there, neither written back nor read at the next point). -/
def outIdle : Vec F S1x64x128 .f32 := outView.read (Elt F) (outView.writes (Elt F) outView.junk [])

section

variable (V : (c : Dev nD) → (b : Ref sig .tc) → Buf (Elt F) ((c : Thread nD τ).loc b))

/-! ## Point by point -/

/-- What the result block, the sums accumulator and the totals accumulator hold after the body at position `n`: the
    first point's contents at 0; afterwards the last point's or a middle point's, over the accumulators the point
    before left. -/
def contentsAt (c : Dev nD) : (n : ℕ) → n < cfg1.N → Vec F S1x64x128 .f32 × Vec F S64x128 .f32 × Vec F S1x64 .f32
  | 0, hn =>
    have hf : isFirst (grid1.coords ⟨0, hn⟩) := (isFirst_iff ⟨0, hn⟩).mpr (Nat.zero_mod _)
    have hl : ¬isLast (grid1.coords ⟨0, hn⟩) := fun h => (fun h => by (try dsimp only at h); omega) ((isLast_iff ⟨0, hn⟩).mp h)
    (outIdle, sumsFirst c (grid1.coords ⟨0, hn⟩) (mPts ⟨0, hn⟩) (hPts ⟨0, hn⟩) (mNrm ⟨0, hn⟩) (hNrm ⟨0, hn⟩) (mWt ⟨0, hn⟩) (hWt ⟨0, hn⟩) (mBias ⟨0, hn⟩) (hBias ⟨0, hn⟩) (mCen ⟨0, hn⟩) (hCen ⟨0, hn⟩) (mOut ⟨0, hn⟩) (hOut ⟨0, hn⟩) mSums (Memref.isWhole_whole _) mTot (Memref.isWhole_whole _) hf hl (blk V c 0 ⟨0, hn⟩) (blk V c 1 ⟨0, hn⟩) (blk V c 2 ⟨0, hn⟩) (blk V c 3 ⟨0, hn⟩) (blk V c 4 ⟨0, hn⟩),
      totFirst c (grid1.coords ⟨0, hn⟩) (mPts ⟨0, hn⟩) (hPts ⟨0, hn⟩) (mNrm ⟨0, hn⟩) (hNrm ⟨0, hn⟩) (mWt ⟨0, hn⟩) (hWt ⟨0, hn⟩) (mBias ⟨0, hn⟩) (hBias ⟨0, hn⟩) (mCen ⟨0, hn⟩) (hCen ⟨0, hn⟩) (mOut ⟨0, hn⟩) (hOut ⟨0, hn⟩) mSums (Memref.isWhole_whole _) mTot (Memref.isWhole_whole _) hf hl (blk V c 0 ⟨0, hn⟩) (blk V c 1 ⟨0, hn⟩) (blk V c 2 ⟨0, hn⟩) (blk V c 3 ⟨0, hn⟩) (blk V c 4 ⟨0, hn⟩))
  | n + 1, hn =>
    have hnf : ¬isFirst (grid1.coords ⟨n + 1, hn⟩) := fun h => (fun h => by have hN : n + 1 < 40 := lt_of_lt_of_eq hn (show cfg1.N = 40 from N_1); (try dsimp only at h); omega) ((isFirst_iff ⟨n + 1, hn⟩).mp h)
    if h1 : (n + 1) % 40 = 39 then
      (outLast c (grid1.coords ⟨n + 1, hn⟩) (mPts ⟨n + 1, hn⟩) (hPts ⟨n + 1, hn⟩) (mNrm ⟨n + 1, hn⟩) (hNrm ⟨n + 1, hn⟩) (mWt ⟨n + 1, hn⟩) (hWt ⟨n + 1, hn⟩) (mBias ⟨n + 1, hn⟩) (hBias ⟨n + 1, hn⟩) (mCen ⟨n + 1, hn⟩) (hCen ⟨n + 1, hn⟩) (mOut ⟨n + 1, hn⟩) (hOut ⟨n + 1, hn⟩) mSums (Memref.isWhole_whole _) mTot (Memref.isWhole_whole _) hnf ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (contentsAt c n (Nat.lt_of_succ_lt hn)).2.1 (contentsAt c n (Nat.lt_of_succ_lt hn)).2.2,
        sumsLast c (grid1.coords ⟨n + 1, hn⟩) (mPts ⟨n + 1, hn⟩) (hPts ⟨n + 1, hn⟩) (mNrm ⟨n + 1, hn⟩) (hNrm ⟨n + 1, hn⟩) (mWt ⟨n + 1, hn⟩) (hWt ⟨n + 1, hn⟩) (mBias ⟨n + 1, hn⟩) (hBias ⟨n + 1, hn⟩) (mCen ⟨n + 1, hn⟩) (hCen ⟨n + 1, hn⟩) (mOut ⟨n + 1, hn⟩) (hOut ⟨n + 1, hn⟩) mSums (Memref.isWhole_whole _) mTot (Memref.isWhole_whole _) hnf ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (contentsAt c n (Nat.lt_of_succ_lt hn)).2.1 (contentsAt c n (Nat.lt_of_succ_lt hn)).2.2,
        totLast c (grid1.coords ⟨n + 1, hn⟩) (mPts ⟨n + 1, hn⟩) (hPts ⟨n + 1, hn⟩) (mNrm ⟨n + 1, hn⟩) (hNrm ⟨n + 1, hn⟩) (mWt ⟨n + 1, hn⟩) (hWt ⟨n + 1, hn⟩) (mBias ⟨n + 1, hn⟩) (hBias ⟨n + 1, hn⟩) (mCen ⟨n + 1, hn⟩) (hCen ⟨n + 1, hn⟩) (mOut ⟨n + 1, hn⟩) (hOut ⟨n + 1, hn⟩) mSums (Memref.isWhole_whole _) mTot (Memref.isWhole_whole _) hnf ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (contentsAt c n (Nat.lt_of_succ_lt hn)).2.1 (contentsAt c n (Nat.lt_of_succ_lt hn)).2.2)
    else
      (outIdle, sumsMid c (grid1.coords ⟨n + 1, hn⟩) (mPts ⟨n + 1, hn⟩) (hPts ⟨n + 1, hn⟩) (mNrm ⟨n + 1, hn⟩) (hNrm ⟨n + 1, hn⟩) (mWt ⟨n + 1, hn⟩) (hWt ⟨n + 1, hn⟩) (mBias ⟨n + 1, hn⟩) (hBias ⟨n + 1, hn⟩) (mCen ⟨n + 1, hn⟩) (hCen ⟨n + 1, hn⟩) (mOut ⟨n + 1, hn⟩) (hOut ⟨n + 1, hn⟩) mSums (Memref.isWhole_whole _) mTot (Memref.isWhole_whole _) hnf (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (contentsAt c n (Nat.lt_of_succ_lt hn)).2.1 (contentsAt c n (Nat.lt_of_succ_lt hn)).2.2,
        totMid c (grid1.coords ⟨n + 1, hn⟩) (mPts ⟨n + 1, hn⟩) (hPts ⟨n + 1, hn⟩) (mNrm ⟨n + 1, hn⟩) (hNrm ⟨n + 1, hn⟩) (mWt ⟨n + 1, hn⟩) (hWt ⟨n + 1, hn⟩) (mBias ⟨n + 1, hn⟩) (hBias ⟨n + 1, hn⟩) (mCen ⟨n + 1, hn⟩) (hCen ⟨n + 1, hn⟩) (mOut ⟨n + 1, hn⟩) (hOut ⟨n + 1, hn⟩) mSums (Memref.isWhole_whole _) mTot (Memref.isWhole_whole _) hnf (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (contentsAt c n (Nat.lt_of_succ_lt hn)).2.1 (contentsAt c n (Nat.lt_of_succ_lt hn)).2.2)

/-- A point that is not the first is not in the first case. -/
theorem notFirst_of (t : Fin cfg1.N) (h0 : ¬t.val % 40 = 0) : ¬isFirst (grid1.coords t) := fun h => h0 ((isFirst_iff t).mp h)

/-- `contentsAt` at the first point. -/
theorem contentsAt_first (c : Dev nD) (t : Fin cfg1.N) (h0 : t.val % 40 = 0) (h1 : ¬t.val % 40 = 39) :
    contentsAt V c t.val t.isLt = (outIdle, sumsFirst c (grid1.coords t) (mPts t) (hPts t) (mNrm t) (hNrm t) (mWt t) (hWt t) (mBias t) (hBias t) (mCen t) (hCen t) (mOut t) (hOut t) mSums (Memref.isWhole_whole _) mTot (Memref.isWhole_whole _) ((isFirst_iff t).mpr h0) (fun h => h1 ((isLast_iff t).mp h)) (blk V c 0 t) (blk V c 1 t) (blk V c 2 t) (blk V c 3 t) (blk V c 4 t),
      totFirst c (grid1.coords t) (mPts t) (hPts t) (mNrm t) (hNrm t) (mWt t) (hWt t) (mBias t) (hBias t) (mCen t) (hCen t) (mOut t) (hOut t) mSums (Memref.isWhole_whole _) mTot (Memref.isWhole_whole _) ((isFirst_iff t).mpr h0) (fun h => h1 ((isLast_iff t).mp h)) (blk V c 0 t) (blk V c 1 t) (blk V c 2 t) (blk V c 3 t) (blk V c 4 t)) := by
  obtain ⟨n, hn⟩ := t
  cases n with
  | zero => exact rfl
  | succ n => exact (by exfalso; have hN : n + 1 < 40 := lt_of_lt_of_eq hn (show cfg1.N = 40 from N_1); (try dsimp only at h0); omega)

/-- `contentsAt` at a middle point: over what the point before left. -/
theorem contentsAt_mid (c : Dev nD) (t : Fin cfg1.N) (h0 : ¬t.val % 40 = 0) (h1 : ¬t.val % 40 = 39) :
    contentsAt V c t.val t.isLt = (outIdle, sumsMid c (grid1.coords t) (mPts t) (hPts t) (mNrm t) (hNrm t) (mWt t) (hWt t) (mBias t) (hBias t) (mCen t) (hCen t) (mOut t) (hOut t) mSums (Memref.isWhole_whole _) mTot (Memref.isWhole_whole _) (notFirst_of t h0) (fun h => h1 ((isLast_iff t).mp h)) (blk V c 0 t) (blk V c 1 t) (blk V c 2 t) (blk V c 3 t) (blk V c 4 t) (contentsAt V c (t.val - 1) (Nat.lt_of_le_of_lt (Nat.sub_le _ _) t.isLt)).2.1 (contentsAt V c (t.val - 1) (Nat.lt_of_le_of_lt (Nat.sub_le _ _) t.isLt)).2.2,
      totMid c (grid1.coords t) (mPts t) (hPts t) (mNrm t) (hNrm t) (mWt t) (hWt t) (mBias t) (hBias t) (mCen t) (hCen t) (mOut t) (hOut t) mSums (Memref.isWhole_whole _) mTot (Memref.isWhole_whole _) (notFirst_of t h0) (fun h => h1 ((isLast_iff t).mp h)) (blk V c 0 t) (blk V c 1 t) (blk V c 2 t) (blk V c 3 t) (blk V c 4 t) (contentsAt V c (t.val - 1) (Nat.lt_of_le_of_lt (Nat.sub_le _ _) t.isLt)).2.1 (contentsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- `contentsAt` at the last point: over what the point before left. -/
theorem contentsAt_last (c : Dev nD) (t : Fin cfg1.N) (h0 : ¬t.val % 40 = 0) (h1 : t.val % 40 = 39) :
    contentsAt V c t.val t.isLt = (outLast c (grid1.coords t) (mPts t) (hPts t) (mNrm t) (hNrm t) (mWt t) (hWt t) (mBias t) (hBias t) (mCen t) (hCen t) (mOut t) (hOut t) mSums (Memref.isWhole_whole _) mTot (Memref.isWhole_whole _) (notFirst_of t h0) ((isLast_iff t).mpr h1) (blk V c 0 t) (blk V c 1 t) (blk V c 2 t) (blk V c 3 t) (blk V c 4 t) (contentsAt V c (t.val - 1) (Nat.lt_of_le_of_lt (Nat.sub_le _ _) t.isLt)).2.1 (contentsAt V c (t.val - 1) (Nat.lt_of_le_of_lt (Nat.sub_le _ _) t.isLt)).2.2,
      sumsLast c (grid1.coords t) (mPts t) (hPts t) (mNrm t) (hNrm t) (mWt t) (hWt t) (mBias t) (hBias t) (mCen t) (hCen t) (mOut t) (hOut t) mSums (Memref.isWhole_whole _) mTot (Memref.isWhole_whole _) (notFirst_of t h0) ((isLast_iff t).mpr h1) (blk V c 0 t) (blk V c 1 t) (blk V c 2 t) (blk V c 3 t) (blk V c 4 t) (contentsAt V c (t.val - 1) (Nat.lt_of_le_of_lt (Nat.sub_le _ _) t.isLt)).2.1 (contentsAt V c (t.val - 1) (Nat.lt_of_le_of_lt (Nat.sub_le _ _) t.isLt)).2.2,
      totLast c (grid1.coords t) (mPts t) (hPts t) (mNrm t) (hNrm t) (mWt t) (hWt t) (mBias t) (hBias t) (mCen t) (hCen t) (mOut t) (hOut t) mSums (Memref.isWhole_whole _) mTot (Memref.isWhole_whole _) (notFirst_of t h0) ((isLast_iff t).mpr h1) (blk V c 0 t) (blk V c 1 t) (blk V c 2 t) (blk V c 3 t) (blk V c 4 t) (contentsAt V c (t.val - 1) (Nat.lt_of_le_of_lt (Nat.sub_le _ _) t.isLt)).2.1 (contentsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The invariant -/

/-- The region's invariant before position `n`: the class's before the first point; afterwards both accumulators at
    what the point before left, the earlier launch's scoped buffers at some contents, the generator register at some
    state. -/
def inv (c : Dev nD) : (n : ℕ) → n ≤ cfg1.N → sProp 𝕄
  | 0, _ => Pipeline.ΦA spec1 c
  | n + 1, hn => iprop(withOthers (F := F) c iprop(owns (c : Thread nD τ) mSums fullShare ((contentsAt V c n hn).2.1) ∗ owns (c : Thread nD τ) mTot fullShare ((contentsAt V c n hn).2.2)) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(withOthers (F := F) c iprop(owns (c : Thread nD τ) mSums fullShare ((contentsAt V c n hn).2.1) ∗ owns (c : Thread nD τ) mTot fullShare ((contentsAt V c n hn).2.2)) ∗ (∃ r, prngReg c r)) := rfl

theorem inv_pos (c : Dev nD) (n : ℕ) (h : n ≤ cfg1.N) (hz : n ≠ 0) :
    inv V c n h = iprop(withOthers (F := F) c iprop(owns (c : Thread nD τ) mSums fullShare ((contentsAt V c (n - 1) (by omega)).2.1) ∗ owns (c : Thread nD τ) mTot fullShare ((contentsAt V c (n - 1) (by omega)).2.2)) ∗ (∃ r, prngReg c r)) := by
  cases n with
  | zero => exact absurd rfl hz
  | succ n => rfl

/-! ## The proof data -/

/-- The region's proof data on core `c`: the arrays as the region finds them; after the body at point `t` each input's
    buffer at its block and the output's at `contentsAt`; the invariant above; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (contentsAt V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]

theorem inv_castSucc (c : Dev nD) (t : Fin cfg1.N) :
    (dat V c).Φ t.castSucc = inv V c t.val (Nat.le_of_lt t.isLt) := by
  dsimp only [dat]; simp only [Fin.coe_castSucc]

theorem after_in0 (c : Dev nD) (t : Fin cfg1.N) : (dat V c).after 0 t = blk V c 0 t := by dsimp only [dat]
theorem after_in1 (c : Dev nD) (t : Fin cfg1.N) : (dat V c).after 1 t = blk V c 1 t := by dsimp only [dat]
theorem after_in2 (c : Dev nD) (t : Fin cfg1.N) : (dat V c).after 2 t = blk V c 2 t := by dsimp only [dat]
theorem after_in3 (c : Dev nD) (t : Fin cfg1.N) : (dat V c).after 3 t = blk V c 3 t := by dsimp only [dat]
theorem after_in4 (c : Dev nD) (t : Fin cfg1.N) : (dat V c).after 4 t = blk V c 4 t := by dsimp only [dat]
theorem after_out (c : Dev nD) (t : Fin cfg1.N) : (dat V c).after 5 t = (contentsAt V c t.val t.isLt).1 := by dsimp only [dat]

theorem before_in0 (c : Dev nD) (t : Fin cfg1.N) (d) : (dat V c).before 0 t d = blk V c 0 t :=
  before_in0_of V (dat V c) (A_eq V c 0) (after_in0 V c) t d
theorem before_in1 (c : Dev nD) (t : Fin cfg1.N) (d) : (dat V c).before 1 t d = blk V c 1 t :=
  before_in1_of V (dat V c) (A_eq V c 1) (after_in1 V c) t d
theorem before_in2 (c : Dev nD) (t : Fin cfg1.N) (d) : (dat V c).before 2 t d = blk V c 2 t :=
  before_in2_of V (dat V c) (A_eq V c 2) (after_in2 V c) t d
theorem before_in3 (c : Dev nD) (t : Fin cfg1.N) (d) : (dat V c).before 3 t d = blk V c 3 t :=
  before_in3_of V (dat V c) (A_eq V c 3) (after_in3 V c) t d
theorem before_in4 (c : Dev nD) (t : Fin cfg1.N) (d) : (dat V c).before 4 t d = blk V c 4 t :=
  before_in4_of V (dat V c) (A_eq V c 4) (after_in4 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (mPts t) fullShare ((dat V c).before 0 t d))
    ∗ (∃ d, owns (c : Thread nD τ) (mNrm t) fullShare ((dat V c).before 1 t d))
    ∗ (∃ d, owns (c : Thread nD τ) (mWt t) fullShare ((dat V c).before 2 t d))
    ∗ (∃ d, owns (c : Thread nD τ) (mBias t) fullShare ((dat V c).before 3 t d))
    ∗ (∃ d, owns (c : Thread nD τ) (mCen t) fullShare ((dat V c).before 4 t d))
    ∗ (∃ d, owns (c : Thread nD τ) (mOut t) fullShare ((dat V c).before 5 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 8000000 in
/-- The body at any point. Each input's memref holds its block; the coordinate says which case the point is in; the
    invariant hands the body both accumulators at what the point before left (at anything at the first point) and takes
    them back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4]
  rw [show (dat V c).owesAt () t.succ = (dat V c).owesAt () t.castSucc from rfl]
  rw [show (dat V c).Φ t.succ = inv V c (t.val + 1) t.isLt from rfl, inv_succ]
  have hN : t.val < 40 := lt_of_lt_of_eq t.isLt (show cfg1.N = 40 from N_1)
  rw [show (dat V c).leavesExact 0 t = owns (c : Thread nD τ) (mPts t) fullShare ((dat V c).after 0 t) from by
    unfold Dat.leavesExact; rw [live_in0 t], after_in0]
  rw [show (dat V c).leavesExact 1 t = owns (c : Thread nD τ) (mNrm t) fullShare ((dat V c).after 1 t) from by
    unfold Dat.leavesExact; rw [live_in1 t], after_in1]
  rw [show (dat V c).leavesExact 2 t = owns (c : Thread nD τ) (mWt t) fullShare ((dat V c).after 2 t) from by
    unfold Dat.leavesExact; rw [live_in2 t], after_in2]
  rw [show (dat V c).leavesExact 3 t = owns (c : Thread nD τ) (mBias t) fullShare ((dat V c).after 3 t) from by
    unfold Dat.leavesExact; rw [live_in3 t], after_in3]
  rw [show (dat V c).leavesExact 4 t = owns (c : Thread nD τ) (mCen t) fullShare ((dat V c).after 4 t) from by
    unfold Dat.leavesExact; rw [live_in4 t], after_in4]
  by_cases h0 : t.val % 40 = 0
  · have h1 : ¬t.val % 40 = 39 := by omega
    have hz : t.val = 0 := by omega
    rw [Dat.leavesExact_idle (dat V c) 5 t (idle_out t (fun h => h1 ((isLast_iff t).mp h))) (noFlush_out t (fun h => h1 ((isLast_iff t).mp h)))]
    rw [contentsAt_first V c t h0 h1]
    unfold sumsFirst totFirst; (try dsimp only)
    rw [inv_castSucc V c t, inv_zero V c _ _ hz, classInv_eq]
    unfold withOthers
    iintro ⟨⟨⟨Hr1, Hr2, Hr3, Hr4, HS0, HS1⟩, Hg⟩, Ho, ⟨%d0, H0⟩, ⟨%d1, H1⟩, ⟨%d2, H2⟩, ⟨%d3, H3⟩, ⟨%d4, H4⟩, ⟨%d5, H5⟩⟩
    iapply ((runFirst c (grid1.coords t) _ _ _ _ _ _ _ _ _ _ _ _ _ _ _ _ ((isFirst_iff t).mpr h0) (fun h => h1 ((isLast_iff t).mp h)) (blk V c 0 t) (blk V c 1 t) (blk V c 2 t) (blk V c 3 t) (blk V c 4 t)).2.2.2 _ Set.univ _)
    · isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr1 Hr2 Hr3 Hr4 Hg]
      · isplitl [HS0 HS1 Hr1 Hr2 Hr3 Hr4]
        · isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (sumsCover_first c _ _ _ _ _ _ _ _ _ _ _ _ _ _ _ _ _ _ _ _ _ _ _ _)
          unfold owns; iexists _; isplitr
          swap; · iexact HS1
          ipureintro; exact View.read_writes_of_cover _ _ _ _ _ (totCover_first c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 40 = 39
    · rw [show (dat V c).leavesExact 5 t = owns (c : Thread nD τ) (mOut t) fullShare ((dat V c).after 5 t) from by
        unfold Dat.leavesExact; rw [live_out t ((isLast_iff t).mpr h1)], after_out]
      rw [contentsAt_last V c t h0 h1]
      unfold outLast sumsLast totLast; (try dsimp only)
      rw [inv_castSucc V c t, inv_pos V c _ _ hz]
      unfold withOthers
      iintro ⟨⟨⟨Hr1, Hr2, Hr3, Hr4, HS0, HS1⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ _ _ (notFirst_of t h0) ((isLast_iff t).mpr h1) (blk V c 0 t) (blk V c 1 t) (blk V c 2 t) (blk V c 3 t) (blk V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hr1 Hr2 Hr3 Hr4 Hg]
      · isplitl [HS0 HS1 Hr1 Hr2 Hr3 Hr4]
        · isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (sumsCover_last c _ _ _ _ _ _ _ _ _ _ _ _ _ _ _ _ _ _ _ _ _ _ _ _ _ _)
          unfold owns; iexists _; isplitr
          swap; · iexact HS1
          ipureintro; exact View.read_writes_of_cover _ _ _ _ _ (totCover_last c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCover_last c _ _ _ _ _ _ _ _ _ _ _ _ _ _ _ _ _ _ _ _ _ _ _ _ _ _)
    · rw [Dat.leavesExact_idle (dat V c) 5 t (idle_out t (fun h => h1 ((isLast_iff t).mp h))) (noFlush_out t (fun h => h1 ((isLast_iff t).mp h)))]
      rw [contentsAt_mid V c t h0 h1]
      unfold sumsMid totMid; (try dsimp only)
      rw [inv_castSucc V c t, inv_pos V c _ _ hz]
      unfold withOthers
      iintro ⟨⟨⟨Hr1, Hr2, Hr3, Hr4, HS0, HS1⟩, Hg⟩, Ho, ⟨%d0, H0⟩, ⟨%d1, H1⟩, ⟨%d2, H2⟩, ⟨%d3, H3⟩, ⟨%d4, H4⟩, ⟨%d5, H5⟩⟩
      iapply ((runMiddle c (grid1.coords t) _ _ _ _ _ _ _ _ _ _ _ _ _ _ _ _ (notFirst_of t h0) (fun h => h1 ((isLast_iff t).mp h)) (blk V c 0 t) (blk V c 1 t) (blk V c 2 t) (blk V c 3 t) (blk V c 4 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr1 Hr2 Hr3 Hr4 Hg]
      · isplitl [HS0 HS1 Hr1 Hr2 Hr3 Hr4]
        · isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (sumsCover_mid c _ _ _ _ _ _ _ _ _ _ _ _ _ _ _ _ _ _ _ _ _ _ _ _ _ _)
          unfold owns; iexists _; isplitr
          swap; · iexact HS1
          ipureintro; exact View.read_writes_of_cover _ _ _ _ _ (totCover_mid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives the class's back: the accumulators' named contents are forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 40 := N_1; omega), classInv_eq]
  unfold withOthers
  iintro ⟨⟨Hr1, Hr2, Hr3, Hr4, HS0, HS1⟩, Hg⟩
  isplitl [HS0 HS1 Hr1 Hr2 Hr3 Hr4]
  · isplitl [Hr1]; · iexact Hr1
    isplitl [Hr2]; · iexact Hr2
    isplitl [Hr3]; · iexact Hr3
    isplitl [Hr4]; · iexact Hr4
    isplitl [HS0]; · iexists _; iexact HS0
    iexists _; iexact HS1
  iexact Hg

end

end Cert.Kernel.Agg

end
-- ==== Proof.Kernel.Whole.lean ====
/-
  The whole program on one core, in its three steps: the column-norm region, the two host operations, the aggregation
  region.

  What every unscoped buffer holds at each boundary is a fold from the launch memory: a region replaces its windows'
  arrays by what its pipeline leaves in them (an input window's array is left as entered, an output window's array
  holds its write-backs) and touches no other buffer; the host operations write the transposed weights and the bias
  as a row and touch nothing else. The run threads "every unscoped buffer at the boundary's contents" through the
  three steps, and at the end each buffer is read off the last boundary. No step writes an argument, so each argument
  reads back as launched.
-/
import proofs.«181373_j45552423141540_1_alg».proof.Proof.Kernel.Norm.Body
import proofs.«181373_j45552423141540_1_alg».proof.Proof.Kernel.Agg.Body
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- Core `c`'s buffers at launch. -/
abbrev atLaunch : Dev nD → Valuation τ sig (Elt F) := fun c b => m (c, b)
/-- The same, read at the core's own references: what the column-norm region is entered with. -/
abbrev entryNorm : (c : Dev nD) → (b : Ref sig .tc) → Buf (Elt F) ((c : Thread nD τ).loc b) := fun c b => atLaunch m c b
/-- After the column-norm region: its two arrays at what its pipeline leaves, every other buffer as launched. -/
def afterNorm (c : Dev nD) : Valuation τ sig (Elt F) :=
  Pipeline.withArrays spec0 c (atLaunch m c) fun w => (Norm.dat (entryNorm m) c).arrAt w cfg0.N
/-- After the two host operations: what the aggregation region is entered with. -/
abbrev atAgg : Dev nD → Valuation τ sig (Elt F) := fun c => StableHlo.after hostOps1 (afterNorm m c)
/-- The same, read at the core's own references. -/
abbrev entryAgg : (c : Dev nD) → (b : Ref sig .tc) → Buf (Elt F) ((c : Thread nD τ).loc b) := fun c b => atAgg m c b
/-- After the aggregation region, which is the end: its six arrays at what its pipeline leaves, every other buffer as
    the region was entered. -/
def atEnd (c : Dev nD) : Valuation τ sig (Elt F) :=
  Pipeline.withArrays spec1 c (atAgg m c) fun w => (Agg.dat (entryAgg m) c).arrAt w cfg1.N

/-! ### A region's exit contents, at one of its arrays and at any other buffer -/

theorem afterNorm_arr (c : Dev nD) (w : Fin cfg0.W) :
    afterNorm m c (Proc.devRef .tc (Pipeline.arrRef spec0 w)) = (Norm.dat (entryNorm m) c).arrAt w cfg0.N := by
  unfold afterNorm; exact Pipeline.withArrays_arr spec0 launch0.win.arr_inj c _ _ w
theorem afterNorm_other (c : Dev nD) (b : Ref sig .tc) (hb : ∀ w, Pipeline.arrRef spec0 w ≠ b) :
    afterNorm m c (Proc.devRef .tc b) = atLaunch m c (Proc.devRef .tc b) := by
  unfold afterNorm; exact Pipeline.withArrays_of_ne spec0 c _ _ b hb
theorem atEnd_arr (c : Dev nD) (w : Fin cfg1.W) :
    atEnd m c (Proc.devRef .tc (Pipeline.arrRef spec1 w)) = (Agg.dat (entryAgg m) c).arrAt w cfg1.N := by
  unfold atEnd; exact Pipeline.withArrays_arr spec1 launch1.win.arr_inj c _ _ w
theorem atEnd_other (c : Dev nD) (b : Ref sig .tc) (hb : ∀ w, Pipeline.arrRef spec1 w ≠ b) :
    atEnd m c (Proc.devRef .tc b) = atAgg m c (Proc.devRef .tc b) := by
  unfold atEnd; exact Pipeline.withArrays_of_ne spec1 c _ _ b hb

/-- The exit contents read at the core's own references. -/
abbrev exitNorm : (c : Dev nD) → (b : Ref sig .tc) → Buf (Elt F) ((c : Thread nD τ).loc b) := fun c b => afterNorm m c b
abbrev exitAgg : (c : Dev nD) → (b : Ref sig .tc) → Buf (Elt F) ((c : Thread nD τ).loc b) := fun c b => atEnd m c b

/-- At a region's exit each of its arrays holds what the pipeline leaves and every other buffer what it held at entry:
    the two facts by which the arrays and the bypassing buffers are put back together into "every unscoped buffer". -/
theorem normLeaves (c : Dev nD) (w : Fin cfg0.W) :
    (Norm.dat (entryNorm m) c).arrAt w cfg0.N = exitNorm m c (Pipeline.arrRef spec0 w) := (afterNorm_arr m c w).symm
theorem normKeeps (c : Dev nD) : ∀ b, b ∉ Finset.univ.image (Pipeline.arrRef spec0) → exitNorm m c b = entryNorm m c b :=
  fun b hb => afterNorm_other m c b fun w e => hb (Finset.mem_image.mpr ⟨w, Finset.mem_univ _, e⟩)
theorem aggLeaves (c : Dev nD) (w : Fin cfg1.W) :
    (Agg.dat (entryAgg m) c).arrAt w cfg1.N = exitAgg m c (Pipeline.arrRef spec1 w) := (atEnd_arr m c w).symm
theorem aggKeeps (c : Dev nD) : ∀ b, b ∉ Finset.univ.image (Pipeline.arrRef spec1) → exitAgg m c b = entryAgg m c b :=
  fun b hb => atEnd_other m c b fun w e => hb (Finset.mem_image.mpr ⟨w, Finset.mem_univ _, e⟩)

/-! ### The host operations write the transposed weights and the bias row, and nothing else -/

theorem hostOps1_keeps (V : Valuation τ sig (Elt F)) (r : Ref sig .tc) (hw : r ≠ main_v1) (hb : r ≠ main_v2) :
    StableHlo.after hostOps1 V (Proc.devRef .tc r) = V (Proc.devRef .tc r) := by
  simp only [hostOps1, StableHlo.after_cons, StableHlo.after_nil]
  rw [StableHlo.reshape_result_ne (h := hb), StableHlo.unary_result_ne (h := hw)]

/-! ### What the aggregation region is entered with, array by array -/

/-- The points: launched, an input of the column-norm region, untouched by the host operations. -/
theorem entryAgg_pts (c : Dev nD) : entryAgg m c main_arg0 = m ((c : Thread nD τ).loc main_arg0) :=
  calc entryAgg m c main_arg0
    _ = afterNorm m c (Proc.devRef .tc main_arg0) := hostOps1_keeps _ main_arg0 (by decide) (by decide)
    _ = (Norm.dat (entryNorm m) c).A 0 := (afterNorm_arr m c 0).trans ((Norm.dat (entryNorm m) c).arrAt_in 0 rfl _)
    _ = m ((c : Thread nD τ).loc main_arg0) := Norm.A_eq (entryNorm m) c 0

/-- The centres: launched, no array of the column-norm region, untouched by the host operations. -/
theorem entryAgg_cen (c : Dev nD) : entryAgg m c main_arg3 = m ((c : Thread nD τ).loc main_arg3) :=
  calc entryAgg m c main_arg3
    _ = afterNorm m c (Proc.devRef .tc main_arg3) := hostOps1_keeps _ main_arg3 (by decide) (by decide)
    _ = m ((c : Thread nD τ).loc main_arg3) := afterNorm_other m c main_arg3 (by decide)

/-- The column norms: what the column-norm region's pipeline leaves in its output array. -/
theorem entryAgg_norm (c : Dev nD) : entryAgg m c main_v0 = (Norm.dat (entryNorm m) c).arrAt 1 cfg0.N :=
  calc entryAgg m c main_v0
    _ = afterNorm m c (Proc.devRef .tc main_v0) := hostOps1_keeps _ main_v0 (by decide) (by decide)
    _ = (Norm.dat (entryNorm m) c).arrAt 1 cfg0.N := afterNorm_arr m c 1

/-- The weights, transposed by the first host operation from the launched weights. -/
theorem entryAgg_wT (c : Dev nD) :
    entryAgg m c main_v1
      = transpose S128x64 [1, 0] (m ((c : Thread nD τ).loc main_arg1)) transposes_S64x128_S128x64_1_0 := by
  have hw : afterNorm m c (Proc.devRef .tc main_arg1) = m ((c : Thread nD τ).loc main_arg1) :=
    afterNorm_other m c main_arg1 (by decide)
  show StableHlo.after hostOps1 (afterNorm m c) (Proc.devRef .tc main_v1) = _
  rw [← hw]
  simp only [hostOps1]
  after_results

/-- The bias, laid out as a row by the second host operation from the launched bias. -/
theorem entryAgg_bias (c : Dev nD) :
    entryAgg m c main_v2 = shapeCast S1x64 (m ((c : Thread nD τ).loc main_arg2)) shapeCasts_S64_S1x64 := by
  have hb : afterNorm m c (Proc.devRef .tc main_arg2) = m ((c : Thread nD τ).loc main_arg2) :=
    afterNorm_other m c main_arg2 (by decide)
  show StableHlo.after hostOps1 (afterNorm m c) (Proc.devRef .tc main_v2) = _
  rw [← hb]
  simp only [hostOps1]
  after_results
  rfl

/-! ### The arguments and the result at the end

No step writes an argument. The points are an input window's array in both regions and the centres one in the second,
and an input window's array is left as entered; the weights and the bias are no window's array at all; the host
operations write neither. -/

theorem atEnd_main_arg0 (c : Dev nD) : atEnd m c (Proc.devRef .tc main_arg0) = m ((c : Thread nD τ).loc main_arg0) :=
  calc atEnd m c (Proc.devRef .tc main_arg0)
    _ = (Agg.dat (entryAgg m) c).A 0 := (atEnd_arr m c 0).trans ((Agg.dat (entryAgg m) c).arrAt_in 0 rfl _)
    _ = entryAgg m c main_arg0 := Agg.A_eq (entryAgg m) c 0
    _ = m ((c : Thread nD τ).loc main_arg0) := entryAgg_pts m c

theorem atEnd_main_arg1 (c : Dev nD) : atEnd m c (Proc.devRef .tc main_arg1) = m ((c : Thread nD τ).loc main_arg1) :=
  calc atEnd m c (Proc.devRef .tc main_arg1)
    _ = atAgg m c (Proc.devRef .tc main_arg1) := atEnd_other m c main_arg1 (by decide)
    _ = afterNorm m c (Proc.devRef .tc main_arg1) := hostOps1_keeps _ main_arg1 (by decide) (by decide)
    _ = m ((c : Thread nD τ).loc main_arg1) := afterNorm_other m c main_arg1 (by decide)

theorem atEnd_main_arg2 (c : Dev nD) : atEnd m c (Proc.devRef .tc main_arg2) = m ((c : Thread nD τ).loc main_arg2) :=
  calc atEnd m c (Proc.devRef .tc main_arg2)
    _ = atAgg m c (Proc.devRef .tc main_arg2) := atEnd_other m c main_arg2 (by decide)
    _ = afterNorm m c (Proc.devRef .tc main_arg2) := hostOps1_keeps _ main_arg2 (by decide) (by decide)
    _ = m ((c : Thread nD τ).loc main_arg2) := afterNorm_other m c main_arg2 (by decide)

theorem atEnd_main_arg3 (c : Dev nD) : atEnd m c (Proc.devRef .tc main_arg3) = m ((c : Thread nD τ).loc main_arg3) :=
  calc atEnd m c (Proc.devRef .tc main_arg3)
    _ = (Agg.dat (entryAgg m) c).A 4 := (atEnd_arr m c 4).trans ((Agg.dat (entryAgg m) c).arrAt_in 4 rfl _)
    _ = entryAgg m c main_arg3 := Agg.A_eq (entryAgg m) c 4
    _ = m ((c : Thread nD τ).loc main_arg3) := entryAgg_cen m c

/-- The result is what the aggregation region's pipeline leaves in its output array. -/
theorem atEnd_result (c : Dev nD) : atEnd m c (Proc.devRef .tc main_v3) = (Agg.dat (entryAgg m) c).arrAt 5 cfg1.N :=
  atEnd_arr m c 5

/-! ## The proof data of both pipelines, and what rides beside the buffers -/

/-- Neither pipeline has a prefetched table. -/
abbrev adm : (p : Fin 2) → (pcfgs (F := F) p).Adm := fun p => (cfgs p).toPCfg_adm
/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => Norm.dat (entryNorm m) c
  | ⟨1, _⟩ => fun c => Agg.dat (entryAgg m) c
abbrev 𝒱₀ : Variants := Variants.none
/-- No core owes another anything. -/
abbrev L : GSem nD τ sig → Finset Unit := fun _ => ∅
abbrev lv : GSem nD τ sig → Unit → ℕ := fun _ _ => 0
/-- Beside the buffers, through every step: the core's generator register at some state, and the core owing nothing. -/
abbrev rider (c : Dev nD) : sProp 𝕄 :=
  iprop((∃ r, prngReg c r) ∗ ∃ W, owes (c : Thread nD τ) (0 : CellTallies nD τ sig Unit) W)

/-- Neither host operation allocates a buffer. -/
theorem hostOps1_fresh : (hostOps1 : List (HloOp τ sig (Elt F))).Forall fun op => op.fresh = ∅ := by
  simp only [List.Forall]; repeat' constructor
/-- The host operations as one step over every unscoped buffer, from the contents `W` to those after them. -/
abbrev hostStep (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) W rider
/-- An unscoped reference of the core is among the buffers threaded through the run. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the owing-nothing part: every unscoped buffer at the end contents, the generator register. -/
abbrev lastState (c : Dev nD) : sProp 𝕄 :=
  iprop(StableHlo.held (c : Thread nD τ) (Pipeline.ucRefs τ sig) (atEnd m c) ∗ ∃ r, prngReg c r)

/-! ## The two regions as steps of the run

A region is entered from every unscoped buffer at its entry contents. Its windows' arrays are split off and the other
buffers bypass it; the generator register goes into the class's invariant, which is the region's own invariant before
the first point; after the last point the region's invariant gives the class's back, the register comes out, and the
arrays at what the pipeline leaves are joined with the bypassing buffers into every unscoped buffer at the exit
contents. Nothing is owed and the kernels have no semaphore of their own. -/

-- a library lemma stated over a pinned configuration meets the printed one only when unification may unfold plain
-- definitions inside a metavariable's type
set_option backward.isDefEq.respectTransparency.types false in
def regNorm : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Norm.body_obligation (entryNorm m) c).loose
  hwaits := Pipeline.hwaits_of_owed_zero _ _ _ _ L lv 0 fun _ _ => rfl
  pre c := iprop(StableHlo.held (c : Thread nD τ) (Pipeline.ucRefs τ sig) (atLaunch m c) ∗ rider c)
  post c := iprop(StableHlo.held (c : Thread nD τ) (Pipeline.ucRefs τ sig) (afterNorm m c) ∗ rider c)
  X c := iprop(∃ r, prngReg c r)
  Y c := iprop(∃ r, prngReg c r)
  Z c := Pipeline.unscopedRest (Ix := Unit) (Name := ℕ) (U := UR sig nD τ) (Lvl := ℕ) spec0 c (entryNorm m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entryNorm m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Norm.inv_in (entryNorm m) c)
    unfold Pipeline.ΦA
    iintro ⟨Hp, -, Hr⟩
    isplitl [Hr]; · iexact Hr
    iexact Hp
  hout c := by
    rw [Pipeline.ownSems0_none]
    refine BIBase.Entails.trans (Norm.inv_out (entryNorm m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entryNorm m c) (exitNorm m c) ((pdats m 0 c).arrAt · cfg0.N) (normLeaves m c) (normKeeps m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration meets the printed one only when unification may unfold plain
-- definitions inside a metavariable's type
set_option backward.isDefEq.respectTransparency.types false in
def regAgg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (entryAgg m) c).loose
  hwaits := Pipeline.hwaits_of_owed_zero _ _ _ _ L lv 1 fun _ _ => rfl
  pre c := iprop(StableHlo.held (c : Thread nD τ) (Pipeline.ucRefs τ sig) (atAgg m c) ∗ rider c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entryAgg m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entryAgg m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Agg.inv_in (entryAgg m) c)
    unfold Pipeline.ΦA
    iintro ⟨Hp, -, Hr⟩
    isplitl [Hr]; · iexact Hr
    iexact Hp
  hout c := by
    rw [Pipeline.ownSems0_none]
    refine BIBase.Entails.trans (Agg.inv_out (entryAgg m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entryAgg m c) (exitAgg m c) ((pdats m 1 c).arrAt · cfg1.N) (aggLeaves m c) (aggKeeps m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three steps, and the run -/

/-- The program's steps in order: the column-norm region, the host operations from what it leaves, the aggregation
    region. -/
abbrev steps : List (Pipeline.Seg (pcfgs (F := F)) adm (pdats m) () defs₀ 𝒱₀ L lv) :=
  [ .region (regNorm m),
    .host (hostStep (afterNorm m)),
    .region (regAgg m) ]
/-- The program is the run of its steps: it is the chain of the three items, and so is the steps' run. -/
theorem main_steps (c : Dev nD) : main (F := F) c = Pipeline.Seg.run (steps m) := (main_chain c).trans (by chain_rfl)

-- the launch theorem's implicit arguments are found by unifying its conclusion with this one, which takes unfolding
-- plain definitions inside a metavariable's type
set_option backward.isDefEq.respectTransparency.types false in
/-- THE RUN. From any memory with zero counters every weakly fair execution of the program on the cores terminates,
    nothing faulting, and in every final state each unscoped buffer of each core holds the end contents: the launch
    makes the first state on every core, the three steps chain, and the last state is read against the final memory. -/
theorem run_all : θ_run defs (onTc (τ := τ) (main (F := F))) ⟨m, fun _ => 0, ρ⟩ (fun r => ∀ c : Dev nD,
      ∀ b ∈ Pipeline.ucRefs τ sig, r.2.mem ((c : Thread nD τ).1, b) = atEnd m c b) :=
  Pipeline.θ_run_regions_kit (pcfgs (F := F)) adm (pdats m) () cellOf_inj emb₁ defs₀ 𝒱₀ L lv m ρ main (steps m)
    (fun c Q => by rw [main_steps m c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ rider c)) (Tₙ := lastState m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h c => h c)

/-- THE FRAME: the program runs and every argument ends as launched — each argument's buffer read off the end
    contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (atEnd_main_arg0 m c),
     (h c _ (mem_uc main_arg1 (by decide))).trans (atEnd_main_arg1 m c),
     (h c _ (mem_uc main_arg2 (by decide))).trans (atEnd_main_arg2 m c),
     (h c _ (mem_uc main_arg3 (by decide))).trans (atEnd_main_arg3 m c)⟩) (run_all m ρ)

end Cert.Kernel.Whole

end
-- ==== Proof.KernelIdeal.Norm.Shared.lean ====
/-
  The column-norm region (the first kernel launch: 40 grid points, each taking a block of 5000 points): what its three
  control cases share.

  The body resets its accumulator (a 1 x 128 scratch) at the first point, adds the block's column sums of squares at
  every point, and at the last point stores the accumulator's square root into the output block, which is written back
  only there. So a point is in one of three cases — first, middle, last — decided by the grid coordinate alone; at the
  first and middle points the output window is idle. Everything is stated at a parameter `V`: the core's buffer
  contents when the region is entered.
-/
import proofs.«181373_j45552423141540_1_alg».proof.Proof.Gen.KernelIdeal.Launch
import proofs.«181373_j45552423141540_1_alg».proof.Proof.Gen.KernelIdeal.Skeleton
import proofs.«181373_j45552423141540_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The points' staging buffer holds the point's block of 5000 points at every grid point, for any proof data whose
    array is the entry contents and whose body leaves the block in place. -/
theorem before_pts_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

end

/-! ## The two conditions, decided over the grid -/

/-- "This is the first grid point": the condition under which the accumulator is reset. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 40 = 0 :=
  (by decide +kernel : ∀ t : Fin grid0.N, isFirst (grid0.coords t) ↔ t.val % 40 = 0)

/-- "This is the last grid point": the condition under which the norm is stored. -/
abbrev isLast (i : grid0.Coords) : Prop := k0_cond2 i = 1#1
theorem isLast_iff : ∀ t : Fin cfg0.N, isLast (grid0.coords t) ↔ t.val % 40 = 39 :=
  (by decide +kernel : ∀ t : Fin grid0.N, isLast (grid0.coords t) ↔ t.val % 40 = 39)

/-! ## Where the windows are idle -/

/-- The points' window is never idle. -/
theorem live_pts : ∀ t : Fin cfg0.N, cfg0.idle 0 (grid0.coords t) = false := by decide +kernel
/-- Away from the last point the output window is idle and is not written back. -/
theorem idle_out : ∀ t : Fin cfg0.N, ¬isLast (grid0.coords t) → cfg0.idle 1 (grid0.coords t) = true := by decide +kernel
theorem noFlush_out : ∀ t : Fin cfg0.N, ¬isLast (grid0.coords t) → (cfg0.win 1).flush t = false := by decide +kernel
/-- At the last point it is live. -/
theorem live_out : ∀ t : Fin cfg0.N, isLast (grid0.coords t) → cfg0.idle 1 (grid0.coords t) = false := by decide +kernel

/-! ## The memrefs the body is called with -/

/-- One staging buffer of the output window, through which its contents are stated. -/
abbrev outView : View sig .tc .vmem S1x128 .f32 := (Memref.whole cc0_stg1_0 : Memref sig .tc .vmem S1x128 .f32).view
/-- Each window's current staging memref at point `t`, as the pipeline passes it, and its wholeness. -/
abbrev mPts (t : Fin cfg0.N) : Memref sig .tc .vmem S5000x128 .f32 := win0_0.stage (cfg0.slots t 0)
abbrev hPts (t : Fin cfg0.N) : (mPts t).IsWhole := hstage0_0 ((cfg0.slots t 0).cast nbuf0_0)
abbrev mOut (t : Fin cfg0.N) : Memref sig .tc .vmem S1x128 .f32 := win0_1.stage (cfg0.slots t 1)
abbrev hOut (t : Fin cfg0.N) : (mOut t).IsWhole := hstage0_1 ((cfg0.slots t 1).cast nbuf0_1)
/-- The accumulator: a whole scoped buffer of the kernel's own. -/
abbrev mAcc : Memref sig .tc .vmem S1x128 .f32 := Memref.whole cc0_scratch0
abbrev accView : View sig .tc .vmem S1x128 .f32 := mAcc.view

/-- The class's invariant with the accumulator as a memref owned at some contents, the later launch's scoped buffers
    at some contents beside it. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem classInv_eq (c : Dev nD) :
    (Pipeline.ΦA spec0 c : sProp 𝕄)
      = iprop(iprop((∃ d, owns (c : Thread nD τ) mAcc fullShare d) ∗ otherScoped (F := F) c) ∗ (∃ r, prngReg c r)) := by
  unfold Pipeline.ΦA otherScoped; rw [scopedRest0_eq]; simp only [mAcc, owns_whole]; try rfl

end Cert.KernelIdeal.Norm

end
-- ==== Proof.KernelIdeal.Norm.First.lean ====
/-
  The column-norm body at the FIRST grid point: the accumulator, at anything, is reset and then takes the first block's
  column sums of squares; nothing is stored into the output block, which is handed back untouched.
-/
import proofs.«181373_j45552423141540_1_alg».proof.Proof.KernelIdeal.Norm.Shared

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first) in the output block and in the accumulator, with the proof that on
    whole memrefs the body runs to the continuation holding the block of points as it was, the output block and the
    accumulator with those pieces written. -/
noncomputable def runFirst (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : isFirst i) (hLast : ¬isLast i)
    (x0 : Vec F S5000x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) aPts fullShare x0 ∗ owns (c : Thread nD τ) aOut fullShare xi1 ∗ (∃ d, owns (c : Thread nD τ) aAcc fullShare d)
            ∗ (iprop(owns (c : Thread nD τ) aPts fullShare x0 ∗ owns (c : Thread nD τ) aOut fullShare xi1 ∗ (∃ f, aAcc.view.loc (c : Thread nD τ) ↦[aAcc.view.set]{fullShare} aAcc.view.writes (Elt F) f LS0)) -∗ K ⟨⟩))
          ⊢ wp frame (wpE (defs₀ (F := F)) Variants.none c none) E (cc0__colnorm_kernel i aPts hPts' aOut hOut' aAcc hAcc') K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%ds0, %fs0, -, HS0⟩, Hk⟩
    obtain rfl := hPts'.eq_unread hf0; obtain rfl := hOut'.eq_unread hf1
    sl_exec (disch := first | exact hFirst | exact hLast)
    sl_step
    iapply Hk
    isplitl [H0]
    · iexists _; isplitr; · ipureintro; exact hPts'.read_unread _
      iexact H0
    isplitl [H1]
    · iexists _; isplitr; · ipureintro; exact hOut'.read_unread _
      iexact H1
    iexists _; iexact HS0

end Cert.KernelIdeal.Norm

end
-- ==== Proof.KernelIdeal.Norm.Middle.lean ====
/-
  The column-norm body at a MIDDLE grid point: the accumulator, at what the point before left, takes this block's column
  sums of squares; nothing is stored into the output block, which is handed back untouched.
-/
import proofs.«181373_j45552423141540_1_alg».proof.Proof.KernelIdeal.Norm.First

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first) in the output block and in the accumulator, with the proof that on
    whole memrefs the body runs to the continuation holding the block of points as it was, the output block and the
    accumulator with those pieces written. -/
noncomputable def runMiddle (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : ¬isLast i)
    (x0 : Vec F S5000x128 .f32) (xs0 : Vec F S1x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) aPts fullShare x0 ∗ owns (c : Thread nD τ) aOut fullShare xi1 ∗ owns (c : Thread nD τ) aAcc fullShare xs0
            ∗ (iprop(owns (c : Thread nD τ) aPts fullShare x0 ∗ owns (c : Thread nD τ) aOut fullShare xi1 ∗ (∃ f, aAcc.view.loc (c : Thread nD τ) ↦[aAcc.view.set]{fullShare} aAcc.view.writes (Elt F) f LS0)) -∗ K ⟨⟩))
          ⊢ wp frame (wpE (defs₀ (F := F)) Variants.none c none) E (cc0__colnorm_kernel i aPts hPts' aOut hOut' aAcc hAcc') K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%fs0, %hfs0, HS0⟩, Hk⟩
    obtain rfl := hPts'.eq_unread hf0; obtain rfl := hOut'.eq_unread hf1; obtain rfl := hAcc'.eq_unread hfs0
    sl_exec (disch := first | exact hFirst | exact hLast)
    sl_step
    iapply Hk
    isplitl [H0]
    · iexists _; isplitr; · ipureintro; exact hPts'.read_unread _
      iexact H0
    isplitl [H1]
    · iexists _; isplitr; · ipureintro; exact hOut'.read_unread _
      iexact H1
    iexists _; iexact HS0

end Cert.KernelIdeal.Norm

end
-- ==== Proof.KernelIdeal.Norm.Last.lean ====
/-
  The column-norm body at the LAST grid point: the accumulator takes the last block's column sums of squares, and its
  square root is stored over the whole output block.
-/
import proofs.«181373_j45552423141540_1_alg».proof.Proof.KernelIdeal.Norm.Middle

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first) in the output block and in the accumulator, with the proof that on
    whole memrefs the body runs to the continuation holding the block of points as it was, the output block and the
    accumulator with those pieces written. -/
noncomputable def runLast (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) :
    Σ' (L1 : List (View.Piece (Elt F) S1x128 .f32)), { LS0 : List (View.Piece (Elt F) S1x128 .f32) //
      ∀ (E : Set ℕ) (K : PUnit → sProp 𝕄),
        iprop(owns (c : Thread nD τ) aPts fullShare x0 ∗ (∃ d, owns (c : Thread nD τ) aOut fullShare d) ∗ owns (c : Thread nD τ) aAcc fullShare xs0
            ∗ (iprop(owns (c : Thread nD τ) aPts fullShare x0 ∗ (∃ f, aOut.view.loc (c : Thread nD τ) ↦[aOut.view.set]{fullShare} aOut.view.writes (Elt F) f L1) ∗ (∃ f, aAcc.view.loc (c : Thread nD τ) ↦[aAcc.view.set]{fullShare} aAcc.view.writes (Elt F) f LS0)) -∗ K ⟨⟩))
          ⊢ wp frame (wpE (defs₀ (F := F)) Variants.none c none) E (cc0__colnorm_kernel i aPts hPts' aOut hOut' aAcc hAcc') K } := by
  refine ⟨?_, ?_, fun E K => ?run⟩
  case run =>
    simp only [cc0__colnorm_kernel_eq_skeleton]; unfold cc0__colnorm_kernel_skel
    unfold owns
    iintro ⟨⟨%f0, %hf0, H0⟩, ⟨%d1, %f1, -, H1⟩, ⟨%fs0, %hfs0, HS0⟩, Hk⟩
    obtain rfl := hPts'.eq_unread hf0; obtain rfl := hAcc'.eq_unread hfs0
    sl_exec (disch := first | exact hFirst | exact hLast)
    sl_step
    iapply Hk
    isplitl [H0]
    · iexists _; isplitr; · ipureintro; exact hPts'.read_unread _
      iexact H0
    isplitl [H1]; · iexists _; iexact H1
    iexists _; iexact HS0

end Cert.KernelIdeal.Norm

end
-- ==== Proof.KernelIdeal.Norm.Body.lean ====
/-
  The column-norm region: what the accumulator and the output block hold after each grid point, the region's proof
  data, and the body obligation.

  After the first point the accumulator holds the first block's column sums of squares over a reset; after every later
  point, what the point before left plus that point's block's. The output block is stored whole at the last point, from
  the accumulator's contents there. The region's invariant is the class's before the first point and afterwards carries
  the accumulator at exactly these contents (the later launch's scoped buffers ride along at some contents).
-/
import proofs.«181373_j45552423141540_1_alg».proof.Proof.KernelIdeal.Norm.Last

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- The first point's pieces for the accumulator cover it. -/
theorem accCover_first (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : isFirst i) (hLast : ¬isLast i)
    (x0 : Vec F S5000x128 .f32) (y : S1x128.Idx) :
    ∃ pc ∈ (runFirst c i aPts hPts' aOut hOut' aAcc hAcc' hFirst hLast x0).2.1, y ∈ pc.1.set :=
  View.cover_of_tiledL (runFirst c i aPts hPts' aOut hOut' aAcc hAcc' hFirst hLast x0).2.1 S1x128.size (by sl_kernel_rfl) y

/-- What the first point leaves in the accumulator: its pieces read back. -/
def accFirst (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : isFirst i) (hLast : ¬isLast i)
    (x0 : Vec F S5000x128 .f32) : Vec F S1x128 .f32 :=
  accView.read (Elt F) (accView.writes (Elt F) accView.junk (runFirst c i aPts hPts' aOut hOut' aAcc hAcc' hFirst hLast x0).2.1)

/-- A middle point's pieces for the accumulator cover it. -/
theorem accCover_mid (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : ¬isLast i)
    (x0 : Vec F S5000x128 .f32) (xs0 : Vec F S1x128 .f32) (y : S1x128.Idx) :
    ∃ pc ∈ (runMiddle c i aPts hPts' aOut hOut' aAcc hAcc' hFirst hLast x0 xs0).2.1, y ∈ pc.1.set :=
  View.cover_of_tiledL (runMiddle c i aPts hPts' aOut hOut' aAcc hAcc' hFirst hLast x0 xs0).2.1 S1x128.size (by sl_kernel_rfl) y

/-- What a middle point leaves in the accumulator, over what the point before left. -/
def accMid (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : ¬isLast i)
    (x0 : Vec F S5000x128 .f32) (xs0 : Vec F S1x128 .f32) : Vec F S1x128 .f32 :=
  accView.read (Elt F) (accView.writes (Elt F) accView.junk (runMiddle c i aPts hPts' aOut hOut' aAcc hAcc' hFirst hLast x0 xs0).2.1)

/-- The last point's pieces for the output block, and for the accumulator, cover them. -/
theorem outCover_last (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) (y : S1x128.Idx) :
    ∃ pc ∈ (runLast c i aPts hPts' aOut hOut' aAcc hAcc' hFirst hLast x0 xs0).1, y ∈ pc.1.set :=
  View.cover_of_tiledL (runLast c i aPts hPts' aOut hOut' aAcc hAcc' hFirst hLast x0 xs0).1 S1x128.size (by sl_kernel_rfl) y
theorem accCover_last (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) (y : S1x128.Idx) :
    ∃ pc ∈ (runLast c i aPts hPts' aOut hOut' aAcc hAcc' hFirst hLast x0 xs0).2.1, y ∈ pc.1.set :=
  View.cover_of_tiledL (runLast c i aPts hPts' aOut hOut' aAcc hAcc' hFirst hLast x0 xs0).2.1 S1x128.size (by sl_kernel_rfl) y

/-- What the last point leaves in the output block and in the accumulator. -/
def outLast (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) : Vec F S1x128 .f32 :=
  outView.read (Elt F) (outView.writes (Elt F) outView.junk (runLast c i aPts hPts' aOut hOut' aAcc hAcc' hFirst hLast x0 xs0).1)
def accLast (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) : Vec F S1x128 .f32 :=
  accView.read (Elt F) (accView.writes (Elt F) accView.junk (runLast c i aPts hPts' aOut hOut' aAcc hAcc' hFirst hLast x0 xs0).2.1)

/-- Away from the last point nothing is stored into the output block: a placeholder nothing consults (the window is
    idle there, neither written back nor read at the next point). -/
def outIdle : Vec F S1x128 .f32 := outView.read (Elt F) (outView.writes (Elt F) outView.junk [])

section

variable (V : (c : Dev nD) → (b : Ref sig .tc) → Buf (Elt F) ((c : Thread nD τ).loc b))

/-! ## Point by point -/

/-- What the output block and the accumulator hold after the body at position `n`: the first point's contents at 0;
    afterwards the last point's or a middle point's, over the accumulator the point before left. -/
def contentsAt (c : Dev nD) : (n : ℕ) → n < cfg0.N → Vec F S1x128 .f32 × Vec F S1x128 .f32
  | 0, hn => (outIdle, accFirst c (grid0.coords ⟨0, hn⟩) (mPts ⟨0, hn⟩) (hPts ⟨0, hn⟩) (mOut ⟨0, hn⟩) (hOut ⟨0, hn⟩) mAcc (Memref.isWhole_whole _) ((isFirst_iff ⟨0, hn⟩).mpr (Nat.zero_mod _)) (fun h => (fun h => by (try dsimp only at h); omega) ((isLast_iff ⟨0, hn⟩).mp h)) (blk V c 0 ⟨0, hn⟩))
  | n + 1, hn =>
    have hnf : ¬isFirst (grid0.coords ⟨n + 1, hn⟩) := fun h => (fun h => by have hN : n + 1 < 40 := lt_of_lt_of_eq hn (show cfg0.N = 40 from N_0); (try dsimp only at h); omega) ((isFirst_iff ⟨n + 1, hn⟩).mp h)
    if h1 : (n + 1) % 40 = 39 then
      (outLast c (grid0.coords ⟨n + 1, hn⟩) (mPts ⟨n + 1, hn⟩) (hPts ⟨n + 1, hn⟩) (mOut ⟨n + 1, hn⟩) (hOut ⟨n + 1, hn⟩) mAcc (Memref.isWhole_whole _) hnf ((isLast_iff ⟨n + 1, hn⟩).mpr h1) (blk V c 0 ⟨n + 1, hn⟩) (contentsAt c n (Nat.lt_of_succ_lt hn)).2,
        accLast c (grid0.coords ⟨n + 1, hn⟩) (mPts ⟨n + 1, hn⟩) (hPts ⟨n + 1, hn⟩) (mOut ⟨n + 1, hn⟩) (hOut ⟨n + 1, hn⟩) mAcc (Memref.isWhole_whole _) hnf ((isLast_iff ⟨n + 1, hn⟩).mpr h1) (blk V c 0 ⟨n + 1, hn⟩) (contentsAt c n (Nat.lt_of_succ_lt hn)).2)
    else
      (outIdle, accMid c (grid0.coords ⟨n + 1, hn⟩) (mPts ⟨n + 1, hn⟩) (hPts ⟨n + 1, hn⟩) (mOut ⟨n + 1, hn⟩) (hOut ⟨n + 1, hn⟩) mAcc (Memref.isWhole_whole _) hnf (fun h => h1 ((isLast_iff ⟨n + 1, hn⟩).mp h)) (blk V c 0 ⟨n + 1, hn⟩) (contentsAt c n (Nat.lt_of_succ_lt hn)).2)

/-- A point that is not the first is not in the first case. -/
theorem notFirst_of (t : Fin cfg0.N) (h0 : ¬t.val % 40 = 0) : ¬isFirst (grid0.coords t) := fun h => h0 ((isFirst_iff t).mp h)

/-- `contentsAt` at the first point. -/
theorem contentsAt_first (c : Dev nD) (t : Fin cfg0.N) (h0 : t.val % 40 = 0) (h1 : ¬t.val % 40 = 39) :
    contentsAt V c t.val t.isLt = (outIdle, accFirst c (grid0.coords t) (mPts t) (hPts t) (mOut t) (hOut t) mAcc (Memref.isWhole_whole _) ((isFirst_iff t).mpr h0) (fun h => h1 ((isLast_iff t).mp h)) (blk V c 0 t)) := by
  obtain ⟨n, hn⟩ := t
  cases n with
  | zero => exact rfl
  | succ n => exact (by exfalso; have hN : n + 1 < 40 := lt_of_lt_of_eq hn (show cfg0.N = 40 from N_0); (try dsimp only at h0); omega)

/-- `contentsAt` at a middle point: over what the point before left. -/
theorem contentsAt_mid (c : Dev nD) (t : Fin cfg0.N) (h0 : ¬t.val % 40 = 0) (h1 : ¬t.val % 40 = 39) :
    contentsAt V c t.val t.isLt = (outIdle, accMid c (grid0.coords t) (mPts t) (hPts t) (mOut t) (hOut t) mAcc (Memref.isWhole_whole _) (notFirst_of t h0) (fun h => h1 ((isLast_iff t).mp h)) (blk V c 0 t) (contentsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `contentsAt` at the last point: over what the point before left. -/
theorem contentsAt_last (c : Dev nD) (t : Fin cfg0.N) (h0 : ¬t.val % 40 = 0) (h1 : t.val % 40 = 39) :
    contentsAt V c t.val t.isLt = (outLast c (grid0.coords t) (mPts t) (hPts t) (mOut t) (hOut t) mAcc (Memref.isWhole_whole _) (notFirst_of t h0) ((isLast_iff t).mpr h1) (blk V c 0 t) (contentsAt V c (t.val - 1) (Nat.lt_of_le_of_lt (Nat.sub_le _ _) t.isLt)).2,
      accLast c (grid0.coords t) (mPts t) (hPts t) (mOut t) (hOut t) mAcc (Memref.isWhole_whole _) (notFirst_of t h0) ((isLast_iff t).mpr h1) (blk V c 0 t) (contentsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant -/

/-- The region's invariant before position `n`: the class's before the first point; afterwards the accumulator at what
    the point before left, the later launch's scoped buffers at some contents, the generator register at some state. -/
def inv (c : Dev nD) : (n : ℕ) → n ≤ cfg0.N → sProp 𝕄
  | 0, _ => Pipeline.ΦA spec0 c
  | n + 1, hn => iprop(iprop(owns (c : Thread nD τ) mAcc fullShare ((contentsAt V c n hn).2) ∗ otherScoped (F := F) c) ∗ (∃ r, prngReg c r))

theorem inv_zero (c : Dev nD) (n : ℕ) (h : n ≤ cfg0.N) (hz : n = 0) : inv V c n h = Pipeline.ΦA spec0 c := by
  subst hz; rfl

theorem inv_succ (c : Dev nD) (n : ℕ) (hn : n < cfg0.N) :
    inv V c (n + 1) hn = iprop(iprop(owns (c : Thread nD τ) mAcc fullShare ((contentsAt V c n hn).2) ∗ otherScoped (F := F) c) ∗ (∃ r, prngReg c r)) := rfl

theorem inv_pos (c : Dev nD) (n : ℕ) (h : n ≤ cfg0.N) (hz : n ≠ 0) :
    inv V c n h = iprop(iprop(owns (c : Thread nD τ) mAcc fullShare ((contentsAt V c (n - 1) (by omega)).2) ∗ otherScoped (F := F) c) ∗ (∃ r, prngReg c r)) := by
  cases n with
  | zero => exact absurd rfl hz
  | succ n => rfl

/-! ## The proof data -/

/-- The region's proof data on core `c`: the arrays as the region finds them; after the body at point `t` the points'
    buffer at its block and the output's at `contentsAt`; the invariant above; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => (contentsAt V c t.val t.isLt).1
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]

theorem inv_castSucc (c : Dev nD) (t : Fin cfg0.N) :
    (dat V c).Φ t.castSucc = inv V c t.val (Nat.le_of_lt t.isLt) := by
  dsimp only [dat]; simp only [Fin.coe_castSucc]

theorem after_pts (c : Dev nD) (t : Fin cfg0.N) : (dat V c).after 0 t = blk V c 0 t := by dsimp only [dat]
theorem after_out (c : Dev nD) (t : Fin cfg0.N) : (dat V c).after 1 t = (contentsAt V c t.val t.isLt).1 := by dsimp only [dat]

theorem before_pts (c : Dev nD) (t : Fin cfg0.N) (d) : (dat V c).before 0 t d = blk V c 0 t :=
  before_pts_of V (dat V c) (A_eq V c 0) (after_pts V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (mPts t) fullShare ((dat V c).before 0 t d))
    ∗ (∃ d, owns (c : Thread nD τ) (mOut t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point. The points' memref holds the point's block; the coordinate says which case the point is in;
    the invariant hands the body the accumulator at what the point before left (at anything at the first point) and
    takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_pts]
  rw [show (dat V c).owesAt () t.succ = (dat V c).owesAt () t.castSucc from rfl]
  rw [show (dat V c).Φ t.succ = inv V c (t.val + 1) t.isLt from rfl, inv_succ]
  have hN : t.val < 40 := lt_of_lt_of_eq t.isLt (show cfg0.N = 40 from N_0)
  rw [show (dat V c).leavesExact 0 t = owns (c : Thread nD τ) (mPts t) fullShare ((dat V c).after 0 t) from by
    unfold Dat.leavesExact; rw [live_pts t], after_pts]
  by_cases h0 : t.val % 40 = 0
  · have h1 : ¬t.val % 40 = 39 := by omega
    have hz : t.val = 0 := by omega
    rw [Dat.leavesExact_idle (dat V c) 1 t (idle_out t (fun h => h1 ((isLast_iff t).mp h))) (noFlush_out t (fun h => h1 ((isLast_iff t).mp h)))]
    rw [contentsAt_first V c t h0 h1]
    unfold accFirst; (try dsimp only)
    rw [inv_castSucc V c t, inv_zero V c _ _ hz, classInv_eq]
    iintro ⟨⟨⟨HS0, Hrest⟩, Hg⟩, Ho, ⟨%d0, H0⟩, ⟨%d1, H1⟩⟩
    iapply ((runFirst c (grid0.coords t) _ _ _ _ _ _ ((isFirst_iff t).mpr h0) (fun h => h1 ((isLast_iff t).mp h)) (blk V c 0 t)).2.2 _ Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (accCover_first c _ _ _ _ _ _ _ _ _ _)
        iexact Hrest
      iexact Hg
    isplitl [Ho]; · iexact Ho
    isplitl [H0]; · iexact H0
    iexists _; iexact H1
  · have hz : t.val ≠ 0 := fun h => h0 (by rw [h])
    by_cases h1 : t.val % 40 = 39
    · rw [show (dat V c).leavesExact 1 t = owns (c : Thread nD τ) (mOut t) fullShare ((dat V c).after 1 t) from by
        unfold Dat.leavesExact; rw [live_out t ((isLast_iff t).mpr h1)], after_out]
      rw [contentsAt_last V c t h0 h1]
      unfold outLast accLast; (try dsimp only)
      rw [inv_castSucc V c t, inv_pos V c _ _ hz]
      iintro ⟨⟨⟨HS0, Hrest⟩, Hg⟩, Ho, ⟨%d0, H0⟩, ⟨%d1, H1⟩⟩
      iapply ((runLast c (grid0.coords t) _ _ _ _ _ _ (notFirst_of t h0) ((isLast_iff t).mpr h1) (blk V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCover_last c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (outCover_last c _ _ _ _ _ _ _ _ _ _ _)
    · rw [Dat.leavesExact_idle (dat V c) 1 t (idle_out t (fun h => h1 ((isLast_iff t).mp h))) (noFlush_out t (fun h => h1 ((isLast_iff t).mp h)))]
      rw [contentsAt_mid V c t h0 h1]
      unfold accMid; (try dsimp only)
      rw [inv_castSucc V c t, inv_pos V c _ _ hz]
      iintro ⟨⟨⟨HS0, Hrest⟩, Hg⟩, Ho, ⟨%d0, H0⟩, ⟨%d1, H1⟩⟩
      iapply ((runMiddle c (grid0.coords t) _ _ _ _ _ _ (notFirst_of t h0) (fun h => h1 ((isLast_iff t).mp h)) (blk V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCover_mid c _ _ _ _ _ _ _ _ _ _ _)
          iexact Hrest
        iexact Hg
      isplitl [Ho]; · iexact Ho
      isplitl [H0]; · iexact H0
      iexists _; iexact H1

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the class's back: the accumulator's named contents are forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 40 := N_0; omega), classInv_eq]
  iintro ⟨⟨HS0, Hrest⟩, Hg⟩
  isplitl [HS0 Hrest]
  · isplitl [HS0]
    · iexists _; iexact HS0
    iexact Hrest
  iexact Hg

end

end Cert.KernelIdeal.Norm

end
-- ==== Proof.KernelIdeal.Agg.Shared.lean ====
/-
  The aggregation region (the second kernel launch: 40 grid points, each taking a block of 5000 points): what its
  three control cases share.

  The body resets two accumulators at the first point (a 64 x 128 one for the assignment-weighted sums of the scaled
  points and a 1 x 64 one for the total assignments), adds the block's contributions to both at every point, and at the
  last point forms the residuals from them, scales each feature column by its norm over the clusters and stores the
  result block, which is written back only there. A point is in one of three cases — first, middle, last — decided by
  the grid coordinate alone; at the first and middle points the output window is idle. The column norms, the transposed
  weights, the bias row and the centres are one block each, the same at every point. Everything is stated at a
  parameter `V`: the core's buffer contents when the region is entered.
-/
import proofs.«181373_j45552423141540_1_alg».proof.Proof.Gen.KernelIdeal.Launch
import proofs.«181373_j45552423141540_1_alg».proof.Proof.Gen.KernelIdeal.Skeleton
import proofs.«181373_j45552423141540_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, fetched there or not (where it is not
    fetched its block index has not moved), for any proof data whose array is the entry contents and whose body leaves
    the block in place. -/
theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every grid point, fetched there or not (where it is not
    fetched its block index has not moved), for any proof data whose array is the entry contents and whose body leaves
    the block in place. -/
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every grid point, fetched there or not (where it is not
    fetched its block index has not moved), for any proof data whose array is the entry contents and whose body leaves
    the block in place. -/
theorem before_in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every grid point, fetched there or not (where it is not
    fetched its block index has not moved), for any proof data whose array is the entry contents and whose body leaves
    the block in place. -/
theorem before_in3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every grid point, fetched there or not (where it is not
    fetched its block index has not moved), for any proof data whose array is the entry contents and whose body leaves
    the block in place. -/
theorem before_in4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

end

/-! ## The two conditions, decided over the grid -/

/-- "This is the first grid point": the condition under which the accumulators are reset. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val % 40 = 0 :=
  (by decide +kernel : ∀ t : Fin grid1.N, isFirst (grid1.coords t) ↔ t.val % 40 = 0)

/-- "This is the last grid point": the condition under which the result block is stored. -/
abbrev isLast (i : grid1.Coords) : Prop := k1_cond2 i = 1#1
theorem isLast_iff : ∀ t : Fin cfg1.N, isLast (grid1.coords t) ↔ t.val % 40 = 39 :=
  (by decide +kernel : ∀ t : Fin grid1.N, isLast (grid1.coords t) ↔ t.val % 40 = 39)

/-! ## Where the windows are idle -/

theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem live_in3 : ∀ t : Fin cfg1.N, cfg1.idle 3 (grid1.coords t) = false := by decide +kernel
theorem live_in4 : ∀ t : Fin cfg1.N, cfg1.idle 4 (grid1.coords t) = false := by decide +kernel
/-- Away from the last point the output window is idle and is not written back; at the last point it is live. -/
theorem idle_out : ∀ t : Fin cfg1.N, ¬isLast (grid1.coords t) → cfg1.idle 5 (grid1.coords t) = true := by decide +kernel
theorem noFlush_out : ∀ t : Fin cfg1.N, ¬isLast (grid1.coords t) → (cfg1.win 5).flush t = false := by decide +kernel
theorem live_out : ∀ t : Fin cfg1.N, isLast (grid1.coords t) → cfg1.idle 5 (grid1.coords t) = false := by decide +kernel

/-! ## The memrefs the body is called with -/

/-- One staging buffer of the output window, through which its contents are stated. -/
abbrev outView : View sig .tc .vmem S1x64x128 .f32 := (Memref.whole cc1_stg5_0 : Memref sig .tc .vmem S1x64x128 .f32).view
abbrev mPts (t : Fin cfg1.N) : Memref sig .tc .vmem S5000x128 .f32 := win1_0.stage (cfg1.slots t 0)
abbrev hPts (t : Fin cfg1.N) : (mPts t).IsWhole := hstage1_0 ((cfg1.slots t 0).cast nbuf1_0)
abbrev mNrm (t : Fin cfg1.N) : Memref sig .tc .vmem S1x128 .f32 := win1_1.stage (cfg1.slots t 1)
abbrev hNrm (t : Fin cfg1.N) : (mNrm t).IsWhole := hstage1_1 ((cfg1.slots t 1).cast nbuf1_1)
abbrev mWt (t : Fin cfg1.N) : Memref sig .tc .vmem S128x64 .f32 := win1_2.stage (cfg1.slots t 2)
abbrev hWt (t : Fin cfg1.N) : (mWt t).IsWhole := hstage1_2 ((cfg1.slots t 2).cast nbuf1_2)
abbrev mBias (t : Fin cfg1.N) : Memref sig .tc .vmem S1x64 .f32 := win1_3.stage (cfg1.slots t 3)
abbrev hBias (t : Fin cfg1.N) : (mBias t).IsWhole := hstage1_3 ((cfg1.slots t 3).cast nbuf1_3)
abbrev mCen (t : Fin cfg1.N) : Memref sig .tc .vmem S64x128 .f32 := win1_4.stage (cfg1.slots t 4)
abbrev hCen (t : Fin cfg1.N) : (mCen t).IsWhole := hstage1_4 ((cfg1.slots t 4).cast nbuf1_4)
abbrev mOut (t : Fin cfg1.N) : Memref sig .tc .vmem S1x64x128 .f32 := win1_5.stage (cfg1.slots t 5)
abbrev hOut (t : Fin cfg1.N) : (mOut t).IsWhole := hstage1_5 ((cfg1.slots t 5).cast nbuf1_5)
/-- The two accumulators: whole scoped buffers of the kernel's own. -/
abbrev mSums : Memref sig .tc .vmem S64x128 .f32 := Memref.whole cc1_scratch0
abbrev mTot : Memref sig .tc .vmem S1x64 .f32 := Memref.whole cc1_scratch1
abbrev sumsView : View sig .tc .vmem S64x128 .f32 := mSums.view
abbrev totView : View sig .tc .vmem S1x64 .f32 := mTot.view

/-- The earlier launch's scoped buffers, each at some contents, in front of an assertion about the two accumulators. -/
def withOthers (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ P)

/-- The class's invariant with the two accumulators as memrefs owned at some contents. -/
theorem classInv_eq (c : Dev nD) :
    (Pipeline.ΦA spec1 c : sProp 𝕄)
      = iprop(withOthers (F := F) c iprop((∃ d, owns (c : Thread nD τ) mSums fullShare d) ∗ (∃ d, owns (c : Thread nD τ) mTot fullShare d)) ∗ (∃ r, prngReg c r)) := by
  unfold Pipeline.ΦA withOthers; rw [scopedRest1_eq]; simp only [mSums, mTot, owns_whole]; try rfl

end Cert.KernelIdeal.Agg

end
-- ==== Proof.KernelIdeal.Agg.First.lean ====
/-
  The aggregation body at the FIRST grid point: both accumulators, at anything, are reset and then take the first block's
  contributions; nothing is stored into the result block, which is handed back untouched.
-/
import proofs.«181373_j45552423141540_1_alg».proof.Proof.KernelIdeal.Agg.Shared

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in the result block and in the two accumulators, with the proof that
    on whole memrefs the body runs to the continuation holding the five input blocks as they were, the result block and
    the accumulators with those pieces written. -/
noncomputable def runFirst (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) :
    Σ' (L5 : List (View.Piece (Elt F) S1x64x128 .f32)), Σ' (LS0 : List (View.Piece (Elt F) S64x128 .f32)), { LS1 : List (View.Piece (Elt F) S1x64 .f32) //
      ∀ (xi5 : Vec F S1x64x128 .f32) (E : Set ℕ) (K : PUnit → sProp 𝕄),
        iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ owns (c : Thread nD τ) aOut fullShare xi5 ∗ (∃ d, owns (c : Thread nD τ) aSums fullShare d) ∗ (∃ d, owns (c : Thread nD τ) aTot fullShare d)
            ∗ (iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ owns (c : Thread nD τ) aOut fullShare xi5 ∗ (∃ f, aSums.view.loc (c : Thread nD τ) ↦[aSums.view.set]{fullShare} aSums.view.writes (Elt F) f LS0) ∗ (∃ f, aTot.view.loc (c : Thread nD τ) ↦[aTot.view.set]{fullShare} aTot.view.writes (Elt F) f LS1)) -∗ K ⟨⟩))
          ⊢ wp frame (wpE (defs₀ (F := F)) Variants.none c none) E (cc1__agg_kernel i aPts hPts' aNrm hNrm' aWt hWt' aBias hBias' aCen hCen' aOut hOut' aSums hSums' aTot hTot') K } := by
  refine ⟨[], ?_, ?_, fun xi5 E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := hPts'.eq_unread hf0; obtain rfl := hNrm'.eq_unread hf1; obtain rfl := hWt'.eq_unread hf2; obtain rfl := hBias'.eq_unread hf3; obtain rfl := hCen'.eq_unread hf4; obtain rfl := hOut'.eq_unread hf5
    sl_exec (disch := first | exact hFirst | exact hLast)
    sl_step
    iapply Hk
    isplitl [H0]
    · iexists _; isplitr; · ipureintro; exact hPts'.read_unread _
      iexact H0
    isplitl [H1]
    · iexists _; isplitr; · ipureintro; exact hNrm'.read_unread _
      iexact H1
    isplitl [H2]
    · iexists _; isplitr; · ipureintro; exact hWt'.read_unread _
      iexact H2
    isplitl [H3]
    · iexists _; isplitr; · ipureintro; exact hBias'.read_unread _
      iexact H3
    isplitl [H4]
    · iexists _; isplitr; · ipureintro; exact hCen'.read_unread _
      iexact H4
    isplitl [H5]
    · iexists _; isplitr; · ipureintro; exact hOut'.read_unread _
      iexact H5
    isplitl [HS0]; · iexists _; iexact HS0
    iexists _; iexact HS1

end Cert.KernelIdeal.Agg

end
-- ==== Proof.KernelIdeal.Agg.Middle.lean ====
/-
  The aggregation body at a MIDDLE grid point: both accumulators, at what the point before left, take this block's
  contributions; nothing is stored into the result block, which is handed back untouched.
-/
import proofs.«181373_j45552423141540_1_alg».proof.Proof.KernelIdeal.Agg.First

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in the result block and in the two accumulators, with the proof that
    on whole memrefs the body runs to the continuation holding the five input blocks as they were, the result block and
    the accumulators with those pieces written. -/
noncomputable def runMiddle (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) :
    Σ' (L5 : List (View.Piece (Elt F) S1x64x128 .f32)), Σ' (LS0 : List (View.Piece (Elt F) S64x128 .f32)), { LS1 : List (View.Piece (Elt F) S1x64 .f32) //
      ∀ (xi5 : Vec F S1x64x128 .f32) (E : Set ℕ) (K : PUnit → sProp 𝕄),
        iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ owns (c : Thread nD τ) aOut fullShare xi5 ∗ owns (c : Thread nD τ) aSums fullShare xs0 ∗ owns (c : Thread nD τ) aTot fullShare xs1
            ∗ (iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ owns (c : Thread nD τ) aOut fullShare xi5 ∗ (∃ f, aSums.view.loc (c : Thread nD τ) ↦[aSums.view.set]{fullShare} aSums.view.writes (Elt F) f LS0) ∗ (∃ f, aTot.view.loc (c : Thread nD τ) ↦[aTot.view.set]{fullShare} aTot.view.writes (Elt F) f LS1)) -∗ K ⟨⟩))
          ⊢ wp frame (wpE (defs₀ (F := F)) Variants.none c none) E (cc1__agg_kernel i aPts hPts' aNrm hNrm' aWt hWt' aBias hBias' aCen hCen' aOut hOut' aSums hSums' aTot hTot') K } := by
  refine ⟨[], ?_, ?_, fun xi5 E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := hPts'.eq_unread hf0; obtain rfl := hNrm'.eq_unread hf1; obtain rfl := hWt'.eq_unread hf2; obtain rfl := hBias'.eq_unread hf3; obtain rfl := hCen'.eq_unread hf4; obtain rfl := hOut'.eq_unread hf5; obtain rfl := hSums'.eq_unread hfs0; obtain rfl := hTot'.eq_unread hfs1
    sl_exec (disch := first | exact hFirst | exact hLast)
    sl_step
    iapply Hk
    isplitl [H0]
    · iexists _; isplitr; · ipureintro; exact hPts'.read_unread _
      iexact H0
    isplitl [H1]
    · iexists _; isplitr; · ipureintro; exact hNrm'.read_unread _
      iexact H1
    isplitl [H2]
    · iexists _; isplitr; · ipureintro; exact hWt'.read_unread _
      iexact H2
    isplitl [H3]
    · iexists _; isplitr; · ipureintro; exact hBias'.read_unread _
      iexact H3
    isplitl [H4]
    · iexists _; isplitr; · ipureintro; exact hCen'.read_unread _
      iexact H4
    isplitl [H5]
    · iexists _; isplitr; · ipureintro; exact hOut'.read_unread _
      iexact H5
    isplitl [HS0]; · iexists _; iexact HS0
    iexists _; iexact HS1

end Cert.KernelIdeal.Agg

end
-- ==== Proof.KernelIdeal.Agg.Last.lean ====
/-
  The aggregation body at the LAST grid point: both accumulators take the last block's contributions, and the scaled
  residuals formed from them are stored over the whole result block.
-/
import proofs.«181373_j45552423141540_1_alg».proof.Proof.KernelIdeal.Agg.Middle

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in the result block and in the two accumulators, with the proof that
    on whole memrefs the body runs to the continuation holding the five input blocks as they were, the result block and
    the accumulators with those pieces written. -/
noncomputable def runLast (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) :
    Σ' (L5 : List (View.Piece (Elt F) S1x64x128 .f32)), Σ' (LS0 : List (View.Piece (Elt F) S64x128 .f32)), { LS1 : List (View.Piece (Elt F) S1x64 .f32) //
      ∀ (E : Set ℕ) (K : PUnit → sProp 𝕄),
        iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ (∃ d, owns (c : Thread nD τ) aOut fullShare d) ∗ owns (c : Thread nD τ) aSums fullShare xs0 ∗ owns (c : Thread nD τ) aTot fullShare xs1
            ∗ (iprop(owns (c : Thread nD τ) aPts fullShare x0 ∗ owns (c : Thread nD τ) aNrm fullShare x1 ∗ owns (c : Thread nD τ) aWt fullShare x2 ∗ owns (c : Thread nD τ) aBias fullShare x3 ∗ owns (c : Thread nD τ) aCen fullShare x4 ∗ (∃ f, aOut.view.loc (c : Thread nD τ) ↦[aOut.view.set]{fullShare} aOut.view.writes (Elt F) f L5) ∗ (∃ f, aSums.view.loc (c : Thread nD τ) ↦[aSums.view.set]{fullShare} aSums.view.writes (Elt F) f LS0) ∗ (∃ f, aTot.view.loc (c : Thread nD τ) ↦[aTot.view.set]{fullShare} aTot.view.writes (Elt F) f LS1)) -∗ K ⟨⟩))
          ⊢ wp frame (wpE (defs₀ (F := F)) Variants.none c none) E (cc1__agg_kernel i aPts hPts' aNrm hNrm' aWt hWt' aBias hBias' aCen hCen' aOut hOut' aSums hSums' aTot hTot') K } := by
  refine ⟨?_, ?_, ?_, fun E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := hPts'.eq_unread hf0; obtain rfl := hNrm'.eq_unread hf1; obtain rfl := hWt'.eq_unread hf2; obtain rfl := hBias'.eq_unread hf3; obtain rfl := hCen'.eq_unread hf4; obtain rfl := hSums'.eq_unread hfs0; obtain rfl := hTot'.eq_unread hfs1
    sl_exec (disch := first | exact hFirst | exact hLast)
    sl_step
    iapply Hk
    isplitl [H0]
    · iexists _; isplitr; · ipureintro; exact hPts'.read_unread _
      iexact H0
    isplitl [H1]
    · iexists _; isplitr; · ipureintro; exact hNrm'.read_unread _
      iexact H1
    isplitl [H2]
    · iexists _; isplitr; · ipureintro; exact hWt'.read_unread _
      iexact H2
    isplitl [H3]
    · iexists _; isplitr; · ipureintro; exact hBias'.read_unread _
      iexact H3
    isplitl [H4]
    · iexists _; isplitr; · ipureintro; exact hCen'.read_unread _
      iexact H4
    isplitl [H5]; · iexists _; iexact H5
    isplitl [HS0]; · iexists _; iexact HS0
    iexists _; iexact HS1

end Cert.KernelIdeal.Agg

end
-- ==== Proof.KernelIdeal.Agg.Body.lean ====
/-
  The aggregation region: what the two accumulators and the result block hold after each grid point, the region's
  proof data, and the body obligation.

  After the first point each accumulator holds the first block's contribution over a reset; after every later point,
  what the point before left plus that point's block's. The result block is stored whole at the last point, from the
  accumulators' contents there and the centres. The region's invariant is the class's before the first point and
  afterwards carries both accumulators at exactly these contents (the earlier launch's scoped buffers ride along at some
  contents).
-/
import proofs.«181373_j45552423141540_1_alg».proof.Proof.KernelIdeal.Agg.Last

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem sumsCover_first (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) (y : S64x128.Idx) :
    ∃ pc ∈ (runFirst c i aPts hPts' aNrm hNrm' aWt hWt' aBias hBias' aCen hCen' aOut hOut' aSums hSums' aTot hTot' hFirst hLast x0 x1 x2 x3 x4).2.1, y ∈ pc.1.set :=
  View.cover_of_tiledL (runFirst c i aPts hPts' aNrm hNrm' aWt hWt' aBias hBias' aCen hCen' aOut hOut' aSums hSums' aTot hTot' hFirst hLast x0 x1 x2 x3 x4).2.1 S64x128.size (by sl_kernel_rfl) y
theorem totCover_first (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) (y : S1x64.Idx) :
    ∃ pc ∈ (runFirst c i aPts hPts' aNrm hNrm' aWt hWt' aBias hBias' aCen hCen' aOut hOut' aSums hSums' aTot hTot' hFirst hLast x0 x1 x2 x3 x4).2.2.1, y ∈ pc.1.set :=
  View.cover_of_tiledL (runFirst c i aPts hPts' aNrm hNrm' aWt hWt' aBias hBias' aCen hCen' aOut hOut' aSums hSums' aTot hTot' hFirst hLast x0 x1 x2 x3 x4).2.2.1 S1x64.size (by sl_kernel_rfl) y
/-- What the first point leaves in the two accumulators: its pieces read back. -/
def sumsFirst (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) : Vec F S64x128 .f32 :=
  sumsView.read (Elt F) (sumsView.writes (Elt F) sumsView.junk (runFirst c i aPts hPts' aNrm hNrm' aWt hWt' aBias hBias' aCen hCen' aOut hOut' aSums hSums' aTot hTot' hFirst hLast x0 x1 x2 x3 x4).2.1)
def totFirst (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) : Vec F S1x64 .f32 :=
  totView.read (Elt F) (totView.writes (Elt F) totView.junk (runFirst c i aPts hPts' aNrm hNrm' aWt hWt' aBias hBias' aCen hCen' aOut hOut' aSums hSums' aTot hTot' hFirst hLast x0 x1 x2 x3 x4).2.2.1)

theorem sumsCover_mid (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) (y : S64x128.Idx) :
    ∃ pc ∈ (runMiddle c i aPts hPts' aNrm hNrm' aWt hWt' aBias hBias' aCen hCen' aOut hOut' aSums hSums' aTot hTot' hFirst hLast x0 x1 x2 x3 x4 xs0 xs1).2.1, y ∈ pc.1.set :=
  View.cover_of_tiledL (runMiddle c i aPts hPts' aNrm hNrm' aWt hWt' aBias hBias' aCen hCen' aOut hOut' aSums hSums' aTot hTot' hFirst hLast x0 x1 x2 x3 x4 xs0 xs1).2.1 S64x128.size (by sl_kernel_rfl) y
theorem totCover_mid (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) (y : S1x64.Idx) :
    ∃ pc ∈ (runMiddle c i aPts hPts' aNrm hNrm' aWt hWt' aBias hBias' aCen hCen' aOut hOut' aSums hSums' aTot hTot' hFirst hLast x0 x1 x2 x3 x4 xs0 xs1).2.2.1, y ∈ pc.1.set :=
  View.cover_of_tiledL (runMiddle c i aPts hPts' aNrm hNrm' aWt hWt' aBias hBias' aCen hCen' aOut hOut' aSums hSums' aTot hTot' hFirst hLast x0 x1 x2 x3 x4 xs0 xs1).2.2.1 S1x64.size (by sl_kernel_rfl) y
/-- What a middle point leaves in the two accumulators, over what the point before left. -/
def sumsMid (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) : Vec F S64x128 .f32 :=
  sumsView.read (Elt F) (sumsView.writes (Elt F) sumsView.junk (runMiddle c i aPts hPts' aNrm hNrm' aWt hWt' aBias hBias' aCen hCen' aOut hOut' aSums hSums' aTot hTot' hFirst hLast x0 x1 x2 x3 x4 xs0 xs1).2.1)
def totMid (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) : Vec F S1x64 .f32 :=
  totView.read (Elt F) (totView.writes (Elt F) totView.junk (runMiddle c i aPts hPts' aNrm hNrm' aWt hWt' aBias hBias' aCen hCen' aOut hOut' aSums hSums' aTot hTot' hFirst hLast x0 x1 x2 x3 x4 xs0 xs1).2.2.1)

theorem outCover_last (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) (y : S1x64x128.Idx) :
    ∃ pc ∈ (runLast c i aPts hPts' aNrm hNrm' aWt hWt' aBias hBias' aCen hCen' aOut hOut' aSums hSums' aTot hTot' hFirst hLast x0 x1 x2 x3 x4 xs0 xs1).1, y ∈ pc.1.set :=
  View.cover_of_tiledL (runLast c i aPts hPts' aNrm hNrm' aWt hWt' aBias hBias' aCen hCen' aOut hOut' aSums hSums' aTot hTot' hFirst hLast x0 x1 x2 x3 x4 xs0 xs1).1 S1x64x128.size (by sl_kernel_rfl) y
theorem sumsCover_last (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) (y : S64x128.Idx) :
    ∃ pc ∈ (runLast c i aPts hPts' aNrm hNrm' aWt hWt' aBias hBias' aCen hCen' aOut hOut' aSums hSums' aTot hTot' hFirst hLast x0 x1 x2 x3 x4 xs0 xs1).2.1, y ∈ pc.1.set :=
  View.cover_of_tiledL (runLast c i aPts hPts' aNrm hNrm' aWt hWt' aBias hBias' aCen hCen' aOut hOut' aSums hSums' aTot hTot' hFirst hLast x0 x1 x2 x3 x4 xs0 xs1).2.1 S64x128.size (by sl_kernel_rfl) y
theorem totCover_last (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) (y : S1x64.Idx) :
    ∃ pc ∈ (runLast c i aPts hPts' aNrm hNrm' aWt hWt' aBias hBias' aCen hCen' aOut hOut' aSums hSums' aTot hTot' hFirst hLast x0 x1 x2 x3 x4 xs0 xs1).2.2.1, y ∈ pc.1.set :=
  View.cover_of_tiledL (runLast c i aPts hPts' aNrm hNrm' aWt hWt' aBias hBias' aCen hCen' aOut hOut' aSums hSums' aTot hTot' hFirst hLast x0 x1 x2 x3 x4 xs0 xs1).2.2.1 S1x64.size (by sl_kernel_rfl) y
/-- What the last point leaves in the result block and in the two accumulators. -/
def outLast (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) : Vec F S1x64x128 .f32 :=
  outView.read (Elt F) (outView.writes (Elt F) outView.junk (runLast c i aPts hPts' aNrm hNrm' aWt hWt' aBias hBias' aCen hCen' aOut hOut' aSums hSums' aTot hTot' hFirst hLast x0 x1 x2 x3 x4 xs0 xs1).1)
def sumsLast (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) : Vec F S64x128 .f32 :=
  sumsView.read (Elt F) (sumsView.writes (Elt F) sumsView.junk (runLast c i aPts hPts' aNrm hNrm' aWt hWt' aBias hBias' aCen hCen' aOut hOut' aSums hSums' aTot hTot' hFirst hLast x0 x1 x2 x3 x4 xs0 xs1).2.1)
def totLast (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) : Vec F S1x64 .f32 :=
  totView.read (Elt F) (totView.writes (Elt F) totView.junk (runLast c i aPts hPts' aNrm hNrm' aWt hWt' aBias hBias' aCen hCen' aOut hOut' aSums hSums' aTot hTot' hFirst hLast x0 x1 x2 x3 x4 xs0 xs1).2.2.1)

/-- Away from the last point nothing is stored into the result block: a placeholder nothing consults (the window is
    idle there, neither written back nor read at the next point). -/
def outIdle : Vec F S1x64x128 .f32 := outView.read (Elt F) (outView.writes (Elt F) outView.junk [])

section

variable (V : (c : Dev nD) → (b : Ref sig .tc) → Buf (Elt F) ((c : Thread nD τ).loc b))

/-! ## Point by point -/

/-- What the result block, the sums accumulator and the totals accumulator hold after the body at position `n`: the
    first point's contents at 0; afterwards the last point's or a middle point's, over the accumulators the point
    before left. -/
def contentsAt (c : Dev nD) : (n : ℕ) → n < cfg1.N → Vec F S1x64x128 .f32 × Vec F S64x128 .f32 × Vec F S1x64 .f32
  | 0, hn =>
    have hf : isFirst (grid1.coords ⟨0, hn⟩) := (isFirst_iff ⟨0, hn⟩).mpr (Nat.zero_mod _)
    have hl : ¬isLast (grid1.coords ⟨0, hn⟩) := fun h => (fun h => by (try dsimp only at h); omega) ((isLast_iff ⟨0, hn⟩).mp h)
    (outIdle, sumsFirst c (grid1.coords ⟨0, hn⟩) (mPts ⟨0, hn⟩) (hPts ⟨0, hn⟩) (mNrm ⟨0, hn⟩) (hNrm ⟨0, hn⟩) (mWt ⟨0, hn⟩) (hWt ⟨0, hn⟩) (mBias ⟨0, hn⟩) (hBias ⟨0, hn⟩) (mCen ⟨0, hn⟩) (hCen ⟨0, hn⟩) (mOut ⟨0, hn⟩) (hOut ⟨0, hn⟩) mSums (Memref.isWhole_whole _) mTot (Memref.isWhole_whole _) hf hl (blk V c 0 ⟨0, hn⟩) (blk V c 1 ⟨0, hn⟩) (blk V c 2 ⟨0, hn⟩) (blk V c 3 ⟨0, hn⟩) (blk V c 4 ⟨0, hn⟩),
      totFirst c (grid1.coords ⟨0, hn⟩) (mPts ⟨0, hn⟩) (hPts ⟨0, hn⟩) (mNrm ⟨0, hn⟩) (hNrm ⟨0, hn⟩) (mWt ⟨0, hn⟩) (hWt ⟨0, hn⟩) (mBias ⟨0, hn⟩) (hBias ⟨0, hn⟩) (mCen ⟨0, hn⟩) (hCen ⟨0, hn⟩) (mOut ⟨0, hn⟩) (hOut ⟨0, hn⟩) mSums (Memref.isWhole_whole _) mTot (Memref.isWhole_whole _) hf hl (blk V c 0 ⟨0, hn⟩) (blk V c 1 ⟨0, hn⟩) (blk V c 2 ⟨0, hn⟩) (blk V c 3 ⟨0, hn⟩) (blk V c 4 ⟨0, hn⟩))
  | n + 1, hn =>
    have hnf : ¬isFirst (grid1.coords ⟨n + 1, hn⟩) := fun h => (fun h => by have hN : n + 1 < 40 := lt_of_lt_of_eq hn (show cfg1.N = 40 from N_1); (try dsimp only at h); omega) ((isFirst_iff ⟨n + 1, hn⟩).mp h)
    if h1 : (n + 1) % 40 = 39 then
      (outLast c (grid1.coords ⟨n + 1, hn⟩) (mPts ⟨n + 1, hn⟩) (hPts ⟨n + 1, hn⟩) (mNrm ⟨n + 1, hn⟩) (hNrm ⟨n + 1, hn⟩) (mWt ⟨n + 1, hn⟩) (hWt ⟨n + 1, hn⟩) (mBias ⟨n + 1, hn⟩) (hBias ⟨n + 1, hn⟩) (mCen ⟨n + 1, hn⟩) (hCen ⟨n + 1, hn⟩) (mOut ⟨n + 1, hn⟩) (hOut ⟨n + 1, hn⟩) mSums (Memref.isWhole_whole _) mTot (Memref.isWhole_whole _) hnf ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (contentsAt c n (Nat.lt_of_succ_lt hn)).2.1 (contentsAt c n (Nat.lt_of_succ_lt hn)).2.2,
        sumsLast c (grid1.coords ⟨n + 1, hn⟩) (mPts ⟨n + 1, hn⟩) (hPts ⟨n + 1, hn⟩) (mNrm ⟨n + 1, hn⟩) (hNrm ⟨n + 1, hn⟩) (mWt ⟨n + 1, hn⟩) (hWt ⟨n + 1, hn⟩) (mBias ⟨n + 1, hn⟩) (hBias ⟨n + 1, hn⟩) (mCen ⟨n + 1, hn⟩) (hCen ⟨n + 1, hn⟩) (mOut ⟨n + 1, hn⟩) (hOut ⟨n + 1, hn⟩) mSums (Memref.isWhole_whole _) mTot (Memref.isWhole_whole _) hnf ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (contentsAt c n (Nat.lt_of_succ_lt hn)).2.1 (contentsAt c n (Nat.lt_of_succ_lt hn)).2.2,
        totLast c (grid1.coords ⟨n + 1, hn⟩) (mPts ⟨n + 1, hn⟩) (hPts ⟨n + 1, hn⟩) (mNrm ⟨n + 1, hn⟩) (hNrm ⟨n + 1, hn⟩) (mWt ⟨n + 1, hn⟩) (hWt ⟨n + 1, hn⟩) (mBias ⟨n + 1, hn⟩) (hBias ⟨n + 1, hn⟩) (mCen ⟨n + 1, hn⟩) (hCen ⟨n + 1, hn⟩) (mOut ⟨n + 1, hn⟩) (hOut ⟨n + 1, hn⟩) mSums (Memref.isWhole_whole _) mTot (Memref.isWhole_whole _) hnf ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (contentsAt c n (Nat.lt_of_succ_lt hn)).2.1 (contentsAt c n (Nat.lt_of_succ_lt hn)).2.2)
    else
      (outIdle, sumsMid c (grid1.coords ⟨n + 1, hn⟩) (mPts ⟨n + 1, hn⟩) (hPts ⟨n + 1, hn⟩) (mNrm ⟨n + 1, hn⟩) (hNrm ⟨n + 1, hn⟩) (mWt ⟨n + 1, hn⟩) (hWt ⟨n + 1, hn⟩) (mBias ⟨n + 1, hn⟩) (hBias ⟨n + 1, hn⟩) (mCen ⟨n + 1, hn⟩) (hCen ⟨n + 1, hn⟩) (mOut ⟨n + 1, hn⟩) (hOut ⟨n + 1, hn⟩) mSums (Memref.isWhole_whole _) mTot (Memref.isWhole_whole _) hnf (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (contentsAt c n (Nat.lt_of_succ_lt hn)).2.1 (contentsAt c n (Nat.lt_of_succ_lt hn)).2.2,
        totMid c (grid1.coords ⟨n + 1, hn⟩) (mPts ⟨n + 1, hn⟩) (hPts ⟨n + 1, hn⟩) (mNrm ⟨n + 1, hn⟩) (hNrm ⟨n + 1, hn⟩) (mWt ⟨n + 1, hn⟩) (hWt ⟨n + 1, hn⟩) (mBias ⟨n + 1, hn⟩) (hBias ⟨n + 1, hn⟩) (mCen ⟨n + 1, hn⟩) (hCen ⟨n + 1, hn⟩) (mOut ⟨n + 1, hn⟩) (hOut ⟨n + 1, hn⟩) mSums (Memref.isWhole_whole _) mTot (Memref.isWhole_whole _) hnf (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (contentsAt c n (Nat.lt_of_succ_lt hn)).2.1 (contentsAt c n (Nat.lt_of_succ_lt hn)).2.2)

/-- A point that is not the first is not in the first case. -/
theorem notFirst_of (t : Fin cfg1.N) (h0 : ¬t.val % 40 = 0) : ¬isFirst (grid1.coords t) := fun h => h0 ((isFirst_iff t).mp h)

/-- `contentsAt` at the first point. -/
theorem contentsAt_first (c : Dev nD) (t : Fin cfg1.N) (h0 : t.val % 40 = 0) (h1 : ¬t.val % 40 = 39) :
    contentsAt V c t.val t.isLt = (outIdle, sumsFirst c (grid1.coords t) (mPts t) (hPts t) (mNrm t) (hNrm t) (mWt t) (hWt t) (mBias t) (hBias t) (mCen t) (hCen t) (mOut t) (hOut t) mSums (Memref.isWhole_whole _) mTot (Memref.isWhole_whole _) ((isFirst_iff t).mpr h0) (fun h => h1 ((isLast_iff t).mp h)) (blk V c 0 t) (blk V c 1 t) (blk V c 2 t) (blk V c 3 t) (blk V c 4 t),
      totFirst c (grid1.coords t) (mPts t) (hPts t) (mNrm t) (hNrm t) (mWt t) (hWt t) (mBias t) (hBias t) (mCen t) (hCen t) (mOut t) (hOut t) mSums (Memref.isWhole_whole _) mTot (Memref.isWhole_whole _) ((isFirst_iff t).mpr h0) (fun h => h1 ((isLast_iff t).mp h)) (blk V c 0 t) (blk V c 1 t) (blk V c 2 t) (blk V c 3 t) (blk V c 4 t)) := by
  obtain ⟨n, hn⟩ := t
  cases n with
  | zero => exact rfl
  | succ n => exact (by exfalso; have hN : n + 1 < 40 := lt_of_lt_of_eq hn (show cfg1.N = 40 from N_1); (try dsimp only at h0); omega)

/-- `contentsAt` at a middle point: over what the point before left. -/
theorem contentsAt_mid (c : Dev nD) (t : Fin cfg1.N) (h0 : ¬t.val % 40 = 0) (h1 : ¬t.val % 40 = 39) :
    contentsAt V c t.val t.isLt = (outIdle, sumsMid c (grid1.coords t) (mPts t) (hPts t) (mNrm t) (hNrm t) (mWt t) (hWt t) (mBias t) (hBias t) (mCen t) (hCen t) (mOut t) (hOut t) mSums (Memref.isWhole_whole _) mTot (Memref.isWhole_whole _) (notFirst_of t h0) (fun h => h1 ((isLast_iff t).mp h)) (blk V c 0 t) (blk V c 1 t) (blk V c 2 t) (blk V c 3 t) (blk V c 4 t) (contentsAt V c (t.val - 1) (Nat.lt_of_le_of_lt (Nat.sub_le _ _) t.isLt)).2.1 (contentsAt V c (t.val - 1) (Nat.lt_of_le_of_lt (Nat.sub_le _ _) t.isLt)).2.2,
      totMid c (grid1.coords t) (mPts t) (hPts t) (mNrm t) (hNrm t) (mWt t) (hWt t) (mBias t) (hBias t) (mCen t) (hCen t) (mOut t) (hOut t) mSums (Memref.isWhole_whole _) mTot (Memref.isWhole_whole _) (notFirst_of t h0) (fun h => h1 ((isLast_iff t).mp h)) (blk V c 0 t) (blk V c 1 t) (blk V c 2 t) (blk V c 3 t) (blk V c 4 t) (contentsAt V c (t.val - 1) (Nat.lt_of_le_of_lt (Nat.sub_le _ _) t.isLt)).2.1 (contentsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- `contentsAt` at the last point: over what the point before left. -/
theorem contentsAt_last (c : Dev nD) (t : Fin cfg1.N) (h0 : ¬t.val % 40 = 0) (h1 : t.val % 40 = 39) :
    contentsAt V c t.val t.isLt = (outLast c (grid1.coords t) (mPts t) (hPts t) (mNrm t) (hNrm t) (mWt t) (hWt t) (mBias t) (hBias t) (mCen t) (hCen t) (mOut t) (hOut t) mSums (Memref.isWhole_whole _) mTot (Memref.isWhole_whole _) (notFirst_of t h0) ((isLast_iff t).mpr h1) (blk V c 0 t) (blk V c 1 t) (blk V c 2 t) (blk V c 3 t) (blk V c 4 t) (contentsAt V c (t.val - 1) (Nat.lt_of_le_of_lt (Nat.sub_le _ _) t.isLt)).2.1 (contentsAt V c (t.val - 1) (Nat.lt_of_le_of_lt (Nat.sub_le _ _) t.isLt)).2.2,
      sumsLast c (grid1.coords t) (mPts t) (hPts t) (mNrm t) (hNrm t) (mWt t) (hWt t) (mBias t) (hBias t) (mCen t) (hCen t) (mOut t) (hOut t) mSums (Memref.isWhole_whole _) mTot (Memref.isWhole_whole _) (notFirst_of t h0) ((isLast_iff t).mpr h1) (blk V c 0 t) (blk V c 1 t) (blk V c 2 t) (blk V c 3 t) (blk V c 4 t) (contentsAt V c (t.val - 1) (Nat.lt_of_le_of_lt (Nat.sub_le _ _) t.isLt)).2.1 (contentsAt V c (t.val - 1) (Nat.lt_of_le_of_lt (Nat.sub_le _ _) t.isLt)).2.2,
      totLast c (grid1.coords t) (mPts t) (hPts t) (mNrm t) (hNrm t) (mWt t) (hWt t) (mBias t) (hBias t) (mCen t) (hCen t) (mOut t) (hOut t) mSums (Memref.isWhole_whole _) mTot (Memref.isWhole_whole _) (notFirst_of t h0) ((isLast_iff t).mpr h1) (blk V c 0 t) (blk V c 1 t) (blk V c 2 t) (blk V c 3 t) (blk V c 4 t) (contentsAt V c (t.val - 1) (Nat.lt_of_le_of_lt (Nat.sub_le _ _) t.isLt)).2.1 (contentsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The invariant -/

/-- The region's invariant before position `n`: the class's before the first point; afterwards both accumulators at
    what the point before left, the earlier launch's scoped buffers at some contents, the generator register at some
    state. -/
def inv (c : Dev nD) : (n : ℕ) → n ≤ cfg1.N → sProp 𝕄
  | 0, _ => Pipeline.ΦA spec1 c
  | n + 1, hn => iprop(withOthers (F := F) c iprop(owns (c : Thread nD τ) mSums fullShare ((contentsAt V c n hn).2.1) ∗ owns (c : Thread nD τ) mTot fullShare ((contentsAt V c n hn).2.2)) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(withOthers (F := F) c iprop(owns (c : Thread nD τ) mSums fullShare ((contentsAt V c n hn).2.1) ∗ owns (c : Thread nD τ) mTot fullShare ((contentsAt V c n hn).2.2)) ∗ (∃ r, prngReg c r)) := rfl

theorem inv_pos (c : Dev nD) (n : ℕ) (h : n ≤ cfg1.N) (hz : n ≠ 0) :
    inv V c n h = iprop(withOthers (F := F) c iprop(owns (c : Thread nD τ) mSums fullShare ((contentsAt V c (n - 1) (by omega)).2.1) ∗ owns (c : Thread nD τ) mTot fullShare ((contentsAt V c (n - 1) (by omega)).2.2)) ∗ (∃ r, prngReg c r)) := by
  cases n with
  | zero => exact absurd rfl hz
  | succ n => rfl

/-! ## The proof data -/

/-- The region's proof data on core `c`: the arrays as the region finds them; after the body at point `t` each input's
    buffer at its block and the output's at `contentsAt`; the invariant above; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (contentsAt V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]

theorem inv_castSucc (c : Dev nD) (t : Fin cfg1.N) :
    (dat V c).Φ t.castSucc = inv V c t.val (Nat.le_of_lt t.isLt) := by
  dsimp only [dat]; simp only [Fin.coe_castSucc]

theorem after_in0 (c : Dev nD) (t : Fin cfg1.N) : (dat V c).after 0 t = blk V c 0 t := by dsimp only [dat]
theorem after_in1 (c : Dev nD) (t : Fin cfg1.N) : (dat V c).after 1 t = blk V c 1 t := by dsimp only [dat]
theorem after_in2 (c : Dev nD) (t : Fin cfg1.N) : (dat V c).after 2 t = blk V c 2 t := by dsimp only [dat]
theorem after_in3 (c : Dev nD) (t : Fin cfg1.N) : (dat V c).after 3 t = blk V c 3 t := by dsimp only [dat]
theorem after_in4 (c : Dev nD) (t : Fin cfg1.N) : (dat V c).after 4 t = blk V c 4 t := by dsimp only [dat]
theorem after_out (c : Dev nD) (t : Fin cfg1.N) : (dat V c).after 5 t = (contentsAt V c t.val t.isLt).1 := by dsimp only [dat]

theorem before_in0 (c : Dev nD) (t : Fin cfg1.N) (d) : (dat V c).before 0 t d = blk V c 0 t :=
  before_in0_of V (dat V c) (A_eq V c 0) (after_in0 V c) t d
theorem before_in1 (c : Dev nD) (t : Fin cfg1.N) (d) : (dat V c).before 1 t d = blk V c 1 t :=
  before_in1_of V (dat V c) (A_eq V c 1) (after_in1 V c) t d
theorem before_in2 (c : Dev nD) (t : Fin cfg1.N) (d) : (dat V c).before 2 t d = blk V c 2 t :=
  before_in2_of V (dat V c) (A_eq V c 2) (after_in2 V c) t d
theorem before_in3 (c : Dev nD) (t : Fin cfg1.N) (d) : (dat V c).before 3 t d = blk V c 3 t :=
  before_in3_of V (dat V c) (A_eq V c 3) (after_in3 V c) t d
theorem before_in4 (c : Dev nD) (t : Fin cfg1.N) (d) : (dat V c).before 4 t d = blk V c 4 t :=
  before_in4_of V (dat V c) (A_eq V c 4) (after_in4 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (mPts t) fullShare ((dat V c).before 0 t d))
    ∗ (∃ d, owns (c : Thread nD τ) (mNrm t) fullShare ((dat V c).before 1 t d))
    ∗ (∃ d, owns (c : Thread nD τ) (mWt t) fullShare ((dat V c).before 2 t d))
    ∗ (∃ d, owns (c : Thread nD τ) (mBias t) fullShare ((dat V c).before 3 t d))
    ∗ (∃ d, owns (c : Thread nD τ) (mCen t) fullShare ((dat V c).before 4 t d))
    ∗ (∃ d, owns (c : Thread nD τ) (mOut t) fullShare ((dat V c).before 5 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 8000000 in
/-- The body at any point. Each input's memref holds its block; the coordinate says which case the point is in; the
    invariant hands the body both accumulators at what the point before left (at anything at the first point) and takes
    them back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4]
  rw [show (dat V c).owesAt () t.succ = (dat V c).owesAt () t.castSucc from rfl]
  rw [show (dat V c).Φ t.succ = inv V c (t.val + 1) t.isLt from rfl, inv_succ]
  have hN : t.val < 40 := lt_of_lt_of_eq t.isLt (show cfg1.N = 40 from N_1)
  rw [show (dat V c).leavesExact 0 t = owns (c : Thread nD τ) (mPts t) fullShare ((dat V c).after 0 t) from by
    unfold Dat.leavesExact; rw [live_in0 t], after_in0]
  rw [show (dat V c).leavesExact 1 t = owns (c : Thread nD τ) (mNrm t) fullShare ((dat V c).after 1 t) from by
    unfold Dat.leavesExact; rw [live_in1 t], after_in1]
  rw [show (dat V c).leavesExact 2 t = owns (c : Thread nD τ) (mWt t) fullShare ((dat V c).after 2 t) from by
    unfold Dat.leavesExact; rw [live_in2 t], after_in2]
  rw [show (dat V c).leavesExact 3 t = owns (c : Thread nD τ) (mBias t) fullShare ((dat V c).after 3 t) from by
    unfold Dat.leavesExact; rw [live_in3 t], after_in3]
  rw [show (dat V c).leavesExact 4 t = owns (c : Thread nD τ) (mCen t) fullShare ((dat V c).after 4 t) from by
    unfold Dat.leavesExact; rw [live_in4 t], after_in4]
  by_cases h0 : t.val % 40 = 0
  · have h1 : ¬t.val % 40 = 39 := by omega
    have hz : t.val = 0 := by omega
    rw [Dat.leavesExact_idle (dat V c) 5 t (idle_out t (fun h => h1 ((isLast_iff t).mp h))) (noFlush_out t (fun h => h1 ((isLast_iff t).mp h)))]
    rw [contentsAt_first V c t h0 h1]
    unfold sumsFirst totFirst; (try dsimp only)
    rw [inv_castSucc V c t, inv_zero V c _ _ hz, classInv_eq]
    unfold withOthers
    iintro ⟨⟨⟨Hr1, Hr2, Hr3, Hr4, HS0, HS1⟩, Hg⟩, Ho, ⟨%d0, H0⟩, ⟨%d1, H1⟩, ⟨%d2, H2⟩, ⟨%d3, H3⟩, ⟨%d4, H4⟩, ⟨%d5, H5⟩⟩
    iapply ((runFirst c (grid1.coords t) _ _ _ _ _ _ _ _ _ _ _ _ _ _ _ _ ((isFirst_iff t).mpr h0) (fun h => h1 ((isLast_iff t).mp h)) (blk V c 0 t) (blk V c 1 t) (blk V c 2 t) (blk V c 3 t) (blk V c 4 t)).2.2.2 _ Set.univ _)
    · isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr1 Hr2 Hr3 Hr4 Hg]
      · isplitl [HS0 HS1 Hr1 Hr2 Hr3 Hr4]
        · isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (sumsCover_first c _ _ _ _ _ _ _ _ _ _ _ _ _ _ _ _ _ _ _ _ _ _ _ _)
          unfold owns; iexists _; isplitr
          swap; · iexact HS1
          ipureintro; exact View.read_writes_of_cover _ _ _ _ _ (totCover_first c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 40 = 39
    · rw [show (dat V c).leavesExact 5 t = owns (c : Thread nD τ) (mOut t) fullShare ((dat V c).after 5 t) from by
        unfold Dat.leavesExact; rw [live_out t ((isLast_iff t).mpr h1)], after_out]
      rw [contentsAt_last V c t h0 h1]
      unfold outLast sumsLast totLast; (try dsimp only)
      rw [inv_castSucc V c t, inv_pos V c _ _ hz]
      unfold withOthers
      iintro ⟨⟨⟨Hr1, Hr2, Hr3, Hr4, HS0, HS1⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ _ _ (notFirst_of t h0) ((isLast_iff t).mpr h1) (blk V c 0 t) (blk V c 1 t) (blk V c 2 t) (blk V c 3 t) (blk V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hr1 Hr2 Hr3 Hr4 Hg]
      · isplitl [HS0 HS1 Hr1 Hr2 Hr3 Hr4]
        · isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (sumsCover_last c _ _ _ _ _ _ _ _ _ _ _ _ _ _ _ _ _ _ _ _ _ _ _ _ _ _)
          unfold owns; iexists _; isplitr
          swap; · iexact HS1
          ipureintro; exact View.read_writes_of_cover _ _ _ _ _ (totCover_last c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCover_last c _ _ _ _ _ _ _ _ _ _ _ _ _ _ _ _ _ _ _ _ _ _ _ _ _ _)
    · rw [Dat.leavesExact_idle (dat V c) 5 t (idle_out t (fun h => h1 ((isLast_iff t).mp h))) (noFlush_out t (fun h => h1 ((isLast_iff t).mp h)))]
      rw [contentsAt_mid V c t h0 h1]
      unfold sumsMid totMid; (try dsimp only)
      rw [inv_castSucc V c t, inv_pos V c _ _ hz]
      unfold withOthers
      iintro ⟨⟨⟨Hr1, Hr2, Hr3, Hr4, HS0, HS1⟩, Hg⟩, Ho, ⟨%d0, H0⟩, ⟨%d1, H1⟩, ⟨%d2, H2⟩, ⟨%d3, H3⟩, ⟨%d4, H4⟩, ⟨%d5, H5⟩⟩
      iapply ((runMiddle c (grid1.coords t) _ _ _ _ _ _ _ _ _ _ _ _ _ _ _ _ (notFirst_of t h0) (fun h => h1 ((isLast_iff t).mp h)) (blk V c 0 t) (blk V c 1 t) (blk V c 2 t) (blk V c 3 t) (blk V c 4 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr1 Hr2 Hr3 Hr4 Hg]
      · isplitl [HS0 HS1 Hr1 Hr2 Hr3 Hr4]
        · isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (sumsCover_mid c _ _ _ _ _ _ _ _ _ _ _ _ _ _ _ _ _ _ _ _ _ _ _ _ _ _)
          unfold owns; iexists _; isplitr
          swap; · iexact HS1
          ipureintro; exact View.read_writes_of_cover _ _ _ _ _ (totCover_mid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives the class's back: the accumulators' named contents are forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 40 := N_1; omega), classInv_eq]
  unfold withOthers
  iintro ⟨⟨Hr1, Hr2, Hr3, Hr4, HS0, HS1⟩, Hg⟩
  isplitl [HS0 HS1 Hr1 Hr2 Hr3 Hr4]
  · isplitl [Hr1]; · iexact Hr1
    isplitl [Hr2]; · iexact Hr2
    isplitl [Hr3]; · iexact Hr3
    isplitl [Hr4]; · iexact Hr4
    isplitl [HS0]; · iexists _; iexact HS0
    iexists _; iexact HS1
  iexact Hg

end

end Cert.KernelIdeal.Agg

end
-- ==== Proof.KernelIdeal.Whole.lean ====
/-
  The whole program on one core, in its three steps: the column-norm region, the two host operations, the aggregation
  region.

  What every unscoped buffer holds at each boundary is a fold from the launch memory: a region replaces its windows'
  arrays by what its pipeline leaves in them (an input window's array is left as entered, an output window's array
  holds its write-backs) and touches no other buffer; the host operations write the transposed weights and the bias
  as a row and touch nothing else. The run threads "every unscoped buffer at the boundary's contents" through the
  three steps, and at the end each buffer is read off the last boundary. No step writes an argument, so each argument
  reads back as launched.
-/
import proofs.«181373_j45552423141540_1_alg».proof.Proof.KernelIdeal.Norm.Body
import proofs.«181373_j45552423141540_1_alg».proof.Proof.KernelIdeal.Agg.Body
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- Core `c`'s buffers at launch. -/
abbrev atLaunch : Dev nD → Valuation τ sig (Elt F) := fun c b => m (c, b)
/-- The same, read at the core's own references: what the column-norm region is entered with. -/
abbrev entryNorm : (c : Dev nD) → (b : Ref sig .tc) → Buf (Elt F) ((c : Thread nD τ).loc b) := fun c b => atLaunch m c b
/-- After the column-norm region: its two arrays at what its pipeline leaves, every other buffer as launched. -/
def afterNorm (c : Dev nD) : Valuation τ sig (Elt F) :=
  Pipeline.withArrays spec0 c (atLaunch m c) fun w => (Norm.dat (entryNorm m) c).arrAt w cfg0.N
/-- After the two host operations: what the aggregation region is entered with. -/
abbrev atAgg : Dev nD → Valuation τ sig (Elt F) := fun c => StableHlo.after hostOps1 (afterNorm m c)
/-- The same, read at the core's own references. -/
abbrev entryAgg : (c : Dev nD) → (b : Ref sig .tc) → Buf (Elt F) ((c : Thread nD τ).loc b) := fun c b => atAgg m c b
/-- After the aggregation region, which is the end: its six arrays at what its pipeline leaves, every other buffer as
    the region was entered. -/
def atEnd (c : Dev nD) : Valuation τ sig (Elt F) :=
  Pipeline.withArrays spec1 c (atAgg m c) fun w => (Agg.dat (entryAgg m) c).arrAt w cfg1.N

/-! ### A region's exit contents, at one of its arrays and at any other buffer -/

theorem afterNorm_arr (c : Dev nD) (w : Fin cfg0.W) :
    afterNorm m c (Proc.devRef .tc (Pipeline.arrRef spec0 w)) = (Norm.dat (entryNorm m) c).arrAt w cfg0.N := by
  unfold afterNorm; exact Pipeline.withArrays_arr spec0 launch0.win.arr_inj c _ _ w
theorem afterNorm_other (c : Dev nD) (b : Ref sig .tc) (hb : ∀ w, Pipeline.arrRef spec0 w ≠ b) :
    afterNorm m c (Proc.devRef .tc b) = atLaunch m c (Proc.devRef .tc b) := by
  unfold afterNorm; exact Pipeline.withArrays_of_ne spec0 c _ _ b hb
theorem atEnd_arr (c : Dev nD) (w : Fin cfg1.W) :
    atEnd m c (Proc.devRef .tc (Pipeline.arrRef spec1 w)) = (Agg.dat (entryAgg m) c).arrAt w cfg1.N := by
  unfold atEnd; exact Pipeline.withArrays_arr spec1 launch1.win.arr_inj c _ _ w
theorem atEnd_other (c : Dev nD) (b : Ref sig .tc) (hb : ∀ w, Pipeline.arrRef spec1 w ≠ b) :
    atEnd m c (Proc.devRef .tc b) = atAgg m c (Proc.devRef .tc b) := by
  unfold atEnd; exact Pipeline.withArrays_of_ne spec1 c _ _ b hb

/-- The exit contents read at the core's own references. -/
abbrev exitNorm : (c : Dev nD) → (b : Ref sig .tc) → Buf (Elt F) ((c : Thread nD τ).loc b) := fun c b => afterNorm m c b
abbrev exitAgg : (c : Dev nD) → (b : Ref sig .tc) → Buf (Elt F) ((c : Thread nD τ).loc b) := fun c b => atEnd m c b

/-- At a region's exit each of its arrays holds what the pipeline leaves and every other buffer what it held at entry:
    the two facts by which the arrays and the bypassing buffers are put back together into "every unscoped buffer". -/
theorem normLeaves (c : Dev nD) (w : Fin cfg0.W) :
    (Norm.dat (entryNorm m) c).arrAt w cfg0.N = exitNorm m c (Pipeline.arrRef spec0 w) := (afterNorm_arr m c w).symm
theorem normKeeps (c : Dev nD) : ∀ b, b ∉ Finset.univ.image (Pipeline.arrRef spec0) → exitNorm m c b = entryNorm m c b :=
  fun b hb => afterNorm_other m c b fun w e => hb (Finset.mem_image.mpr ⟨w, Finset.mem_univ _, e⟩)
theorem aggLeaves (c : Dev nD) (w : Fin cfg1.W) :
    (Agg.dat (entryAgg m) c).arrAt w cfg1.N = exitAgg m c (Pipeline.arrRef spec1 w) := (atEnd_arr m c w).symm
theorem aggKeeps (c : Dev nD) : ∀ b, b ∉ Finset.univ.image (Pipeline.arrRef spec1) → exitAgg m c b = entryAgg m c b :=
  fun b hb => atEnd_other m c b fun w e => hb (Finset.mem_image.mpr ⟨w, Finset.mem_univ _, e⟩)

/-! ### The host operations write the transposed weights and the bias row, and nothing else -/

theorem hostOps1_keeps (V : Valuation τ sig (Elt F)) (r : Ref sig .tc) (hw : r ≠ main_v1) (hb : r ≠ main_v2) :
    StableHlo.after hostOps1 V (Proc.devRef .tc r) = V (Proc.devRef .tc r) := by
  simp only [hostOps1, StableHlo.after_cons, StableHlo.after_nil]
  rw [StableHlo.reshape_result_ne (h := hb), StableHlo.unary_result_ne (h := hw)]

/-! ### What the aggregation region is entered with, array by array -/

/-- The points: launched, an input of the column-norm region, untouched by the host operations. -/
theorem entryAgg_pts (c : Dev nD) : entryAgg m c main_arg0 = m ((c : Thread nD τ).loc main_arg0) :=
  calc entryAgg m c main_arg0
    _ = afterNorm m c (Proc.devRef .tc main_arg0) := hostOps1_keeps _ main_arg0 (by decide) (by decide)
    _ = (Norm.dat (entryNorm m) c).A 0 := (afterNorm_arr m c 0).trans ((Norm.dat (entryNorm m) c).arrAt_in 0 rfl _)
    _ = m ((c : Thread nD τ).loc main_arg0) := Norm.A_eq (entryNorm m) c 0

/-- The centres: launched, no array of the column-norm region, untouched by the host operations. -/
theorem entryAgg_cen (c : Dev nD) : entryAgg m c main_arg3 = m ((c : Thread nD τ).loc main_arg3) :=
  calc entryAgg m c main_arg3
    _ = afterNorm m c (Proc.devRef .tc main_arg3) := hostOps1_keeps _ main_arg3 (by decide) (by decide)
    _ = m ((c : Thread nD τ).loc main_arg3) := afterNorm_other m c main_arg3 (by decide)

/-- The column norms: what the column-norm region's pipeline leaves in its output array. -/
theorem entryAgg_norm (c : Dev nD) : entryAgg m c main_v0 = (Norm.dat (entryNorm m) c).arrAt 1 cfg0.N :=
  calc entryAgg m c main_v0
    _ = afterNorm m c (Proc.devRef .tc main_v0) := hostOps1_keeps _ main_v0 (by decide) (by decide)
    _ = (Norm.dat (entryNorm m) c).arrAt 1 cfg0.N := afterNorm_arr m c 1

/-- The weights, transposed by the first host operation from the launched weights. -/
theorem entryAgg_wT (c : Dev nD) :
    entryAgg m c main_v1
      = transpose S128x64 [1, 0] (m ((c : Thread nD τ).loc main_arg1)) transposes_S64x128_S128x64_1_0 := by
  have hw : afterNorm m c (Proc.devRef .tc main_arg1) = m ((c : Thread nD τ).loc main_arg1) :=
    afterNorm_other m c main_arg1 (by decide)
  show StableHlo.after hostOps1 (afterNorm m c) (Proc.devRef .tc main_v1) = _
  rw [← hw]
  simp only [hostOps1]
  after_results

/-- The bias, laid out as a row by the second host operation from the launched bias. -/
theorem entryAgg_bias (c : Dev nD) :
    entryAgg m c main_v2 = shapeCast S1x64 (m ((c : Thread nD τ).loc main_arg2)) shapeCasts_S64_S1x64 := by
  have hb : afterNorm m c (Proc.devRef .tc main_arg2) = m ((c : Thread nD τ).loc main_arg2) :=
    afterNorm_other m c main_arg2 (by decide)
  show StableHlo.after hostOps1 (afterNorm m c) (Proc.devRef .tc main_v2) = _
  rw [← hb]
  simp only [hostOps1]
  after_results
  rfl

/-! ### The arguments and the result at the end

No step writes an argument. The points are an input window's array in both regions and the centres one in the second,
and an input window's array is left as entered; the weights and the bias are no window's array at all; the host
operations write neither. -/

theorem atEnd_main_arg0 (c : Dev nD) : atEnd m c (Proc.devRef .tc main_arg0) = m ((c : Thread nD τ).loc main_arg0) :=
  calc atEnd m c (Proc.devRef .tc main_arg0)
    _ = (Agg.dat (entryAgg m) c).A 0 := (atEnd_arr m c 0).trans ((Agg.dat (entryAgg m) c).arrAt_in 0 rfl _)
    _ = entryAgg m c main_arg0 := Agg.A_eq (entryAgg m) c 0
    _ = m ((c : Thread nD τ).loc main_arg0) := entryAgg_pts m c

theorem atEnd_main_arg1 (c : Dev nD) : atEnd m c (Proc.devRef .tc main_arg1) = m ((c : Thread nD τ).loc main_arg1) :=
  calc atEnd m c (Proc.devRef .tc main_arg1)
    _ = atAgg m c (Proc.devRef .tc main_arg1) := atEnd_other m c main_arg1 (by decide)
    _ = afterNorm m c (Proc.devRef .tc main_arg1) := hostOps1_keeps _ main_arg1 (by decide) (by decide)
    _ = m ((c : Thread nD τ).loc main_arg1) := afterNorm_other m c main_arg1 (by decide)

theorem atEnd_main_arg2 (c : Dev nD) : atEnd m c (Proc.devRef .tc main_arg2) = m ((c : Thread nD τ).loc main_arg2) :=
  calc atEnd m c (Proc.devRef .tc main_arg2)
    _ = atAgg m c (Proc.devRef .tc main_arg2) := atEnd_other m c main_arg2 (by decide)
    _ = afterNorm m c (Proc.devRef .tc main_arg2) := hostOps1_keeps _ main_arg2 (by decide) (by decide)
    _ = m ((c : Thread nD τ).loc main_arg2) := afterNorm_other m c main_arg2 (by decide)

theorem atEnd_main_arg3 (c : Dev nD) : atEnd m c (Proc.devRef .tc main_arg3) = m ((c : Thread nD τ).loc main_arg3) :=
  calc atEnd m c (Proc.devRef .tc main_arg3)
    _ = (Agg.dat (entryAgg m) c).A 4 := (atEnd_arr m c 4).trans ((Agg.dat (entryAgg m) c).arrAt_in 4 rfl _)
    _ = entryAgg m c main_arg3 := Agg.A_eq (entryAgg m) c 4
    _ = m ((c : Thread nD τ).loc main_arg3) := entryAgg_cen m c

/-- The result is what the aggregation region's pipeline leaves in its output array. -/
theorem atEnd_result (c : Dev nD) : atEnd m c (Proc.devRef .tc main_v3) = (Agg.dat (entryAgg m) c).arrAt 5 cfg1.N :=
  atEnd_arr m c 5

/-! ## The proof data of both pipelines, and what rides beside the buffers -/

/-- Neither pipeline has a prefetched table. -/
abbrev adm : (p : Fin 2) → (pcfgs (F := F) p).Adm := fun p => (cfgs p).toPCfg_adm
/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => Norm.dat (entryNorm m) c
  | ⟨1, _⟩ => fun c => Agg.dat (entryAgg m) c
abbrev 𝒱₀ : Variants := Variants.none
/-- No core owes another anything. -/
abbrev L : GSem nD τ sig → Finset Unit := fun _ => ∅
abbrev lv : GSem nD τ sig → Unit → ℕ := fun _ _ => 0
/-- Beside the buffers, through every step: the core's generator register at some state, and the core owing nothing. -/
abbrev rider (c : Dev nD) : sProp 𝕄 :=
  iprop((∃ r, prngReg c r) ∗ ∃ W, owes (c : Thread nD τ) (0 : CellTallies nD τ sig Unit) W)

/-- Neither host operation allocates a buffer. -/
theorem hostOps1_fresh : (hostOps1 : List (HloOp τ sig (Elt F))).Forall fun op => op.fresh = ∅ := by
  simp only [List.Forall]; repeat' constructor
/-- The host operations as one step over every unscoped buffer, from the contents `W` to those after them. -/
abbrev hostStep (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) W rider
/-- An unscoped reference of the core is among the buffers threaded through the run. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the owing-nothing part: every unscoped buffer at the end contents, the generator register. -/
abbrev lastState (c : Dev nD) : sProp 𝕄 :=
  iprop(StableHlo.held (c : Thread nD τ) (Pipeline.ucRefs τ sig) (atEnd m c) ∗ ∃ r, prngReg c r)

/-! ## The two regions as steps of the run

A region is entered from every unscoped buffer at its entry contents. Its windows' arrays are split off and the other
buffers bypass it; the generator register goes into the class's invariant, which is the region's own invariant before
the first point; after the last point the region's invariant gives the class's back, the register comes out, and the
arrays at what the pipeline leaves are joined with the bypassing buffers into every unscoped buffer at the exit
contents. Nothing is owed and the kernels have no semaphore of their own. -/

-- a library lemma stated over a pinned configuration meets the printed one only when unification may unfold plain
-- definitions inside a metavariable's type
set_option backward.isDefEq.respectTransparency.types false in
def regNorm : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Norm.body_obligation (entryNorm m) c).loose
  hwaits := Pipeline.hwaits_of_owed_zero _ _ _ _ L lv 0 fun _ _ => rfl
  pre c := iprop(StableHlo.held (c : Thread nD τ) (Pipeline.ucRefs τ sig) (atLaunch m c) ∗ rider c)
  post c := iprop(StableHlo.held (c : Thread nD τ) (Pipeline.ucRefs τ sig) (afterNorm m c) ∗ rider c)
  X c := iprop(∃ r, prngReg c r)
  Y c := iprop(∃ r, prngReg c r)
  Z c := Pipeline.unscopedRest (Ix := Unit) (Name := ℕ) (U := UR sig nD τ) (Lvl := ℕ) spec0 c (entryNorm m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entryNorm m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Norm.inv_in (entryNorm m) c)
    unfold Pipeline.ΦA
    iintro ⟨Hp, -, Hr⟩
    isplitl [Hr]; · iexact Hr
    iexact Hp
  hout c := by
    rw [Pipeline.ownSems0_none]
    refine BIBase.Entails.trans (Norm.inv_out (entryNorm m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entryNorm m c) (exitNorm m c) ((pdats m 0 c).arrAt · cfg0.N) (normLeaves m c) (normKeeps m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration meets the printed one only when unification may unfold plain
-- definitions inside a metavariable's type
set_option backward.isDefEq.respectTransparency.types false in
def regAgg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (entryAgg m) c).loose
  hwaits := Pipeline.hwaits_of_owed_zero _ _ _ _ L lv 1 fun _ _ => rfl
  pre c := iprop(StableHlo.held (c : Thread nD τ) (Pipeline.ucRefs τ sig) (atAgg m c) ∗ rider c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entryAgg m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entryAgg m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Agg.inv_in (entryAgg m) c)
    unfold Pipeline.ΦA
    iintro ⟨Hp, -, Hr⟩
    isplitl [Hr]; · iexact Hr
    iexact Hp
  hout c := by
    rw [Pipeline.ownSems0_none]
    refine BIBase.Entails.trans (Agg.inv_out (entryAgg m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entryAgg m c) (exitAgg m c) ((pdats m 1 c).arrAt · cfg1.N) (aggLeaves m c) (aggKeeps m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three steps, and the run -/

/-- The program's steps in order: the column-norm region, the host operations from what it leaves, the aggregation
    region. -/
abbrev steps : List (Pipeline.Seg (pcfgs (F := F)) adm (pdats m) () defs₀ 𝒱₀ L lv) :=
  [ .region (regNorm m),
    .host (hostStep (afterNorm m)),
    .region (regAgg m) ]
/-- The program is the run of its steps: it is the chain of the three items, and so is the steps' run. -/
theorem main_steps (c : Dev nD) : main (F := F) c = Pipeline.Seg.run (steps m) := (main_chain c).trans (by chain_rfl)

-- the launch theorem's implicit arguments are found by unifying its conclusion with this one, which takes unfolding
-- plain definitions inside a metavariable's type
set_option backward.isDefEq.respectTransparency.types false in
/-- THE RUN. From any memory with zero counters every weakly fair execution of the program on the cores terminates,
    nothing faulting, and in every final state each unscoped buffer of each core holds the end contents: the launch
    makes the first state on every core, the three steps chain, and the last state is read against the final memory. -/
theorem run_all : θ_run defs (onTc (τ := τ) (main (F := F))) ⟨m, fun _ => 0, ρ⟩ (fun r => ∀ c : Dev nD,
      ∀ b ∈ Pipeline.ucRefs τ sig, r.2.mem ((c : Thread nD τ).1, b) = atEnd m c b) :=
  Pipeline.θ_run_regions_kit (pcfgs (F := F)) adm (pdats m) () cellOf_inj emb₁ defs₀ 𝒱₀ L lv m ρ main (steps m)
    (fun c Q => by rw [main_steps m c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ rider c)) (Tₙ := lastState m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h c => h c)

/-- THE FRAME: the program runs and every argument ends as launched — each argument's buffer read off the end
    contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (atEnd_main_arg0 m c),
     (h c _ (mem_uc main_arg1 (by decide))).trans (atEnd_main_arg1 m c),
     (h c _ (mem_uc main_arg2 (by decide))).trans (atEnd_main_arg2 m c),
     (h c _ (mem_uc main_arg3 (by decide))).trans (atEnd_main_arg3 m c)⟩) (run_all m ρ)

end Cert.KernelIdeal.Whole

end
-- ==== Proof.Pooling.lean ====
/-
  The pooled descriptor as one function of the four argument arrays, index by index, on the extended reals.

  Given points x[n, d] (n < 200000, d < 128), a linear layer W[k, d], b[k] (k < 64) and centres c[k, d]:
    colNorm d    = sqrt (sum over n of x[n, d]^2)                      the norm of feature column d over all points
    unit n d     = x[n, d] / max (colNorm d) eps                       the point with every column scaled to unit norm
    logit n k    = (sum over d of unit n d * W[k, d]) + b[k]
    assign n k   = exp (logit n k - rowMax n) / sum over k' of exp (logit n k' - rowMax n)
                                                                       the soft assignment of point n to cluster k
    gathered k d = sum over n of assign n k * unit n d
    mass k       = sum over n of assign n k
    resid k d    = gathered k d - mass k * c[k, d]                     the residual of cluster k in feature d
    clNorm d     = sqrt (sum over k of resid k d ^2)                   the norm over the clusters
    out 0 k d    = resid k d / max (clNorm d) eps
  Every sum is a finite sum in the extended reals; eps and the maximum's starting value are kept as the float words
  both programs print, never evaluated.
-/
import Idealize.ShloMosaic.PureOps.Ideal
import Idealize.ShloMosaic.Lib.ValueIdx

noncomputable section

open scoped BigOperators

namespace Cert.Pooling

open Idealize.ShloMosaic Idealize.ShloMosaic.ValueIdx

/-- The shapes of the points, of the layer's weights and the centres, of the bias, and of the result. -/
abbrev Pts : Shape := ⟨2, ![200000, 128]⟩
abbrev Cl : Shape := ⟨2, ![64, 128]⟩
abbrev Bias : Shape := ⟨1, ![64]⟩
abbrev Res : Shape := ⟨3, ![1, 64, 128]⟩

/-- The floor under both norms, and the value the row maximum starts from, as the words the programs print. -/
abbrev eps : EReal := Ideal.ofBits .f32 0x2B8CBCCC#32
abbrev negInf : EReal := Ideal.ofBits .f32 0xFF800000#32

variable (x : Pts.Idx → EReal) (W : Cl.Idx → EReal) (b : Bias.Idx → EReal) (cen : Cl.Idx → EReal)

/-- The norm of feature column `d` over all points. -/
def colNorm (d : Fin 128) : EReal := Ideal.sqrt (∑ n : Fin 200000, x (ix2 n d) * x (ix2 n d))

/-- Point `n`, feature `d`, with the column scaled to unit norm (the norm floored at `eps`). -/
def unit (n : Fin 200000) (d : Fin 128) : EReal := Ideal.div (x (ix2 n d)) (max (colNorm x d) eps)

/-- The linear layer on the scaled point. -/
def logit (n : Fin 200000) (k : Fin 64) : EReal := (∑ d : Fin 128, unit x n d * W (ix2 k d)) + b (ix1 k)

/-- The largest logit of point `n`, as both programs compute it: a fold of `max` from `negInf`, joined once more with it. -/
def rowMax (n : Fin 200000) : EReal :=
  max negInf ((Finset.univ : Finset (Fin 64)).fold max negInf (fun k => logit x W b n k))

/-- The shifted exponential of a logit. -/
def expo (n : Fin 200000) (k : Fin 64) : EReal := Ideal.exp (logit x W b n k - rowMax x W b n)

/-- The soft assignment of point `n` to cluster `k`. -/
def assign (n : Fin 200000) (k : Fin 64) : EReal := Ideal.div (expo x W b n k) (∑ k' : Fin 64, expo x W b n k')

/-- The assignment-weighted sum of the scaled points, and the total assignment, of cluster `k`. -/
def gathered (k : Fin 64) (d : Fin 128) : EReal := ∑ n : Fin 200000, assign x W b n k * unit x n d
def mass (k : Fin 64) : EReal := ∑ n : Fin 200000, assign x W b n k

/-- The residual of cluster `k` in feature `d`, and its norm over the clusters. -/
def resid (k : Fin 64) (d : Fin 128) : EReal := gathered x W b k d - mass x W b k * cen (ix2 k d)
def clNorm (d : Fin 128) : EReal := Ideal.sqrt (∑ k : Fin 64, resid x W b cen k d * resid x W b cen k d)

/-- The result array: every residual over its feature's norm across the clusters (floored at `eps`). -/
def out (j : Res.Idx) : EReal := Ideal.div (resid x W b cen (j 1) (j 2)) (max (clNorm x W b cen (j 2)) eps)

end Cert.Pooling

end
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.KernelIdeal.Norm.Value.lean ====
/-
  The column-norm region's value: after its forty grid points the output array holds, at every feature column, the
  square root of the sum over all 200000 points of that column's squares.
-/
import proofs.«181373_j45552423141540_1_alg».proof.Proof.KernelIdeal.Norm.Body
import proofs.«181373_j45552423141540_1_alg».proof.Proof.Pooling
import proofs.«181373_j45552423141540_1_alg».proof.Proof.LibBlockSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Norm.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Norm

variable {F : FTy → Type} [FloatOps F]

/-- The zero offsets of a whole-buffer access, however spelt. -/
theorem hz : (![0, 0] : Fin 2 → Nat) = fun _ => 0 := funext fun a => by fin_cases a <;> rfl

/-! ## What each case's stores leave, as the body's arithmetic -/

/-- A middle point leaves in the accumulator what it held plus the block's column sums of squares. -/
theorem accMid_eq (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : ¬isLast i)
    (x0 : Vec F S5000x128 .f32) (xs0 : Vec F S1x128 .f32) :
    accMid c i aPts hPts' aOut hOut' aAcc hAcc' hFirst hLast x0 xs0 = k0_pay2 x0 xs0 := by
  unfold accMid
  rw [View.read_writes_eq_canon _ _ _ (accCover_mid c i aPts hPts' aOut hOut' aAcc hAcc' hFirst hLast x0 xs0)]
  unfold runMiddle
  dsimp only
  sl_unfold_words
  rw [View.canon_unit_zero hz]
  simp only [View.readAt_eq_ld, hPts'.read_unread, hAcc'.read_unread, View.ld_unit_zero (S := S5000x128) hz, View.ld_unit_zero (S := S1x128) hz]

/-- The first point leaves in the accumulator the first block's column sums of squares over the reset. -/
theorem accFirst_eq (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : isFirst i) (hLast : ¬isLast i)
    (x0 : Vec F S5000x128 .f32) :
    accFirst c i aPts hPts' aOut hOut' aAcc hAcc' hFirst hLast x0 = k0_pay2 x0 k0_pay1 := by
  unfold accFirst
  rw [View.read_writes_eq_canon _ _ _ (accCover_first c i aPts hPts' aOut hOut' aAcc hAcc' hFirst hLast x0)]
  unfold runFirst
  dsimp only
  sl_unfold_words
  rw [View.canon_cons_unit_zero (S := S1x128) hz]
  simp only [View.readAt_eq_ld, hPts'.read_unread, View.ld_unit_zero (S := S5000x128) hz, View.readCov_unit_zero (S := S1x128) _ hz]

/-- The last point leaves in the accumulator what it held plus the last block's column sums of squares, -/
theorem accLast_eq (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) :
    accLast c i aPts hPts' aOut hOut' aAcc hAcc' hFirst hLast x0 xs0 = k0_pay2 x0 xs0 := by
  unfold accLast
  rw [View.read_writes_eq_canon _ _ _ (accCover_last c i aPts hPts' aOut hOut' aAcc hAcc' hFirst hLast x0 xs0)]
  unfold runLast
  dsimp only
  sl_unfold_words
  rw [View.canon_unit_zero hz]
  simp only [View.readAt_eq_ld, hPts'.read_unread, hAcc'.read_unread, View.ld_unit_zero (S := S5000x128) hz, View.ld_unit_zero (S := S1x128) hz]

/-- and in the output block the square root of that. -/
theorem outLast_eq (c : Dev nD) (i : grid0.Coords) (aPts : Memref sig .tc .vmem S5000x128 .f32) (hPts' : aPts.IsWhole) (aOut : Memref sig .tc .vmem S1x128 .f32) (hOut' : aOut.IsWhole) (aAcc : Memref sig .tc .vmem S1x128 .f32) (hAcc' : aAcc.IsWhole) (hFirst : ¬isFirst i) (hLast : isLast i)
    (x0 : Vec F S5000x128 .f32) (xs0 : Vec F S1x128 .f32) :
    outLast c i aPts hPts' aOut hOut' aAcc hAcc' hFirst hLast x0 xs0 = k0_pay3 (k0_pay2 x0 xs0) := by
  unfold outLast
  rw [View.read_writes_eq_canon _ _ _ (outCover_last c i aPts hPts' aOut hOut' aAcc hAcc' hFirst hLast x0 xs0)]
  unfold runLast
  dsimp only
  sl_unfold_words
  rw [View.canon_unit_zero hz]
  simp only [View.readAt_eq_ld, hPts'.read_unread, hAcc'.read_unread, View.ld_unit_zero (S := S5000x128) hz, View.ld_unit_zero (S := S1x128) hz, View.readCov_unit_zero (S := S1x128) _ hz]

/-! ## The body's arithmetic at a feature column, on the extended reals -/

/-- The column sums of squares of a block of 5000 points: at feature `d` the sum over the block's rows of the squares. -/
theorem colsum_apply (x : Vec Ideal S5000x128 .f32) (d : Fin 128) :
    multiReduction (F := Ideal) .add [0] S128 (mulf x x) 0x00000000#32 reduces_S5000x128_S128 (.inl rfl) rfl (ix1 d)
      = ∑ r : Fin 5000, x (ix2 r d) * x (ix2 r d) := by
  refine (Ideal.multiReduction_add_single (mulf x x) 0x00000000#32 reduces_S5000x128_S128 (.inl rfl) rfl (ix1 d)).trans ?_
  refine Finset.sum_congr rfl fun r _ => ?_
  have e : reduces_S5000x128_S128.lift (ix1 d) r = ix2 r d :=
    funext fun a => Fin.ext (match a with | ⟨0, _⟩ => rfl | ⟨1, _⟩ => rfl)
  rw [e]; rfl

/-- The update: the accumulator at `d` plus the block's column sum of squares there. -/
theorem pay2_apply (x : Vec Ideal S5000x128 .f32) (a : Vec Ideal S1x128 .f32) (d : Fin 128) :
    k0_pay2 x a (ix2 (0 : Fin 1) d) = a (ix2 (0 : Fin 1) d) + ∑ r : Fin 5000, x (ix2 r d) * x (ix2 r d) := by
  unfold k0_pay2
  refine (congrFun (shapeCast_self _ _) _).trans ?_
  refine congrArg (a (ix2 (0 : Fin 1) d) + ·) ?_
  refine (shapeCast_apply _ shapeCasts_S128_S1x128 (ix2 (0 : Fin 1) d) (ix1 d) ?_).trans (colsum_apply x d)
  rw [Shape.rowMajor_val_one, Shape.rowMajor_val_two]
  show d.val = (0 : Fin 1).val * 128 + d.val
  simp

/-- The reset is zero at every feature. -/
theorem pay1_apply (d : Fin 128) : (k0_pay1 (F := Ideal)) (ix2 (0 : Fin 1) d) = 0 := by
  unfold k0_pay1
  refine (congrFun (shapeCast_self _ _) _).trans ?_
  exact Ideal.ofBits_zero_f32

/-- The stored norm is the square root of the accumulator, feature by feature. -/
theorem pay3_apply (a : Vec Ideal S1x128 .f32) (j : S1x128.Idx) : k0_pay3 a j = Ideal.sqrt (a j) := rfl

/-! ## Point by point, as the body's arithmetic -/

section

variable (V : (c : Dev nD) → (b : Ref sig .tc) → Buf (Elt F) ((c : Thread nD τ).loc b))

/-- The block of 5000 points the region takes at grid point `t`, and the points array as the region finds it. -/
abbrev pblk (c : Dev nD) (t : Fin cfg0.N) : Vec F S5000x128 .f32 := blk V c 0 t
abbrev parr (c : Dev nD) : Vec F S200000x128 .f32 := V c main_arg0

/-- After the first point the accumulator holds the first block's column sums of squares over the reset. -/
theorem acc_first (c : Dev nD) (t : Fin cfg0.N) (h0 : t.val % 40 = 0) :
    (contentsAt V c t.val t.isLt).2 = k0_pay2 (pblk V c t) k0_pay1 := by
  have h1 : ¬t.val % 40 = 39 := by omega
  rw [contentsAt_first V c t h0 h1]
  dsimp only
  exact accFirst_eq c (grid0.coords t) (mPts t) (hPts t) (mOut t) (hOut t) mAcc (Memref.isWhole_whole _)
    ((isFirst_iff t).mpr h0) (fun h => h1 ((isLast_iff t).mp h)) (pblk V c t)

/-- After any later point it holds what the point before left plus that point's block's column sums of squares. -/
theorem acc_step (c : Dev nD) (t : Fin cfg0.N) (h0 : ¬t.val % 40 = 0) :
    (contentsAt V c t.val t.isLt).2
      = k0_pay2 (pblk V c t) (contentsAt V c (t.val - 1) (Nat.lt_of_le_of_lt (Nat.sub_le _ _) t.isLt)).2 := by
  by_cases h1 : t.val % 40 = 39
  · rw [contentsAt_last V c t h0 h1]
    dsimp only
    exact accLast_eq c (grid0.coords t) (mPts t) (hPts t) (mOut t) (hOut t) mAcc (Memref.isWhole_whole _)
      (notFirst_of t h0) ((isLast_iff t).mpr h1) (pblk V c t) (contentsAt V c (t.val - 1) (Nat.lt_of_le_of_lt (Nat.sub_le _ _) t.isLt)).2
  · rw [contentsAt_mid V c t h0 h1]
    dsimp only
    exact accMid_eq c (grid0.coords t) (mPts t) (hPts t) (mOut t) (hOut t) mAcc (Memref.isWhole_whole _)
      (notFirst_of t h0) (fun h => h1 ((isLast_iff t).mp h)) (pblk V c t) (contentsAt V c (t.val - 1) (Nat.lt_of_le_of_lt (Nat.sub_le _ _) t.isLt)).2

/-- At the last point the output block takes the square root of what the accumulator then holds. -/
theorem out_last (c : Dev nD) (t : Fin cfg0.N) (h0 : ¬t.val % 40 = 0) (h1 : t.val % 40 = 39) :
    (contentsAt V c t.val t.isLt).1 = k0_pay3 (contentsAt V c t.val t.isLt).2 := by
  rw [acc_step V c t h0, contentsAt_last V c t h0 h1]
  dsimp only
  exact outLast_eq c (grid0.coords t) (mPts t) (hPts t) (mOut t) (hOut t) mAcc (Memref.isWhole_whole _)
    (notFirst_of t h0) ((isLast_iff t).mpr h1) (pblk V c t) (contentsAt V c (t.val - 1) (Nat.lt_of_le_of_lt (Nat.sub_le _ _) t.isLt)).2

end

/-! ## On the extended reals: the accumulator is the running column sum of squares -/

section

variable (V : (c : Dev nD) → (b : Ref sig .tc) → Buf (Elt Ideal) ((c : Thread nD τ).loc b))

/-- Grid point `t` takes block `t` along the points axis and the whole feature axis. -/
theorem idx_pts : ∀ t : Fin cfg0.N, win0_0.index t 0 = t.val ∧ win0_0.index t 1 = 0 :=
  (by decide +kernel : ∀ t : Fin grid0.N, win0_0.index t 0 = t.val ∧ win0_0.index t 1 = 0)

/-- Row `r` of the block at grid point `t` is row `5000 t + r` of the points array. -/
theorem pblk_apply (c : Dev nD) (t : Fin cfg0.N) (r : Fin 5000) (d : Fin 128) (k : Fin 200000)
    (hk : k.val = 5000 * t.val + r.val) : pblk V c t (ix2 r d) = parr V c (ix2 k d) := by
  show blk V c 0 t (ix2 r d) = _
  unfold blk
  rw [View.read_apply]
  show V c main_arg0 _ = V c main_arg0 _
  congr 1
  funext a
  apply Fin.ext
  match a with
  | ⟨0, _⟩ => show win0_0.index t 0 * 5000 + 1 * r.val = k.val; rw [(idx_pts t).1, hk]; omega
  | ⟨1, _⟩ => show win0_0.index t 1 * 128 + 1 * d.val = d.val; rw [(idx_pts t).2]; omega

/-- The squares of feature `d` over the rows `5000 s … 5000 s + 4999` of the points array (the guard holds for every
    block of the grid). -/
def runSq (c : Dev nD) (d : Fin 128) (s : ℕ) : EReal :=
  ∑ r : Fin 5000, (if h : 5000 * s + r.val < 200000 then parr V c (ix2 ⟨5000 * s + r.val, h⟩ d) * parr V c (ix2 ⟨5000 * s + r.val, h⟩ d) else 0)

/-- A block's column sum of squares is that run of the array's. -/
theorem blockSq_eq (c : Dev nD) (d : Fin 128) (t : Fin cfg0.N) :
    ∑ r : Fin 5000, pblk V c t (ix2 r d) * pblk V c t (ix2 r d) = runSq V c d t.val := by
  have hN : t.val < 40 := lt_of_lt_of_eq t.isLt (show cfg0.N = 40 from N_0)
  unfold runSq
  refine Finset.sum_congr rfl fun r _ => ?_
  have h : 5000 * t.val + r.val < 200000 := by have := r.isLt; omega
  rw [dif_pos h, pblk_apply V c t r d ⟨_, h⟩ rfl]

/-- After point `n` the accumulator holds, at feature `d`, the squares of that feature over the first `n + 1` blocks. -/
theorem acc_apply (c : Dev nD) (d : Fin 128) : ∀ (n : ℕ) (hn : n < cfg0.N),
    (contentsAt V c n hn).2 (ix2 (0 : Fin 1) d) = ∑ s ∈ Finset.range (n + 1), runSq V c d s
  | 0, hn => by
    refine (congrFun (acc_first V c ⟨0, hn⟩ (Nat.zero_mod 40)) (ix2 (0 : Fin 1) d)).trans ?_
    refine (pay2_apply _ _ d).trans ?_
    rw [pay1_apply, zero_add, Finset.sum_range_one]
    exact blockSq_eq V c d ⟨0, hn⟩
  | n + 1, hn => by
    have hN : n + 1 < 40 := lt_of_lt_of_eq hn (show cfg0.N = 40 from N_0)
    refine (congrFun (acc_step V c ⟨n + 1, hn⟩ (by dsimp only; omega)) (ix2 (0 : Fin 1) d)).trans ?_
    refine (pay2_apply _ _ d).trans ?_
    rw [Finset.sum_range_succ]
    exact congrArg₂ (· + ·) (acc_apply c d n (Nat.lt_of_succ_lt hn)) (blockSq_eq V c d ⟨n + 1, hn⟩)

end

/-! ## The output array -/

section

variable (V : (c : Dev nD) → (b : Ref sig .tc) → Buf (Elt Ideal) ((c : Thread nD τ).loc b))

/-- What the output array is to hold: at feature `d` the norm of column `d` of the points array. -/
def norms (c : Dev nD) : Buf (Elt Ideal) ((c : Thread nD τ).loc main_v0) :=
  fun j : S1x128.Idx => Cert.Pooling.colNorm (parr V c) (j 1)

/-- A column's norm depends on the feature coordinate only. -/
theorem norms_congr (c : Dev nD) (j j' : S1x128.Idx) (h : (j 1).val = (j' 1).val) : norms V c j = norms V c j' :=
  congrArg (Cert.Pooling.colNorm (parr V c)) (Fin.ext h)

/-- After the last point the output block holds every column's norm: the forty runs of 5000 rows are all the rows. -/
theorem out_eq (c : Dev nD) (t : Fin cfg0.N) (h39 : t.val = 39) : (contentsAt V c t.val t.isLt).1 = norms V c := by
  funext j
  obtain ⟨p, q, rfl⟩ : ∃ (p : Fin 1) (q : Fin 128), j = ix2 p q := ⟨j 0, j 1, eq_ix2 j⟩
  obtain rfl : p = 0 := Subsingleton.elim _ _
  rw [out_last V c t (by omega) (by omega)]
  refine (pay3_apply _ _).trans ?_
  show Ideal.sqrt ((contentsAt V c t.val t.isLt).2 (ix2 (0 : Fin 1) q))
    = Ideal.sqrt (∑ n : Fin 200000, parr V c (ix2 n q) * parr V c (ix2 n q))
  rw [acc_apply V c q t.val t.isLt, show t.val + 1 = 40 by omega]
  exact congrArg Ideal.sqrt
    (Cert.LibBlockSum.sum_fin_blocks 40 5000 rfl (fun n : Fin 200000 => parr V c (ix2 n q) * parr V c (ix2 n q))).symm

/-- The output window's block never moves along the feature axis. -/
theorem idx_out : ∀ t : Fin cfg0.N, win0_1.index t 1 = 0 :=
  (by decide +kernel : ∀ t : Fin grid0.N, win0_1.index t 1 = 0)

/-- The one write-back, at the last point, writes the norms: a column's norm depends on the feature coordinate only,
    and the block's feature coordinate is the array's. -/
theorem flushed_eq (c : Dev nD) (t : Fin cfg0.N) (hf : (cfg0.win 1).flush t = true) :
    (dat V c).flushed 1 t = ((cfg0.win 1).blk t).view.read (Elt Ideal) (norms V c) := by
  have hN : cfg0.N = 40 := N_0
  have h39 : t.val = 39 := by have := (flush0_1 t).mp hf; have := t.isLt; omega
  show (cfg0.win 1).cut (grid0.coords t) ((dat V c).after 1 t) = _
  rw [after_out, out_eq V c t h39]
  funext y
  rw [View.read_apply]
  have hcut : (cfg0.win 1).cut (grid0.coords t) (norms V c) y = norms V c ((cfg0.win 1).xinj (grid0.coords t) y) := rfl
  rw [hcut]
  refine (norms_congr V c ((cfg0.win 1).xinj (grid0.coords t) y) (((cfg0.win 1).blk t).view.emb y) ?_).trans ?_
  · show (y 1).val = win0_1.index t 1 * win0_1.size 1 + 1 * (y 1).val
    rw [idx_out t]; omega
  · exact (cast_eq _ _).symm

/-- The last grid point, the only one whose output block is written back. -/
abbrev tLast : Fin cfg0.N := ⟨39, lt_of_lt_of_eq (by decide) (show cfg0.N = 40 from N_0).symm⟩

/-- The last point's output block starts at the array's origin and has the array's extents. -/
theorem out_block : ∀ a, win0_1.index tLast a * win0_1.size a = 0
    ∧ win0_1.xsize (grid0.coords tLast) a = main_v0.ty.shape.size a := by decide +kernel

/-- So after the region the output array holds the norm of every feature column of the points array as entered. -/
theorem out_array (c : Dev nD) :
    (dat V c).arrAt 1 cfg0.N
      = fun j : S1x128.Idx => Cert.Pooling.colNorm (V c main_arg0 : S200000x128.Idx → EReal) (j 1) :=
  (dat V c).arrAt_eq_of_cover 1 (norms V c) (flushed_eq V c) fun i =>
    ⟨tLast, (flush0_1 tLast).mpr rfl, by
      show i ∈ ((View.whole main_v0).slice (win0_1.rect tLast)).set
      rw [View.set_slice_whole, Rect.mem_set_unit]
      intro a
      obtain ⟨h0, h1⟩ := out_block a
      show win0_1.index tLast a * win0_1.size a ≤ (i a : Nat)
        ∧ (i a : Nat) < win0_1.index tLast a * win0_1.size a + win0_1.xsize (grid0.coords tLast) a
      rw [h0, h1, Nat.zero_add]
      exact ⟨Nat.zero_le _, (i a).isLt⟩⟩

end

end Cert.KernelIdeal.Norm.Value

end
-- ==== Proof.LibRowReduce.lean ====
/-
  Reductions along the rows of a matrix, read at a row written by its coordinate.

  For an `[a, b]` array reduced over its second axis the reduced index `i` with column `k` put back is `(i, k)`;
  so the vector unit's sum of a row is the sum over the columns of that row, its maximum the fold of `max` over them
  from the accumulator's value, and the host's reduce with a maximum body the same fold from the initial value.
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ} {φ : FTy}

/-- The reduced index `i` with column `k` put back on the second axis is `(i, k)`. -/
theorem lift_row (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The vector unit's sum over the second axis, at row `i`: the sum over the columns of that row. -/
theorem multiReduction_add_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- The vector unit's maximum over the second axis, at row `i`: the fold of `max` over the columns of that row. -/
theorem multiReduction_maximumf_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (fun f => Finset.fold max (Ideal.ofBits φ acc) f (Finset.univ : Finset (Fin b)))
    (funext fun k => congrArg src (lift_row h i k))

/-- The host's reduce with a maximum body over the second axis, at row `i`: the fold of `max` from the initial value
    over the columns of that row. -/
theorem hostReduce_maximumf_row {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_row h i k))

end Cert.LibRowReduce

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.KernelIdeal.Agg.Payload.lean ====
/-
  The second launch's arithmetic read entry by entry, on the extended reals.

  A block of 5000 points is scaled column by column, each scaled point is sent through the linear layer and the
  softmax over the 64 clusters, and the block's contribution to the gathered sums (assignments transposed against the
  scaled points) and to the cluster masses (column sums of the assignments) is added to what was there. The closing
  step takes the residual of the gathered sums against mass times centre and scales every feature by the residual's
  norm over the clusters. Each of these vectors is read here at one entry as an explicit finite sum, maximum or
  quotient; the last section identifies the block's scaled points and assignments with those of the whole array of
  points at the block's rows.
-/
import proofs.«181373_j45552423141540_1_alg».proof.Proof.Gen.KernelIdeal.Skeleton
import proofs.«181373_j45552423141540_1_alg».proof.Proof.Pooling
import proofs.«181373_j45552423141540_1_alg».proof.Proof.LibRowReduce
import proofs.«181373_j45552423141540_1_alg».proof.Proof.LibKeepdims
import proofs.«181373_j45552423141540_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Agg.Payload

open Idealize.ShloMosaic Idealize.ShloMosaic.ValueIdx Cert.KernelIdeal Cert.KernelIdeal.Gen

/-! ## Sums down the columns of a matrix -/

section ColumnSums
variable {a b : ℕ} {φ : FTy}

/-- The reduced index `k` with row `r` put back on the first axis is `(r, k)`. -/
theorem lift_col (h : (⟨2, ![a, b]⟩ : Shape).Reduces [0] (⟨1, ![b]⟩ : Shape)) (k : Fin b)
    (r : Fin ((⟨2, ![a, b]⟩ : Shape).size 0)) : h.lift (ix1 k) r = ix2 (⟨r.val, r.isLt⟩ : Fin a) k := by
  funext c; apply Fin.ext
  fin_cases c <;> rfl

/-- A sum over the first axis, at column `k`: the sum over the rows of that column's entries. -/
theorem multiReduction_add_col (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ) (k : Fin b) :
    multiReduction .add [0] ⟨1, ![b]⟩ src acc h hφ hacc (ix1 k) = ∑ r : Fin a, src (ix2 r k) := by
  rw [Ideal.multiReduction_add_single]
  exact Finset.sum_congr rfl fun r _ => congrArg src (lift_col h k r)

end ColumnSums

/-! ## The scaled block -/

/-- An entry of the scaled block: the point's entry over its column's norm, the norm floored at `eps`. -/
theorem pay5_apply (x0 : Vec Ideal S5000x128 .f32) (cn : Vec Ideal S1x128 .f32) (r : Fin 5000) (d : Fin 128) :
    k1_pay5 x0 cn (ix2 r d) = Ideal.div (x0 (ix2 r d)) (max (cn (ix2 0 d)) Cert.Pooling.eps) := by
  unfold k1_pay5
  show Ideal.div (x0 (ix2 r d)) (broadcastTo S5000x128 (maximumf (F := Ideal) (shapeCast S1x128 cn shapeCasts_S1x128_S1x128)
    (broadcast S1x128 (Scalar.ofBits .f32 0x2B8CBCCC#32))) broadcasts_S1x128_S5000x128 (ix2 r d)) = _
  refine congrArg (Ideal.div (x0 (ix2 r d))) ?_
  refine (broadcastTo_1b_ab_apply _ _ r d).trans ?_
  exact congrArg (fun v : Vec Ideal S1x128 .f32 => max (v (ix2 0 d)) Cert.Pooling.eps) (shapeCast_self cn _)

/-! ## The masses' accumulator -/

/-- The block's column sums of the assignments, added to the accumulator. -/
theorem pay1_apply (v29 : FVec Ideal S5000x64 .f32) (s : Vec Ideal S1x64 .f32) (k : Fin 64) :
    k1_pay1 v29 s (ix2 0 k) = s (ix2 0 k) + ∑ r : Fin 5000, v29 (ix2 r k) := by
  unfold k1_pay1
  refine (congrFun (shapeCast_self _ _) (ix2 0 k)).trans ?_
  show s (ix2 0 k) + shapeCast S1x64 (multiReduction .add [0] S64 v29 0x00000000#32 reduces_S5000x64_S64 (.inl rfl) rfl)
    shapeCasts_S64_S1x64 (ix2 0 k) = _
  refine congrArg (s (ix2 0 k) + ·) ?_
  refine (shapeCast_a_1a_apply _ _ 0 k).trans ?_
  exact multiReduction_add_col v29 _ _ _ _ k

/-! ## The two resets -/

/-- The gathered sums start from zero. -/
theorem pay3_apply (k : Fin 64) (d : Fin 128) : k1_pay3 (F := Ideal) (ix2 k d) = 0 := by
  unfold k1_pay3
  refine (congrFun (shapeCast_self _ _) (ix2 k d)).trans ?_
  exact Ideal.ofBits_zero_f32

/-- The masses start from zero. -/
theorem pay4_apply (k : Fin 64) : k1_pay4 (F := Ideal) (ix2 0 k) = 0 := by
  unfold k1_pay4
  refine (congrFun (shapeCast_self _ _) (ix2 0 k)).trans ?_
  exact Ideal.ofBits_zero_f32

/-! ## The closing step -/

/-- The residual of cluster `k` in feature `d`: the gathered sum less the cluster's mass times its centre. -/
def res (s : Vec Ideal S1x64 .f32) (cen A : Vec Ideal S64x128 .f32) (k : Fin 64) (d : Fin 128) : EReal :=
  A (ix2 k d) - s (ix2 0 k) * cen (ix2 k d)

/-- The residuals as the closing step lays them out: the row of masses turned into a column, spread over the
    features, times the centres, taken from the gathered sums. -/
def resVec (s : Vec Ideal S1x64 .f32) (cen A : Vec Ideal S64x128 .f32) : FVec Ideal S64x128 .f32 :=
  subf A (mulf (broadcastTo S64x128 (transpose S64x1 [1, 0] s transposes_S1x64_p1_0_S64x1) broadcasts_S64x1_S64x128) cen)

theorem resVec_apply (s : Vec Ideal S1x64 .f32) (cen A : Vec Ideal S64x128 .f32) (k : Fin 64) (d : Fin 128) :
    resVec s cen A (ix2 k d) = res s cen A k d := by
  show A (ix2 k d) - broadcastTo S64x128 (transpose S64x1 [1, 0] s transposes_S1x64_p1_0_S64x1) broadcasts_S64x1_S64x128 (ix2 k d)
    * cen (ix2 k d) = _
  refine congrArg (fun z : EReal => A (ix2 k d) - z * cen (ix2 k d)) ?_
  refine (Cert.LibKeepdims.broadcastTo_a1_ab_apply _ _ k d).trans ?_
  exact transpose_ix2_apply s _ k 0

/-- The floored norm over the clusters, as a row spread down the clusters. -/
def normRow (R : FVec Ideal S64x128 .f32) : FVec Ideal S1x128 .f32 :=
  maximumf (sqrt (shapeCast S1x128 (multiReduction .add [0] S128 (mulf R R) 0x00000000#32 reduces_S64x128_S128 (.inl rfl) rfl)
    shapeCasts_S128_S1x128)) (broadcast S1x128 (Scalar.ofBits .f32 0x2B8CBCCC#32))

theorem normRow_apply (R : FVec Ideal S64x128 .f32) (d : Fin 128) :
    normRow R (ix2 0 d) = max (Ideal.sqrt (∑ k : Fin 64, R (ix2 k d) * R (ix2 k d))) Cert.Pooling.eps := by
  show max (Ideal.sqrt (shapeCast S1x128 (multiReduction .add [0] S128 (mulf R R) 0x00000000#32 reduces_S64x128_S128 (.inl rfl) rfl)
    shapeCasts_S128_S1x128 (ix2 0 d))) Cert.Pooling.eps = _
  refine congrArg (fun z : EReal => max (Ideal.sqrt z) Cert.Pooling.eps) ?_
  refine (shapeCast_a_1a_apply _ _ 0 d).trans ?_
  exact multiReduction_add_col (mulf R R) _ _ _ _ d

/-- An entry of the result: the residual over its feature's norm across the clusters, floored at `eps`. -/
theorem pay2_apply (s : Vec Ideal S1x64 .f32) (cen A : Vec Ideal S64x128 .f32) (k : Fin 64) (d : Fin 128) :
    k1_pay2 s cen A (ix3 0 k d)
      = Ideal.div (res s cen A k d) (max (Ideal.sqrt (∑ k' : Fin 64, res s cen A k' d * res s cen A k' d)) Cert.Pooling.eps) := by
  unfold k1_pay2
  refine (shapeCast_ab_1ab_apply _ _ 0 k d).trans ?_
  show Ideal.div (resVec s cen A (ix2 k d)) (broadcastTo S64x128 (normRow (resVec s cen A)) broadcasts_S1x128_S64x128 (ix2 k d)) = _
  rw [resVec_apply]
  refine congrArg (Ideal.div (res s cen A k d)) ?_
  refine (broadcastTo_1b_ab_apply _ _ k d).trans ?_
  refine (normRow_apply _ d).trans ?_
  exact congrArg (fun z : EReal => max (Ideal.sqrt z) Cert.Pooling.eps)
    (Finset.sum_congr rfl fun k' _ => by rw [resVec_apply])

/-! ## The two products -/

section Products
variable {φ₁ φ₂ : FTy}

/-- A row-major product into a zero accumulator, at `(r, c)`: the sum over the contracted coordinate, whatever the
    operands' formats. -/
theorem plain_matmul_entry (M K N : ℕ) (X : FVec Ideal ⟨2, ![M, K]⟩ φ₁) (W : FVec Ideal ⟨2, ![K, N]⟩ φ₂) (r : Fin M) (c : Fin N) :
    FloatOps.matmul (DotDims.plain M K N) none X W (constant (F := Ideal) ⟨2, ![M, N]⟩ .f32 0x00000000#32) (ix2 r c)
      = ∑ k : Fin K, X (ix2 r k) * W (ix2 k c) := by
  rw [Ideal.matmul_constant_zero_apply, ← Equiv.sum_comp (Cert.Lib.Dense.ce M K N).symm]
  exact Finset.sum_congr rfl fun k _ => by rw [Cert.Lib.Dense.plain_lhsIdx, Cert.Lib.Dense.plain_rhsIdx]; rfl

/-- The first product's dimension numbers are the row-major ones. -/
theorem dot1_eq : dot_S5000x128_S128x64_S5000x64_1_0_0_1_n_n = DotDims.plain 5000 128 64 := rfl

/-! The second product contracts the rows of both operands: at `(k, d)` its left operand is read at `(q, k)` and its
    right one at `(q, d)`, `q` the contracted row. -/

theorem gram_lhs_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem gram_lhs_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide),
    dif_pos (show (1 : Fin S5000x64.rank) ∈ dot_S5000x64_S5000x128_S64x128_0_0_1_1_n_n.lhsNonContracting by decide)]
  rfl
theorem gram_rhs_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem gram_rhs_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide),
    dif_pos (show (1 : Fin S5000x128.rank) ∈ dot_S5000x64_S5000x128_S64x128_0_0_1_1_n_n.rhsNonContracting by decide)]
  rfl

/-- The second product into a zero accumulator, at `(k, d)`: the sum over the block's rows of the left operand's
    column `k` against the right operand's column `d`. -/
theorem gram_entry (A : FVec Ideal S5000x64 φ₁) (B : FVec Ideal S5000x128 φ₂) (k : Fin 64) (d : Fin 128) :
    FloatOps.matmul dot_S5000x64_S5000x128_S64x128_0_0_1_1_n_n none A B (constant (F := Ideal) S64x128 .f32 0x00000000#32) (ix2 k d)
      = ∑ r : Fin 5000, A (ix2 r k) * B (ix2 r d) := by
  rw [Ideal.matmul_constant_zero_apply,
    ← Equiv.sum_comp (contrEquiv1 dot_S5000x64_S5000x128_S64x128_0_0_1_1_n_n 5000 rfl rfl).symm]
  refine Finset.sum_congr rfl fun r _ => ?_
  have hr := contrEquiv1_symm_val dot_S5000x64_S5000x128_S64x128_0_0_1_1_n_n 5000 rfl rfl r
  have el : dot_S5000x64_S5000x128_S64x128_0_0_1_1_n_n.lhsIdx (ix2 k d)
      ((contrEquiv1 dot_S5000x64_S5000x128_S64x128_0_0_1_1_n_n 5000 rfl rfl).symm r) = ix2 r k := funext fun a => Fin.ext (by
    match a with
    | ⟨0, _⟩ => exact (gram_lhs_0 _ _).trans hr
    | ⟨1, _⟩ => exact gram_lhs_1 _ _)
  have er : dot_S5000x64_S5000x128_S64x128_0_0_1_1_n_n.rhsIdx (ix2 k d)
      ((contrEquiv1 dot_S5000x64_S5000x128_S64x128_0_0_1_1_n_n 5000 rfl rfl).symm r) = ix2 r d := funext fun a => Fin.ext (by
    match a with
    | ⟨0, _⟩ => exact (gram_rhs_0 _ _).trans hr
    | ⟨1, _⟩ => exact gram_rhs_1 _ _)
  rw [el, er]

end Products

/-! ## The soft assignment of the block's rows -/

/-- A vector over the rows, kept as a column and spread over the 64 clusters, reads the row's entry. -/
theorem spread_apply {α : Type} (v : S5000.Idx → α) (r : Fin 5000) (k : Fin 64) :
    broadcastTo S5000x64 (shapeCast S5000x1 v shapeCasts_S5000_S5000x1) broadcasts_S5000x1_S5000x64 (ix2 r k) = v (ix1 r) :=
  (Cert.LibKeepdims.broadcastTo_a1_ab_apply _ _ r k).trans (Cert.LibKeepdims.shapeCast_a_a1_apply v _ r 0)

/-- The largest entry of row `r` of a block of logits: the fold of `max` from `negInf`, joined once more with it. -/
def rowTop (L : FVec Ideal S5000x64 .f32) (r : Fin 5000) : EReal :=
  max Cert.Pooling.negInf ((Finset.univ : Finset (Fin 64)).fold max Cert.Pooling.negInf (fun k => L (ix2 r k)))

/-- The shifted exponentials of a block of logits, as the vector unit lays them out. -/
def expShift (L : FVec Ideal S5000x64 .f32) : FVec Ideal S5000x64 .f32 :=
  exp (subf L (broadcastTo S5000x64 (shapeCast S5000x1
    (maximumf (broadcast S5000 (Scalar.ofBits .f32 0xFF800000#32))
      (multiReduction .maximumf [1] S5000 L 0xFF800000#32 reduces_S5000x64_S5000 (.inl rfl) rfl))
    shapeCasts_S5000_S5000x1) broadcasts_S5000x1_S5000x64))

theorem expShift_apply (L : FVec Ideal S5000x64 .f32) (r : Fin 5000) (k : Fin 64) :
    expShift L (ix2 r k) = Ideal.exp (L (ix2 r k) - rowTop L r) := by
  show Ideal.exp (L (ix2 r k) - broadcastTo S5000x64 (shapeCast S5000x1
    (maximumf (F := Ideal) (broadcast S5000 (Scalar.ofBits .f32 0xFF800000#32))
      (multiReduction .maximumf [1] S5000 L 0xFF800000#32 reduces_S5000x64_S5000 (.inl rfl) rfl))
    shapeCasts_S5000_S5000x1) broadcasts_S5000x1_S5000x64 (ix2 r k)) = _
  refine congrArg (fun z : EReal => Ideal.exp (L (ix2 r k) - z)) ?_
  refine (spread_apply _ r k).trans ?_
  show max Cert.Pooling.negInf (multiReduction .maximumf [1] S5000 L 0xFF800000#32 reduces_S5000x64_S5000 (.inl rfl) rfl (ix1 r)) = _
  exact congrArg (max Cert.Pooling.negInf) (Cert.LibRowReduce.multiReduction_maximumf_row L _ _ _ _ r)

/-- The softmax along the clusters of a block of logits, as the vector unit lays it out. -/
def softRows (L : FVec Ideal S5000x64 .f32) : FVec Ideal S5000x64 .f32 :=
  divf (expShift L) (broadcastTo S5000x64 (shapeCast S5000x1
    (multiReduction .add [1] S5000 (expShift L) 0x00000000#32 reduces_S5000x64_S5000 (.inl rfl) rfl)
    shapeCasts_S5000_S5000x1) broadcasts_S5000x1_S5000x64)

theorem softRows_apply (L : FVec Ideal S5000x64 .f32) (r : Fin 5000) (k : Fin 64) :
    softRows L (ix2 r k)
      = Ideal.div (Ideal.exp (L (ix2 r k) - rowTop L r)) (∑ k' : Fin 64, Ideal.exp (L (ix2 r k') - rowTop L r)) := by
  show Ideal.div (expShift L (ix2 r k)) (broadcastTo S5000x64 (shapeCast S5000x1
    (multiReduction .add [1] S5000 (expShift L) 0x00000000#32 reduces_S5000x64_S5000 (.inl rfl) rfl)
    shapeCasts_S5000_S5000x1) broadcasts_S5000x1_S5000x64 (ix2 r k)) = _
  rw [expShift_apply]
  refine congrArg (Ideal.div (Ideal.exp (L (ix2 r k) - rowTop L r))) ?_
  refine (spread_apply _ r k).trans ?_
  refine (Cert.LibRowReduce.multiReduction_add_row (expShift L) _ _ _ _ r).trans ?_
  exact Finset.sum_congr rfl fun k' _ => expShift_apply L r k'

/-- The block's logits as the kernel lays them out: the scaled block times the transposed weights, plus the bias row
    repeated down the block. -/
def logits (x0 : Vec Ideal S5000x128 .f32) (cn : Vec Ideal S1x128 .f32) (wT : Vec Ideal S128x64 .f32) (b2 : Vec Ideal S1x64 .f32) :
    FVec Ideal S5000x64 .f32 :=
  addf (matmul dot_S5000x128_S128x64_S5000x64_1_0_0_1_n_n none (k1_pay5 x0 cn)
      (truncf .bf16 (shapeCast S128x64 wT shapeCasts_S128x64_S128x64) bitsLt_bf16_f32) (constant (F := Ideal) S5000x64 .f32 0x00000000#32))
    (broadcastTo S5000x64 (shapeCast S1x64 b2 shapeCasts_S1x64_S1x64) broadcasts_S1x64_S5000x64)

/-- The logit of row `r` of the block for cluster `k`. -/
def lg (x0 : Vec Ideal S5000x128 .f32) (cn : Vec Ideal S1x128 .f32) (wT : Vec Ideal S128x64 .f32) (b2 : Vec Ideal S1x64 .f32)
    (r : Fin 5000) (k : Fin 64) : EReal :=
  (∑ d : Fin 128, k1_pay5 x0 cn (ix2 r d) * wT (ix2 d k)) + b2 (ix2 0 k)

/-- The largest logit of row `r` of the block, folded from `negInf` and joined once more with it. -/
def mx (x0 : Vec Ideal S5000x128 .f32) (cn : Vec Ideal S1x128 .f32) (wT : Vec Ideal S128x64 .f32) (b2 : Vec Ideal S1x64 .f32)
    (r : Fin 5000) : EReal :=
  max Cert.Pooling.negInf ((Finset.univ : Finset (Fin 64)).fold max Cert.Pooling.negInf (fun k => lg x0 cn wT b2 r k))

theorem logits_apply (x0 : Vec Ideal S5000x128 .f32) (cn : Vec Ideal S1x128 .f32) (wT : Vec Ideal S128x64 .f32)
    (b2 : Vec Ideal S1x64 .f32) (r : Fin 5000) (k : Fin 64) : logits x0 cn wT b2 (ix2 r k) = lg x0 cn wT b2 r k := by
  show FloatOps.matmul dot_S5000x128_S128x64_S5000x64_1_0_0_1_n_n none (k1_pay5 x0 cn)
      (truncf .bf16 (shapeCast S128x64 wT shapeCasts_S128x64_S128x64) bitsLt_bf16_f32)
      (constant (F := Ideal) S5000x64 .f32 0x00000000#32) (ix2 r k)
    + broadcastTo S5000x64 (shapeCast S1x64 b2 shapeCasts_S1x64_S1x64) broadcasts_S1x64_S5000x64 (ix2 r k) = _
  unfold lg
  refine congrArg₂ (· + ·) ?_ ?_
  · refine (plain_matmul_entry 5000 128 64 (k1_pay5 x0 cn) _ r k).trans ?_
    exact Finset.sum_congr rfl fun d _ => congrArg (fun v : Vec Ideal S128x64 .f32 => k1_pay5 x0 cn (ix2 r d) * v (ix2 d k))
      (shapeCast_self wT _)
  · refine (broadcastTo_1b_ab_apply _ _ r k).trans ?_
    exact congrFun (shapeCast_self b2 _) (ix2 0 k)

theorem rowTop_logits (x0 : Vec Ideal S5000x128 .f32) (cn : Vec Ideal S1x128 .f32) (wT : Vec Ideal S128x64 .f32)
    (b2 : Vec Ideal S1x64 .f32) (r : Fin 5000) : rowTop (logits x0 cn wT b2) r = mx x0 cn wT b2 r := by
  unfold rowTop mx
  exact congrArg (fun f : Fin 64 → EReal => max Cert.Pooling.negInf ((Finset.univ : Finset (Fin 64)).fold max Cert.Pooling.negInf f))
    (funext fun k => logits_apply x0 cn wT b2 r k)

/-- The soft assignment of row `r` of the block to cluster `k`: its shifted exponential over the row's sum of them. -/
theorem pay6_apply (x0 : Vec Ideal S5000x128 .f32) (cn : Vec Ideal S1x128 .f32) (wT : Vec Ideal S128x64 .f32)
    (b2 : Vec Ideal S1x64 .f32) (r : Fin 5000) (k : Fin 64) :
    k1_pay6 x0 cn wT b2 (ix2 r k)
      = Ideal.div (Ideal.exp (lg x0 cn wT b2 r k - mx x0 cn wT b2 r))
          (∑ k' : Fin 64, Ideal.exp (lg x0 cn wT b2 r k' - mx x0 cn wT b2 r)) := by
  unfold k1_pay6
  refine (softRows_apply (logits x0 cn wT b2) r k).trans ?_
  rw [rowTop_logits, logits_apply]
  exact congrArg (Ideal.div (Ideal.exp (lg x0 cn wT b2 r k - mx x0 cn wT b2 r)))
    (Finset.sum_congr rfl fun k' _ => by rw [logits_apply])

/-! ## The gathered sums' accumulator -/

/-- The block's assignments, transposed, against its scaled points, added to the accumulator. -/
theorem pay7_apply (x0 : Vec Ideal S5000x128 .f32) (cn : Vec Ideal S1x128 .f32) (wT : Vec Ideal S128x64 .f32)
    (b2 : Vec Ideal S1x64 .f32) (acc : Vec Ideal S64x128 .f32) (k : Fin 64) (d : Fin 128) :
    k1_pay7 x0 cn wT b2 acc (ix2 k d)
      = acc (ix2 k d) + ∑ r : Fin 5000, k1_pay6 x0 cn wT b2 (ix2 r k) * k1_pay5 x0 cn (ix2 r d) := by
  unfold k1_pay7
  refine (congrFun (shapeCast_self _ _) (ix2 k d)).trans ?_
  show acc (ix2 k d) + FloatOps.matmul dot_S5000x64_S5000x128_S64x128_0_0_1_1_n_n none
    (truncf .bf16 (k1_pay6 x0 cn wT b2) bitsLt_bf16_f32) (k1_pay5 x0 cn) (constant (F := Ideal) S64x128 .f32 0x00000000#32) (ix2 k d) = _
  exact congrArg (acc (ix2 k d) + ·) (gram_entry _ _ k d)

/-! ## The block against the whole arrays -/

section Block
variable (x : Cert.Pooling.Pts.Idx → EReal) (W : Cert.Pooling.Cl.Idx → EReal) (b : Cert.Pooling.Bias.Idx → EReal)
  (t : Fin 40)
  (x0 : Vec Ideal S5000x128 .f32) (cn : Vec Ideal S1x128 .f32) (wT : Vec Ideal S128x64 .f32) (b2 : Vec Ideal S1x64 .f32)

/-- Row `r` of block `t` is row `5000 t + r` of the points. -/
theorem blockRow_lt (t : Fin 40) (r : Fin 5000) : 5000 * t.val + r.val < 200000 := by
  have := t.isLt; have := r.isLt; omega

/-- When the block holds the points' rows `5000 t …` and the norm row holds the columns' norms, the scaled block is the
    scaled points at those rows. -/
theorem pay5_block
    (hx : ∀ (r : Fin 5000) (d : Fin 128), x0 (ix2 r d) = x (ix2 ⟨5000 * t.val + r.val, blockRow_lt t r⟩ d))
    (hcn : ∀ d : Fin 128, cn (ix2 0 d) = Cert.Pooling.colNorm x d) (r : Fin 5000) (d : Fin 128) :
    k1_pay5 x0 cn (ix2 r d) = Cert.Pooling.unit x ⟨5000 * t.val + r.val, blockRow_lt t r⟩ d := by
  rw [pay5_apply, hx r d, hcn d]
  rfl

/-- With the weights read transposed and the bias read as a row as well, the block's logits are the points' logits at
    those rows. -/
theorem lg_block
    (hx : ∀ (r : Fin 5000) (d : Fin 128), x0 (ix2 r d) = x (ix2 ⟨5000 * t.val + r.val, blockRow_lt t r⟩ d))
    (hcn : ∀ d : Fin 128, cn (ix2 0 d) = Cert.Pooling.colNorm x d)
    (hw : ∀ (d : Fin 128) (k : Fin 64), wT (ix2 d k) = W (ix2 k d))
    (hb : ∀ k : Fin 64, b2 (ix2 0 k) = b (ix1 k)) (r : Fin 5000) (k : Fin 64) :
    lg x0 cn wT b2 r k = Cert.Pooling.logit x W b ⟨5000 * t.val + r.val, blockRow_lt t r⟩ k := by
  unfold lg Cert.Pooling.logit
  rw [hb k]
  exact congrArg (· + b (ix1 k)) (Finset.sum_congr rfl fun d _ => by rw [pay5_block x t x0 cn hx hcn r d, hw d k])

/-- … so are the rows' largest logits … -/
theorem mx_block
    (hx : ∀ (r : Fin 5000) (d : Fin 128), x0 (ix2 r d) = x (ix2 ⟨5000 * t.val + r.val, blockRow_lt t r⟩ d))
    (hcn : ∀ d : Fin 128, cn (ix2 0 d) = Cert.Pooling.colNorm x d)
    (hw : ∀ (d : Fin 128) (k : Fin 64), wT (ix2 d k) = W (ix2 k d))
    (hb : ∀ k : Fin 64, b2 (ix2 0 k) = b (ix1 k)) (r : Fin 5000) :
    mx x0 cn wT b2 r = Cert.Pooling.rowMax x W b ⟨5000 * t.val + r.val, blockRow_lt t r⟩ := by
  unfold mx Cert.Pooling.rowMax
  exact congrArg (fun f : Fin 64 → EReal => max Cert.Pooling.negInf ((Finset.univ : Finset (Fin 64)).fold max Cert.Pooling.negInf f))
    (funext fun k => lg_block x W b t x0 cn wT b2 hx hcn hw hb r k)

/-- … and the block's soft assignments are the points' soft assignments at those rows. -/
theorem pay6_block
    (hx : ∀ (r : Fin 5000) (d : Fin 128), x0 (ix2 r d) = x (ix2 ⟨5000 * t.val + r.val, blockRow_lt t r⟩ d))
    (hcn : ∀ d : Fin 128, cn (ix2 0 d) = Cert.Pooling.colNorm x d)
    (hw : ∀ (d : Fin 128) (k : Fin 64), wT (ix2 d k) = W (ix2 k d))
    (hb : ∀ k : Fin 64, b2 (ix2 0 k) = b (ix1 k)) (r : Fin 5000) (k : Fin 64) :
    k1_pay6 x0 cn wT b2 (ix2 r k) = Cert.Pooling.assign x W b ⟨5000 * t.val + r.val, blockRow_lt t r⟩ k := by
  rw [pay6_apply]
  unfold Cert.Pooling.assign Cert.Pooling.expo
  rw [mx_block x W b t x0 cn wT b2 hx hcn hw hb r, lg_block x W b t x0 cn wT b2 hx hcn hw hb r k]
  exact congrArg (Ideal.div _) (Finset.sum_congr rfl fun k' _ => by rw [lg_block x W b t x0 cn wT b2 hx hcn hw hb r k'])

end Block

end Cert.KernelIdeal.Agg.Payload

end
-- ==== Proof.KernelIdeal.Agg.Value.lean ====
/-
  The aggregation region's value: after its forty grid points the result array holds the pooled descriptor of the
  arrays the region was entered with.
-/
import proofs.«181373_j45552423141540_1_alg».proof.Proof.KernelIdeal.Agg.Body
import proofs.«181373_j45552423141540_1_alg».proof.Proof.Pooling
import proofs.«181373_j45552423141540_1_alg».proof.Proof.KernelIdeal.Agg.Payload
import proofs.«181373_j45552423141540_1_alg».proof.Proof.LibBlockSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Agg.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Agg

variable {F : FTy → Type} [FloatOps F]

/-- The zero offsets of a whole-buffer access, however spelt. -/
theorem hz : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as the body's arithmetic -/

/-- The first point leaves in the sums accumulator the first block's contribution over the reset. -/
theorem sumsFirst_pieces (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32)
    (hcov : ∀ y : S64x128.Idx, ∃ pc ∈ (runFirst c i aPts hPts' aNrm hNrm' aWt hWt' aBias hBias' aCen hCen' aOut hOut' aSums hSums' aTot hTot' hFirst hLast x0 x1 x2 x3 x4).2.1, y ∈ pc.1.set) :
    sumsView.read (Elt F) (sumsView.writes (Elt F) sumsView.junk (runFirst c i aPts hPts' aNrm hNrm' aWt hWt' aBias hBias' aCen hCen' aOut hOut' aSums hSums' aTot hTot' hFirst hLast x0 x1 x2 x3 x4).2.1) = k1_pay7 x0 x1 x2 x3 k1_pay3 := by
  rw [View.read_writes_eq_canon _ _ _ hcov]
  unfold runFirst
  dsimp only
  sl_unfold_words
  rw [View.canon_cons_unit_zero (S := S64x128) hz]
  simp only [View.readAt_eq_ld, hPts'.read_unread, hNrm'.read_unread, hWt'.read_unread, hBias'.read_unread, hCen'.read_unread, hSums'.read_unread, hTot'.read_unread, View.ld_unit_zero (S := S5000x128) hz, View.ld_unit_zero (S := S1x128) hz, View.ld_unit_zero (S := S128x64) hz, View.ld_unit_zero (S := S1x64) hz, View.ld_unit_zero (S := S64x128) hz, View.readCov_unit_zero (S := S64x128) _ hz, View.readCov_unit_zero (S := S1x64) _ hz]

/-- The first point leaves in the totals accumulator the first block's column sums of the assignments over the reset. -/
theorem totFirst_pieces (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32)
    (hcov : ∀ y : S1x64.Idx, ∃ pc ∈ (runFirst c i aPts hPts' aNrm hNrm' aWt hWt' aBias hBias' aCen hCen' aOut hOut' aSums hSums' aTot hTot' hFirst hLast x0 x1 x2 x3 x4).2.2.1, y ∈ pc.1.set) :
    totView.read (Elt F) (totView.writes (Elt F) totView.junk (runFirst c i aPts hPts' aNrm hNrm' aWt hWt' aBias hBias' aCen hCen' aOut hOut' aSums hSums' aTot hTot' hFirst hLast x0 x1 x2 x3 x4).2.2.1) = k1_pay1 (k1_pay6 x0 x1 x2 x3) k1_pay4 := by
  rw [View.read_writes_eq_canon _ _ _ hcov]
  unfold runFirst
  dsimp only
  sl_unfold_words
  rw [View.canon_cons_unit_zero (S := S1x64) hz]
  simp only [View.readAt_eq_ld, hPts'.read_unread, hNrm'.read_unread, hWt'.read_unread, hBias'.read_unread, hCen'.read_unread, hSums'.read_unread, hTot'.read_unread, View.ld_unit_zero (S := S5000x128) hz, View.ld_unit_zero (S := S1x128) hz, View.ld_unit_zero (S := S128x64) hz, View.ld_unit_zero (S := S1x64) hz, View.ld_unit_zero (S := S64x128) hz, View.readCov_unit_zero (S := S64x128) _ hz, View.readCov_unit_zero (S := S1x64) _ hz]

/-- A middle point leaves in the sums accumulator what it held plus the block's contribution. -/
theorem sumsMid_pieces (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32)
    (hcov : ∀ y : S64x128.Idx, ∃ pc ∈ (runMiddle c i aPts hPts' aNrm hNrm' aWt hWt' aBias hBias' aCen hCen' aOut hOut' aSums hSums' aTot hTot' hFirst hLast x0 x1 x2 x3 x4 xs0 xs1).2.1, y ∈ pc.1.set) :
    sumsView.read (Elt F) (sumsView.writes (Elt F) sumsView.junk (runMiddle c i aPts hPts' aNrm hNrm' aWt hWt' aBias hBias' aCen hCen' aOut hOut' aSums hSums' aTot hTot' hFirst hLast x0 x1 x2 x3 x4 xs0 xs1).2.1) = k1_pay7 x0 x1 x2 x3 xs0 := by
  rw [View.read_writes_eq_canon _ _ _ hcov]
  unfold runMiddle
  dsimp only
  sl_unfold_words
  rw [View.canon_unit_zero hz]
  simp only [View.readAt_eq_ld, hPts'.read_unread, hNrm'.read_unread, hWt'.read_unread, hBias'.read_unread, hCen'.read_unread, hSums'.read_unread, hTot'.read_unread, View.ld_unit_zero (S := S5000x128) hz, View.ld_unit_zero (S := S1x128) hz, View.ld_unit_zero (S := S128x64) hz, View.ld_unit_zero (S := S1x64) hz, View.ld_unit_zero (S := S64x128) hz, View.readCov_unit_zero (S := S64x128) _ hz, View.readCov_unit_zero (S := S1x64) _ hz]

/-- A middle point leaves in the totals accumulator what it held plus the block's column sums of the assignments. -/
theorem totMid_pieces (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32)
    (hcov : ∀ y : S1x64.Idx, ∃ pc ∈ (runMiddle c i aPts hPts' aNrm hNrm' aWt hWt' aBias hBias' aCen hCen' aOut hOut' aSums hSums' aTot hTot' hFirst hLast x0 x1 x2 x3 x4 xs0 xs1).2.2.1, y ∈ pc.1.set) :
    totView.read (Elt F) (totView.writes (Elt F) totView.junk (runMiddle c i aPts hPts' aNrm hNrm' aWt hWt' aBias hBias' aCen hCen' aOut hOut' aSums hSums' aTot hTot' hFirst hLast x0 x1 x2 x3 x4 xs0 xs1).2.2.1) = k1_pay1 (k1_pay6 x0 x1 x2 x3) xs1 := by
  rw [View.read_writes_eq_canon _ _ _ hcov]
  unfold runMiddle
  dsimp only
  sl_unfold_words
  rw [View.canon_unit_zero hz]
  simp only [View.readAt_eq_ld, hPts'.read_unread, hNrm'.read_unread, hWt'.read_unread, hBias'.read_unread, hCen'.read_unread, hSums'.read_unread, hTot'.read_unread, View.ld_unit_zero (S := S5000x128) hz, View.ld_unit_zero (S := S1x128) hz, View.ld_unit_zero (S := S128x64) hz, View.ld_unit_zero (S := S1x64) hz, View.ld_unit_zero (S := S64x128) hz, View.readCov_unit_zero (S := S64x128) _ hz, View.readCov_unit_zero (S := S1x64) _ hz]

/-- The last point leaves in the sums accumulator what it held plus the last block's contribution, -/
theorem sumsLast_pieces (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32)
    (hcov : ∀ y : S64x128.Idx, ∃ pc ∈ (runLast c i aPts hPts' aNrm hNrm' aWt hWt' aBias hBias' aCen hCen' aOut hOut' aSums hSums' aTot hTot' hFirst hLast x0 x1 x2 x3 x4 xs0 xs1).2.1, y ∈ pc.1.set) :
    sumsView.read (Elt F) (sumsView.writes (Elt F) sumsView.junk (runLast c i aPts hPts' aNrm hNrm' aWt hWt' aBias hBias' aCen hCen' aOut hOut' aSums hSums' aTot hTot' hFirst hLast x0 x1 x2 x3 x4 xs0 xs1).2.1) = k1_pay7 x0 x1 x2 x3 xs0 := by
  rw [View.read_writes_eq_canon _ _ _ hcov]
  unfold runLast
  dsimp only
  sl_unfold_words
  rw [View.canon_unit_zero hz]
  simp only [View.readAt_eq_ld, hPts'.read_unread, hNrm'.read_unread, hWt'.read_unread, hBias'.read_unread, hCen'.read_unread, hSums'.read_unread, hTot'.read_unread, View.ld_unit_zero (S := S5000x128) hz, View.ld_unit_zero (S := S1x128) hz, View.ld_unit_zero (S := S128x64) hz, View.ld_unit_zero (S := S1x64) hz, View.ld_unit_zero (S := S64x128) hz, View.readCov_unit_zero (S := S64x128) _ hz, View.readCov_unit_zero (S := S1x64) _ hz]

/-- in the totals accumulator what it held plus the last block's column sums of the assignments, -/
theorem totLast_pieces (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32)
    (hcov : ∀ y : S1x64.Idx, ∃ pc ∈ (runLast c i aPts hPts' aNrm hNrm' aWt hWt' aBias hBias' aCen hCen' aOut hOut' aSums hSums' aTot hTot' hFirst hLast x0 x1 x2 x3 x4 xs0 xs1).2.2.1, y ∈ pc.1.set) :
    totView.read (Elt F) (totView.writes (Elt F) totView.junk (runLast c i aPts hPts' aNrm hNrm' aWt hWt' aBias hBias' aCen hCen' aOut hOut' aSums hSums' aTot hTot' hFirst hLast x0 x1 x2 x3 x4 xs0 xs1).2.2.1) = k1_pay1 (k1_pay6 x0 x1 x2 x3) xs1 := by
  rw [View.read_writes_eq_canon _ _ _ hcov]
  unfold runLast
  dsimp only
  sl_unfold_words
  rw [View.canon_unit_zero hz]
  simp only [View.readAt_eq_ld, hPts'.read_unread, hNrm'.read_unread, hWt'.read_unread, hBias'.read_unread, hCen'.read_unread, hSums'.read_unread, hTot'.read_unread, View.ld_unit_zero (S := S5000x128) hz, View.ld_unit_zero (S := S1x128) hz, View.ld_unit_zero (S := S128x64) hz, View.ld_unit_zero (S := S1x64) hz, View.ld_unit_zero (S := S64x128) hz, View.readCov_unit_zero (S := S64x128) _ hz, View.readCov_unit_zero (S := S1x64) _ hz]

/-- and in the result block the closing step's value of the two accumulators as this point leaves them and the centres. -/
theorem outLast_pieces (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32)
    (hcov : ∀ y : S1x64x128.Idx, ∃ pc ∈ (runLast c i aPts hPts' aNrm hNrm' aWt hWt' aBias hBias' aCen hCen' aOut hOut' aSums hSums' aTot hTot' hFirst hLast x0 x1 x2 x3 x4 xs0 xs1).1, y ∈ pc.1.set) :
    outView.read (Elt F) (outView.writes (Elt F) outView.junk (runLast c i aPts hPts' aNrm hNrm' aWt hWt' aBias hBias' aCen hCen' aOut hOut' aSums hSums' aTot hTot' hFirst hLast x0 x1 x2 x3 x4 xs0 xs1).1) = k1_pay2 (k1_pay1 (k1_pay6 x0 x1 x2 x3) xs1) x4 (k1_pay7 x0 x1 x2 x3 xs0) := by
  rw [View.read_writes_eq_canon _ _ _ hcov]
  unfold runLast
  dsimp only
  sl_unfold_words
  rw [View.canon_unit_zero hz3]
  simp only [View.readAt_eq_ld, hPts'.read_unread, hNrm'.read_unread, hWt'.read_unread, hBias'.read_unread, hCen'.read_unread, hSums'.read_unread, hTot'.read_unread, View.ld_unit_zero (S := S5000x128) hz, View.ld_unit_zero (S := S1x128) hz, View.ld_unit_zero (S := S128x64) hz, View.ld_unit_zero (S := S1x64) hz, View.ld_unit_zero (S := S64x128) hz, View.readCov_unit_zero (S := S64x128) _ hz, View.readCov_unit_zero (S := S1x64) _ hz]

/-- After the first point the sums accumulator holds the first block's contribution over the reset. -/
theorem sumsFirst_eq (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) :
    sumsFirst c i aPts hPts' aNrm hNrm' aWt hWt' aBias hBias' aCen hCen' aOut hOut' aSums hSums' aTot hTot' hFirst hLast x0 x1 x2 x3 x4 = k1_pay7 x0 x1 x2 x3 k1_pay3 := by
  unfold sumsFirst
  exact sumsFirst_pieces c i aPts hPts' aNrm hNrm' aWt hWt' aBias hBias' aCen hCen' aOut hOut' aSums hSums' aTot hTot' hFirst hLast x0 x1 x2 x3 x4 (sumsCover_first c i aPts hPts' aNrm hNrm' aWt hWt' aBias hBias' aCen hCen' aOut hOut' aSums hSums' aTot hTot' hFirst hLast x0 x1 x2 x3 x4)

/-- After the first point the totals accumulator holds the first block's column sums of the assignments over the reset. -/
theorem totFirst_eq (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : isFirst i) (hLast : ¬isLast i)
    (x0 : Vec F S5000x128 .f32) (x1 : Vec F S1x128 .f32) (x2 : Vec F S128x64 .f32) (x3 : Vec F S1x64 .f32) (x4 : Vec F S64x128 .f32) :
    totFirst c i aPts hPts' aNrm hNrm' aWt hWt' aBias hBias' aCen hCen' aOut hOut' aSums hSums' aTot hTot' hFirst hLast x0 x1 x2 x3 x4 = k1_pay1 (k1_pay6 x0 x1 x2 x3) k1_pay4 := by
  unfold totFirst
  exact totFirst_pieces c i aPts hPts' aNrm hNrm' aWt hWt' aBias hBias' aCen hCen' aOut hOut' aSums hSums' aTot hTot' hFirst hLast x0 x1 x2 x3 x4 (totCover_first c i aPts hPts' aNrm hNrm' aWt hWt' aBias hBias' aCen hCen' aOut hOut' aSums hSums' aTot hTot' hFirst hLast x0 x1 x2 x3 x4)

/-- A middle point adds its block's contribution to the sums accumulator. -/
theorem sumsMid_eq (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) :
    sumsMid c i aPts hPts' aNrm hNrm' aWt hWt' aBias hBias' aCen hCen' aOut hOut' aSums hSums' aTot hTot' hFirst hLast x0 x1 x2 x3 x4 xs0 xs1 = k1_pay7 x0 x1 x2 x3 xs0 := by
  unfold sumsMid
  exact sumsMid_pieces c i aPts hPts' aNrm hNrm' aWt hWt' aBias hBias' aCen hCen' aOut hOut' aSums hSums' aTot hTot' hFirst hLast x0 x1 x2 x3 x4 xs0 xs1 (sumsCover_mid c i aPts hPts' aNrm hNrm' aWt hWt' aBias hBias' aCen hCen' aOut hOut' aSums hSums' aTot hTot' hFirst hLast x0 x1 x2 x3 x4 xs0 xs1)

/-- A middle point adds its block's column sums of the assignments to the totals accumulator. -/
theorem totMid_eq (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : ¬isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) :
    totMid c i aPts hPts' aNrm hNrm' aWt hWt' aBias hBias' aCen hCen' aOut hOut' aSums hSums' aTot hTot' hFirst hLast x0 x1 x2 x3 x4 xs0 xs1 = k1_pay1 (k1_pay6 x0 x1 x2 x3) xs1 := by
  unfold totMid
  exact totMid_pieces c i aPts hPts' aNrm hNrm' aWt hWt' aBias hBias' aCen hCen' aOut hOut' aSums hSums' aTot hTot' hFirst hLast x0 x1 x2 x3 x4 xs0 xs1 (totCover_mid c i aPts hPts' aNrm hNrm' aWt hWt' aBias hBias' aCen hCen' aOut hOut' aSums hSums' aTot hTot' hFirst hLast x0 x1 x2 x3 x4 xs0 xs1)

/-- The last point adds its block's contribution to the sums accumulator, -/
theorem sumsLast_eq (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) :
    sumsLast c i aPts hPts' aNrm hNrm' aWt hWt' aBias hBias' aCen hCen' aOut hOut' aSums hSums' aTot hTot' hFirst hLast x0 x1 x2 x3 x4 xs0 xs1 = k1_pay7 x0 x1 x2 x3 xs0 := by
  unfold sumsLast
  exact sumsLast_pieces c i aPts hPts' aNrm hNrm' aWt hWt' aBias hBias' aCen hCen' aOut hOut' aSums hSums' aTot hTot' hFirst hLast x0 x1 x2 x3 x4 xs0 xs1 (sumsCover_last c i aPts hPts' aNrm hNrm' aWt hWt' aBias hBias' aCen hCen' aOut hOut' aSums hSums' aTot hTot' hFirst hLast x0 x1 x2 x3 x4 xs0 xs1)

/-- its block's column sums of the assignments to the totals accumulator, -/
theorem totLast_eq (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) :
    totLast c i aPts hPts' aNrm hNrm' aWt hWt' aBias hBias' aCen hCen' aOut hOut' aSums hSums' aTot hTot' hFirst hLast x0 x1 x2 x3 x4 xs0 xs1 = k1_pay1 (k1_pay6 x0 x1 x2 x3) xs1 := by
  unfold totLast
  exact totLast_pieces c i aPts hPts' aNrm hNrm' aWt hWt' aBias hBias' aCen hCen' aOut hOut' aSums hSums' aTot hTot' hFirst hLast x0 x1 x2 x3 x4 xs0 xs1 (totCover_last c i aPts hPts' aNrm hNrm' aWt hWt' aBias hBias' aCen hCen' aOut hOut' aSums hSums' aTot hTot' hFirst hLast x0 x1 x2 x3 x4 xs0 xs1)

/-- and stores the closing step's value of the two accumulators as it leaves them and the centres. -/
theorem outLast_eq (c : Dev nD) (i : grid1.Coords) (aPts : Memref sig .tc .vmem S5000x128 .f32) (hPts' : aPts.IsWhole) (aNrm : Memref sig .tc .vmem S1x128 .f32) (hNrm' : aNrm.IsWhole) (aWt : Memref sig .tc .vmem S128x64 .f32) (hWt' : aWt.IsWhole) (aBias : Memref sig .tc .vmem S1x64 .f32) (hBias' : aBias.IsWhole) (aCen : Memref sig .tc .vmem S64x128 .f32) (hCen' : aCen.IsWhole) (aOut : Memref sig .tc .vmem S1x64x128 .f32) (hOut' : aOut.IsWhole) (aSums : Memref sig .tc .vmem S64x128 .f32) (hSums' : aSums.IsWhole) (aTot : Memref sig .tc .vmem S1x64 .f32) (hTot' : aTot.IsWhole) (hFirst : ¬isFirst i) (hLast : isLast i)
    (x0 : Vec F S5000x128 .f32) (x1 : Vec F S1x128 .f32) (x2 : Vec F S128x64 .f32) (x3 : Vec F S1x64 .f32) (x4 : Vec F S64x128 .f32) (xs0 : Vec F S64x128 .f32) (xs1 : Vec F S1x64 .f32) :
    outLast c i aPts hPts' aNrm hNrm' aWt hWt' aBias hBias' aCen hCen' aOut hOut' aSums hSums' aTot hTot' hFirst hLast x0 x1 x2 x3 x4 xs0 xs1 = k1_pay2 (k1_pay1 (k1_pay6 x0 x1 x2 x3) xs1) x4 (k1_pay7 x0 x1 x2 x3 xs0) := by
  unfold outLast
  exact outLast_pieces c i aPts hPts' aNrm hNrm' aWt hWt' aBias hBias' aCen hCen' aOut hOut' aSums hSums' aTot hTot' hFirst hLast x0 x1 x2 x3 x4 xs0 xs1 (outCover_last c i aPts hPts' aNrm hNrm' aWt hWt' aBias hBias' aCen hCen' aOut hOut' aSums hSums' aTot hTot' hFirst hLast x0 x1 x2 x3 x4 xs0 xs1)

/-! ## The blocks a point takes, read off the arrays as the region finds them -/

section

variable (V : (c : Dev nD) → (b : Ref sig .tc) → Buf (Elt F) ((c : Thread nD τ).loc b))

/-- The block of 5000 points, and the whole-array blocks of the column norms, the transposed weights, the bias row and
    the centres, that the region takes at grid point `t`; and the five arrays as the region finds them. -/
abbrev pblk (c : Dev nD) (t : Fin cfg1.N) : Vec F S5000x128 .f32 := blk V c 0 t
abbrev nblk (c : Dev nD) (t : Fin cfg1.N) : Vec F S1x128 .f32 := blk V c 1 t
abbrev wblk (c : Dev nD) (t : Fin cfg1.N) : Vec F S128x64 .f32 := blk V c 2 t
abbrev bblk (c : Dev nD) (t : Fin cfg1.N) : Vec F S1x64 .f32 := blk V c 3 t
abbrev cblk (c : Dev nD) (t : Fin cfg1.N) : Vec F S64x128 .f32 := blk V c 4 t
abbrev parr (c : Dev nD) : Vec F S200000x128 .f32 := V c main_arg0
abbrev narr (c : Dev nD) : Vec F S1x128 .f32 := V c main_v0
abbrev warr (c : Dev nD) : Vec F S128x64 .f32 := V c main_v1
abbrev barr (c : Dev nD) : Vec F S1x64 .f32 := V c main_v2
abbrev carr (c : Dev nD) : Vec F S64x128 .f32 := V c main_arg3

/-- Grid point `t` takes block `t` along the points axis and the whole feature axis; the other four inputs are one
    block each, at the origin, at every point. -/
theorem idx_pts : ∀ t : Fin cfg1.N, win1_0.index t 0 = t.val ∧ win1_0.index t 1 = 0 :=
  (by decide +kernel : ∀ t : Fin grid1.N, win1_0.index t 0 = t.val ∧ win1_0.index t 1 = 0)
theorem idx_nrm : ∀ t : Fin cfg1.N, win1_1.index t 0 = 0 ∧ win1_1.index t 1 = 0 :=
  (by decide +kernel : ∀ t : Fin grid1.N, win1_1.index t 0 = 0 ∧ win1_1.index t 1 = 0)
theorem idx_wt : ∀ t : Fin cfg1.N, win1_2.index t 0 = 0 ∧ win1_2.index t 1 = 0 :=
  (by decide +kernel : ∀ t : Fin grid1.N, win1_2.index t 0 = 0 ∧ win1_2.index t 1 = 0)
theorem idx_bias : ∀ t : Fin cfg1.N, win1_3.index t 0 = 0 ∧ win1_3.index t 1 = 0 :=
  (by decide +kernel : ∀ t : Fin grid1.N, win1_3.index t 0 = 0 ∧ win1_3.index t 1 = 0)
theorem idx_cen : ∀ t : Fin cfg1.N, win1_4.index t 0 = 0 ∧ win1_4.index t 1 = 0 :=
  (by decide +kernel : ∀ t : Fin grid1.N, win1_4.index t 0 = 0 ∧ win1_4.index t 1 = 0)

/-- Row `r` of the block at grid point `t` is row `5000 t + r` of the points array. -/
theorem pblk_apply (c : Dev nD) (t : Fin cfg1.N) (r : Fin 5000) (d : Fin 128) (k : Fin 200000)
    (hk : k.val = 5000 * t.val + r.val) : pblk V c t (ix2 r d) = parr V c (ix2 k d) := by
  show blk V c 0 t (ix2 r d) = _
  unfold blk
  rw [View.read_apply]
  show V c main_arg0 _ = V c main_arg0 _
  congr 1
  funext a
  apply Fin.ext
  match a with
  | ⟨0, _⟩ => show win1_0.index t 0 * 5000 + 1 * r.val = k.val; rw [(idx_pts t).1, hk]; omega
  | ⟨1, _⟩ => show win1_0.index t 1 * 128 + 1 * d.val = d.val; rw [(idx_pts t).2]; omega

/-- The column norms' block is the column norms' array. -/
theorem nblk_apply (c : Dev nD) (t : Fin cfg1.N) (p : Fin 1) (d : Fin 128) : nblk V c t (ix2 p d) = narr V c (ix2 p d) := by
  show blk V c 1 t (ix2 p d) = _
  unfold blk
  rw [View.read_apply]
  show V c main_v0 _ = V c main_v0 _
  congr 1
  funext a
  apply Fin.ext
  match a with
  | ⟨0, _⟩ => show win1_1.index t 0 * 1 + 1 * p.val = p.val; rw [(idx_nrm t).1]; omega
  | ⟨1, _⟩ => show win1_1.index t 1 * 128 + 1 * d.val = d.val; rw [(idx_nrm t).2]; omega

/-- The transposed weights' block is the transposed weights' array. -/
theorem wblk_apply (c : Dev nD) (t : Fin cfg1.N) (d : Fin 128) (k : Fin 64) : wblk V c t (ix2 d k) = warr V c (ix2 d k) := by
  show blk V c 2 t (ix2 d k) = _
  unfold blk
  rw [View.read_apply]
  show V c main_v1 _ = V c main_v1 _
  congr 1
  funext a
  apply Fin.ext
  match a with
  | ⟨0, _⟩ => show win1_2.index t 0 * 128 + 1 * d.val = d.val; rw [(idx_wt t).1]; omega
  | ⟨1, _⟩ => show win1_2.index t 1 * 64 + 1 * k.val = k.val; rw [(idx_wt t).2]; omega

/-- The bias row's block is the bias row's array. -/
theorem bblk_apply (c : Dev nD) (t : Fin cfg1.N) (p : Fin 1) (k : Fin 64) : bblk V c t (ix2 p k) = barr V c (ix2 p k) := by
  show blk V c 3 t (ix2 p k) = _
  unfold blk
  rw [View.read_apply]
  show V c main_v2 _ = V c main_v2 _
  congr 1
  funext a
  apply Fin.ext
  match a with
  | ⟨0, _⟩ => show win1_3.index t 0 * 1 + 1 * p.val = p.val; rw [(idx_bias t).1]; omega
  | ⟨1, _⟩ => show win1_3.index t 1 * 64 + 1 * k.val = k.val; rw [(idx_bias t).2]; omega

/-- The centres' block is the centres' array. -/
theorem cblk_apply (c : Dev nD) (t : Fin cfg1.N) (k : Fin 64) (d : Fin 128) : cblk V c t (ix2 k d) = carr V c (ix2 k d) := by
  show blk V c 4 t (ix2 k d) = _
  unfold blk
  rw [View.read_apply]
  show V c main_arg3 _ = V c main_arg3 _
  congr 1
  funext a
  apply Fin.ext
  match a with
  | ⟨0, _⟩ => show win1_4.index t 0 * 64 + 1 * k.val = k.val; rw [(idx_cen t).1]; omega
  | ⟨1, _⟩ => show win1_4.index t 1 * 128 + 1 * d.val = d.val; rw [(idx_cen t).2]; omega

end

/-! ## Point by point, as the body's arithmetic -/

section

variable (V : (c : Dev nD) → (b : Ref sig .tc) → Buf (Elt F) ((c : Thread nD τ).loc b))

/-- After the first point the sums accumulator holds the first block's contribution over the reset, -/
theorem sums_first (c : Dev nD) (t : Fin cfg1.N) (h0 : t.val % 40 = 0) :
    (contentsAt V c t.val t.isLt).2.1 = k1_pay7 (pblk V c t) (nblk V c t) (wblk V c t) (bblk V c t) k1_pay3 := by
  have h1 : ¬t.val % 40 = 39 := by omega
  rw [contentsAt_first V c t h0 h1]
  dsimp only
  exact sumsFirst_eq c (grid1.coords t) (mPts t) (hPts t) (mNrm t) (hNrm t) (mWt t) (hWt t) (mBias t) (hBias t) (mCen t) (hCen t) (mOut t) (hOut t) mSums (Memref.isWhole_whole _) mTot (Memref.isWhole_whole _)
    ((isFirst_iff t).mpr h0) (fun h => h1 ((isLast_iff t).mp h)) (pblk V c t) (nblk V c t) (wblk V c t) (bblk V c t) (cblk V c t)

/-- and the totals accumulator the first block's column sums of the assignments over the reset. -/
theorem tot_first (c : Dev nD) (t : Fin cfg1.N) (h0 : t.val % 40 = 0) :
    (contentsAt V c t.val t.isLt).2.2 = k1_pay1 (k1_pay6 (pblk V c t) (nblk V c t) (wblk V c t) (bblk V c t)) k1_pay4 := by
  have h1 : ¬t.val % 40 = 39 := by omega
  rw [contentsAt_first V c t h0 h1]
  dsimp only
  exact totFirst_eq c (grid1.coords t) (mPts t) (hPts t) (mNrm t) (hNrm t) (mWt t) (hWt t) (mBias t) (hBias t) (mCen t) (hCen t) (mOut t) (hOut t) mSums (Memref.isWhole_whole _) mTot (Memref.isWhole_whole _)
    ((isFirst_iff t).mpr h0) (fun h => h1 ((isLast_iff t).mp h)) (pblk V c t) (nblk V c t) (wblk V c t) (bblk V c t) (cblk V c t)

/-- After any later point the sums accumulator holds what the point before left plus that point's block's contribution, -/
theorem sums_step (c : Dev nD) (t : Fin cfg1.N) (h0 : ¬t.val % 40 = 0) :
    (contentsAt V c t.val t.isLt).2.1
      = k1_pay7 (pblk V c t) (nblk V c t) (wblk V c t) (bblk V c t) (contentsAt V c (t.val - 1) (Nat.lt_of_le_of_lt (Nat.sub_le _ _) t.isLt)).2.1 := by
  by_cases h1 : t.val % 40 = 39
  · rw [contentsAt_last V c t h0 h1]
    dsimp only
    exact sumsLast_eq c (grid1.coords t) (mPts t) (hPts t) (mNrm t) (hNrm t) (mWt t) (hWt t) (mBias t) (hBias t) (mCen t) (hCen t) (mOut t) (hOut t) mSums (Memref.isWhole_whole _) mTot (Memref.isWhole_whole _)
      (notFirst_of t h0) ((isLast_iff t).mpr h1) (pblk V c t) (nblk V c t) (wblk V c t) (bblk V c t) (cblk V c t) (contentsAt V c (t.val - 1) (Nat.lt_of_le_of_lt (Nat.sub_le _ _) t.isLt)).2.1 (contentsAt V c (t.val - 1) (Nat.lt_of_le_of_lt (Nat.sub_le _ _) t.isLt)).2.2
  · rw [contentsAt_mid V c t h0 h1]
    dsimp only
    exact sumsMid_eq c (grid1.coords t) (mPts t) (hPts t) (mNrm t) (hNrm t) (mWt t) (hWt t) (mBias t) (hBias t) (mCen t) (hCen t) (mOut t) (hOut t) mSums (Memref.isWhole_whole _) mTot (Memref.isWhole_whole _)
      (notFirst_of t h0) (fun h => h1 ((isLast_iff t).mp h)) (pblk V c t) (nblk V c t) (wblk V c t) (bblk V c t) (cblk V c t) (contentsAt V c (t.val - 1) (Nat.lt_of_le_of_lt (Nat.sub_le _ _) t.isLt)).2.1 (contentsAt V c (t.val - 1) (Nat.lt_of_le_of_lt (Nat.sub_le _ _) t.isLt)).2.2

/-- and the totals accumulator what the point before left plus that block's column sums of the assignments. -/
theorem tot_step (c : Dev nD) (t : Fin cfg1.N) (h0 : ¬t.val % 40 = 0) :
    (contentsAt V c t.val t.isLt).2.2
      = k1_pay1 (k1_pay6 (pblk V c t) (nblk V c t) (wblk V c t) (bblk V c t)) (contentsAt V c (t.val - 1) (Nat.lt_of_le_of_lt (Nat.sub_le _ _) t.isLt)).2.2 := by
  by_cases h1 : t.val % 40 = 39
  · rw [contentsAt_last V c t h0 h1]
    dsimp only
    exact totLast_eq c (grid1.coords t) (mPts t) (hPts t) (mNrm t) (hNrm t) (mWt t) (hWt t) (mBias t) (hBias t) (mCen t) (hCen t) (mOut t) (hOut t) mSums (Memref.isWhole_whole _) mTot (Memref.isWhole_whole _)
      (notFirst_of t h0) ((isLast_iff t).mpr h1) (pblk V c t) (nblk V c t) (wblk V c t) (bblk V c t) (cblk V c t) (contentsAt V c (t.val - 1) (Nat.lt_of_le_of_lt (Nat.sub_le _ _) t.isLt)).2.1 (contentsAt V c (t.val - 1) (Nat.lt_of_le_of_lt (Nat.sub_le _ _) t.isLt)).2.2
  · rw [contentsAt_mid V c t h0 h1]
    dsimp only
    exact totMid_eq c (grid1.coords t) (mPts t) (hPts t) (mNrm t) (hNrm t) (mWt t) (hWt t) (mBias t) (hBias t) (mCen t) (hCen t) (mOut t) (hOut t) mSums (Memref.isWhole_whole _) mTot (Memref.isWhole_whole _)
      (notFirst_of t h0) (fun h => h1 ((isLast_iff t).mp h)) (pblk V c t) (nblk V c t) (wblk V c t) (bblk V c t) (cblk V c t) (contentsAt V c (t.val - 1) (Nat.lt_of_le_of_lt (Nat.sub_le _ _) t.isLt)).2.1 (contentsAt V c (t.val - 1) (Nat.lt_of_le_of_lt (Nat.sub_le _ _) t.isLt)).2.2

/-- At the last point the result block takes the closing step's value of what the two accumulators then hold and the
    centres. -/
theorem out_last (c : Dev nD) (t : Fin cfg1.N) (h0 : ¬t.val % 40 = 0) (h1 : t.val % 40 = 39) :
    (contentsAt V c t.val t.isLt).1
      = k1_pay2 (contentsAt V c t.val t.isLt).2.2 (cblk V c t) (contentsAt V c t.val t.isLt).2.1 := by
  rw [sums_step V c t h0, tot_step V c t h0, contentsAt_last V c t h0 h1]
  dsimp only
  exact outLast_eq c (grid1.coords t) (mPts t) (hPts t) (mNrm t) (hNrm t) (mWt t) (hWt t) (mBias t) (hBias t) (mCen t) (hCen t) (mOut t) (hOut t) mSums (Memref.isWhole_whole _) mTot (Memref.isWhole_whole _)
    (notFirst_of t h0) ((isLast_iff t).mpr h1) (pblk V c t) (nblk V c t) (wblk V c t) (bblk V c t) (cblk V c t) (contentsAt V c (t.val - 1) (Nat.lt_of_le_of_lt (Nat.sub_le _ _) t.isLt)).2.1 (contentsAt V c (t.val - 1) (Nat.lt_of_le_of_lt (Nat.sub_le _ _) t.isLt)).2.2

end

/-! ## On the extended reals: the accumulators are the running sums over the points -/

section

variable (V : (c : Dev nD) → (b : Ref sig .tc) → Buf (Elt Ideal) ((c : Thread nD τ).loc b))
  (x : Cert.Pooling.Pts.Idx → EReal) (W : Cert.Pooling.Cl.Idx → EReal) (b : Cert.Pooling.Bias.Idx → EReal)
  (cen : Cert.Pooling.Cl.Idx → EReal)

/-- The assignment-weighted scaled points of cluster `k` and feature `d`, and the assignments of cluster `k`, summed over
    the rows `5000 s … 5000 s + 4999` of the points (the guard holds for every block of the grid). -/
def runG (k : Fin 64) (d : Fin 128) (s : ℕ) : EReal :=
  ∑ r : Fin 5000, (if h : 5000 * s + r.val < 200000 then
    Cert.Pooling.assign x W b ⟨5000 * s + r.val, h⟩ k * Cert.Pooling.unit x ⟨5000 * s + r.val, h⟩ d else 0)
def runM (k : Fin 64) (s : ℕ) : EReal :=
  ∑ r : Fin 5000, (if h : 5000 * s + r.val < 200000 then Cert.Pooling.assign x W b ⟨5000 * s + r.val, h⟩ k else 0)

/-- The forty runs of 5000 rows are all the rows. -/
theorem runG_total (k : Fin 64) (d : Fin 128) :
    ∑ s ∈ Finset.range 40, runG x W b k d s = Cert.Pooling.gathered x W b k d :=
  (Cert.LibBlockSum.sum_fin_blocks 40 5000 rfl
    (fun n : Fin 200000 => Cert.Pooling.assign x W b n k * Cert.Pooling.unit x n d)).symm
theorem runM_total (k : Fin 64) :
    ∑ s ∈ Finset.range 40, runM x W b k s = Cert.Pooling.mass x W b k :=
  (Cert.LibBlockSum.sum_fin_blocks 40 5000 rfl (fun n : Fin 200000 => Cert.Pooling.assign x W b n k)).symm

variable (c : Dev nD) (hx : parr V c = x) (hn : ∀ d : Fin 128, narr V c (ix2 0 d) = Cert.Pooling.colNorm x d)
  (hw : ∀ (d : Fin 128) (k : Fin 64), warr V c (ix2 d k) = W (ix2 k d)) (hb : ∀ k : Fin 64, barr V c (ix2 0 k) = b (ix1 k))

include hx hn hw hb in
/-- A block's contribution to the gathered sums is that run of the points'. -/
theorem blockG_eq (t : Fin cfg1.N) (k : Fin 64) (d : Fin 128) :
    ∑ r : Fin 5000, k1_pay6 (pblk V c t) (nblk V c t) (wblk V c t) (bblk V c t) (ix2 r k) * k1_pay5 (pblk V c t) (nblk V c t) (ix2 r d)
      = runG x W b k d t.val := by
  have hN : t.val < 40 := lt_of_lt_of_eq t.isLt (show cfg1.N = 40 from N_1)
  have hx' : ∀ (r : Fin 5000) (d : Fin 128), pblk V c t (ix2 r d)
      = x (ix2 ⟨5000 * (⟨t.val, hN⟩ : Fin 40).val + r.val, Payload.blockRow_lt ⟨t.val, hN⟩ r⟩ d) := fun r d => by
    rw [pblk_apply V c t r d ⟨5000 * t.val + r.val, Payload.blockRow_lt ⟨t.val, hN⟩ r⟩ rfl, hx]
  have hn' : ∀ d : Fin 128, nblk V c t (ix2 0 d) = Cert.Pooling.colNorm x d := fun d => (nblk_apply V c t 0 d).trans (hn d)
  have hw' : ∀ (d : Fin 128) (k : Fin 64), wblk V c t (ix2 d k) = W (ix2 k d) := fun d k => (wblk_apply V c t d k).trans (hw d k)
  have hb' : ∀ k : Fin 64, bblk V c t (ix2 0 k) = b (ix1 k) := fun k => (bblk_apply V c t 0 k).trans (hb k)
  unfold runG
  refine Finset.sum_congr rfl fun r _ => ?_
  rw [dif_pos (Payload.blockRow_lt ⟨t.val, hN⟩ r),
    Payload.pay6_block x W b ⟨t.val, hN⟩ (pblk V c t) (nblk V c t) (wblk V c t) (bblk V c t) hx' hn' hw' hb' r k,
    Payload.pay5_block x ⟨t.val, hN⟩ (pblk V c t) (nblk V c t) hx' hn' r d]

include hx hn hw hb in
/-- A block's column sum of the assignments is that run of the points'. -/
theorem blockM_eq (t : Fin cfg1.N) (k : Fin 64) :
    ∑ r : Fin 5000, k1_pay6 (pblk V c t) (nblk V c t) (wblk V c t) (bblk V c t) (ix2 r k) = runM x W b k t.val := by
  have hN : t.val < 40 := lt_of_lt_of_eq t.isLt (show cfg1.N = 40 from N_1)
  have hx' : ∀ (r : Fin 5000) (d : Fin 128), pblk V c t (ix2 r d)
      = x (ix2 ⟨5000 * (⟨t.val, hN⟩ : Fin 40).val + r.val, Payload.blockRow_lt ⟨t.val, hN⟩ r⟩ d) := fun r d => by
    rw [pblk_apply V c t r d ⟨5000 * t.val + r.val, Payload.blockRow_lt ⟨t.val, hN⟩ r⟩ rfl, hx]
  have hn' : ∀ d : Fin 128, nblk V c t (ix2 0 d) = Cert.Pooling.colNorm x d := fun d => (nblk_apply V c t 0 d).trans (hn d)
  have hw' : ∀ (d : Fin 128) (k : Fin 64), wblk V c t (ix2 d k) = W (ix2 k d) := fun d k => (wblk_apply V c t d k).trans (hw d k)
  have hb' : ∀ k : Fin 64, bblk V c t (ix2 0 k) = b (ix1 k) := fun k => (bblk_apply V c t 0 k).trans (hb k)
  unfold runM
  refine Finset.sum_congr rfl fun r _ => ?_
  rw [dif_pos (Payload.blockRow_lt ⟨t.val, hN⟩ r),
    Payload.pay6_block x W b ⟨t.val, hN⟩ (pblk V c t) (nblk V c t) (wblk V c t) (bblk V c t) hx' hn' hw' hb' r k]

include hx hn hw hb in
/-- After point `n` the sums accumulator holds, at `(k, d)`, the contributions of the first `n + 1` blocks. -/
theorem sums_apply (k : Fin 64) (d : Fin 128) : ∀ (n : ℕ) (hn' : n < cfg1.N),
    (contentsAt V c n hn').2.1 (ix2 k d) = ∑ s ∈ Finset.range (n + 1), runG x W b k d s
  | 0, hn' => by
    refine (congrFun (sums_first V c ⟨0, hn'⟩ (Nat.zero_mod 40)) (ix2 k d)).trans ?_
    refine (Payload.pay7_apply _ _ _ _ _ k d).trans ?_
    rw [Payload.pay3_apply, zero_add, Finset.sum_range_one]
    exact blockG_eq V x W b c hx hn hw hb ⟨0, hn'⟩ k d
  | n + 1, hn' => by
    have hN : n + 1 < 40 := lt_of_lt_of_eq hn' (show cfg1.N = 40 from N_1)
    refine (congrFun (sums_step V c ⟨n + 1, hn'⟩ (by dsimp only; omega)) (ix2 k d)).trans ?_
    refine (Payload.pay7_apply _ _ _ _ _ k d).trans ?_
    rw [Finset.sum_range_succ]
    exact congrArg₂ (· + ·) (sums_apply k d n (Nat.lt_of_succ_lt hn')) (blockG_eq V x W b c hx hn hw hb ⟨n + 1, hn'⟩ k d)

include hx hn hw hb in
/-- After point `n` the totals accumulator holds, at cluster `k`, the assignments summed over the first `n + 1` blocks. -/
theorem tot_apply (k : Fin 64) : ∀ (n : ℕ) (hn' : n < cfg1.N),
    (contentsAt V c n hn').2.2 (ix2 0 k) = ∑ s ∈ Finset.range (n + 1), runM x W b k s
  | 0, hn' => by
    refine (congrFun (tot_first V c ⟨0, hn'⟩ (Nat.zero_mod 40)) (ix2 0 k)).trans ?_
    refine (Payload.pay1_apply _ _ k).trans ?_
    rw [Payload.pay4_apply, zero_add, Finset.sum_range_one]
    exact blockM_eq V x W b c hx hn hw hb ⟨0, hn'⟩ k
  | n + 1, hn' => by
    have hN : n + 1 < 40 := lt_of_lt_of_eq hn' (show cfg1.N = 40 from N_1)
    refine (congrFun (tot_step V c ⟨n + 1, hn'⟩ (by dsimp only; omega)) (ix2 0 k)).trans ?_
    refine (Payload.pay1_apply _ _ k).trans ?_
    rw [Finset.sum_range_succ]
    exact congrArg₂ (· + ·) (tot_apply k n (Nat.lt_of_succ_lt hn')) (blockM_eq V x W b c hx hn hw hb ⟨n + 1, hn'⟩ k)

end

/-! ## The result array -/

section

variable (V : (c : Dev nD) → (b : Ref sig .tc) → Buf (Elt Ideal) ((c : Thread nD τ).loc b))
  (x : Cert.Pooling.Pts.Idx → EReal) (W : Cert.Pooling.Cl.Idx → EReal) (b : Cert.Pooling.Bias.Idx → EReal)
  (cen : Cert.Pooling.Cl.Idx → EReal)

/-- The last grid point, the only one whose result block is written back. -/
abbrev tLast : Fin cfg1.N := ⟨39, lt_of_lt_of_eq (by decide) (show cfg1.N = 40 from N_1).symm⟩

/-- What the result array is to hold: the pooled descriptor of the four arrays. -/
def pooled (c : Dev nD) : Buf (Elt Ideal) ((c : Thread nD τ).loc main_v3) :=
  fun j : S1x64x128.Idx => Cert.Pooling.out x W b cen j

variable (c : Dev nD) (hx : parr V c = x) (hn : ∀ d : Fin 128, narr V c (ix2 0 d) = Cert.Pooling.colNorm x d)
  (hw : ∀ (d : Fin 128) (k : Fin 64), warr V c (ix2 d k) = W (ix2 k d)) (hb : ∀ k : Fin 64, barr V c (ix2 0 k) = b (ix1 k))
  (hc : carr V c = cen)

include hx hn hw hb hc in
/-- After the last point the result block holds the pooled descriptor: the accumulators hold the gathered sums and the
    masses over all the points, and the closing step forms the residuals and scales them. -/
theorem out_eq : (contentsAt V c tLast.val tLast.isLt).1 = pooled x W b cen c := by
  funext j
  obtain ⟨a, k, d, rfl⟩ : ∃ (a : Fin 1) (k : Fin 64) (d : Fin 128), j = ix3 a k d := ⟨j 0, j 1, j 2, eq_ix3 j⟩
  obtain rfl : a = 0 := Subsingleton.elim _ _
  rw [out_last V c tLast (by decide) (by decide)]
  refine (Payload.pay2_apply _ _ _ k d).trans ?_
  have hA : ∀ k' : Fin 64, (contentsAt V c 39 tLast.isLt).2.1 (ix2 k' d) = Cert.Pooling.gathered x W b k' d := fun k' =>
    (sums_apply V x W b c hx hn hw hb k' d 39 tLast.isLt).trans (runG_total x W b k' d)
  have hS : ∀ k' : Fin 64, (contentsAt V c 39 tLast.isLt).2.2 (ix2 0 k') = Cert.Pooling.mass x W b k' := fun k' =>
    (tot_apply V x W b c hx hn hw hb k' 39 tLast.isLt).trans (runM_total x W b k')
  have hC : ∀ k' : Fin 64, cblk V c tLast (ix2 k' d) = cen (ix2 k' d) := fun k' => by rw [cblk_apply, hc]
  have hres : ∀ k' : Fin 64, Payload.res (contentsAt V c 39 tLast.isLt).2.2 (cblk V c tLast) (contentsAt V c 39 tLast.isLt).2.1 k' d
      = Cert.Pooling.resid x W b cen k' d := fun k' => by
    unfold Payload.res Cert.Pooling.resid
    rw [hA k', hS k', hC k']
  have hsum : ∑ k' : Fin 64, Payload.res (contentsAt V c 39 tLast.isLt).2.2 (cblk V c tLast) (contentsAt V c 39 tLast.isLt).2.1 k' d
        * Payload.res (contentsAt V c 39 tLast.isLt).2.2 (cblk V c tLast) (contentsAt V c 39 tLast.isLt).2.1 k' d
      = ∑ k' : Fin 64, Cert.Pooling.resid x W b cen k' d * Cert.Pooling.resid x W b cen k' d :=
    Finset.sum_congr rfl fun k' _ => by rw [hres k']
  show Ideal.div (Payload.res (contentsAt V c 39 tLast.isLt).2.2 (cblk V c tLast) (contentsAt V c 39 tLast.isLt).2.1 k d)
      (max (Ideal.sqrt (∑ k' : Fin 64, Payload.res (contentsAt V c 39 tLast.isLt).2.2 (cblk V c tLast) (contentsAt V c 39 tLast.isLt).2.1 k' d
        * Payload.res (contentsAt V c 39 tLast.isLt).2.2 (cblk V c tLast) (contentsAt V c 39 tLast.isLt).2.1 k' d)) Cert.Pooling.eps) = _
  rw [hres k, hsum]
  rfl

include hx hn hw hb hc in
/-- The one write-back, at the last point, writes the pooled descriptor: its block is the whole result array. -/
theorem flushed_eq (t : Fin cfg1.N) (hf : (cfg1.win 5).flush t = true) :
    (dat V c).flushed 5 t = ((cfg1.win 5).blk t).view.read (Elt Ideal) (pooled x W b cen c) := by
  have hN : cfg1.N = 40 := N_1
  have h39 : t.val = 39 := by have := (flush1_5 t).mp hf; have := t.isLt; omega
  obtain rfl : t = tLast := Fin.ext h39
  show (cfg1.win 5).cut (grid1.coords tLast) ((dat V c).after 5 tLast) = _
  rw [after_out, out_eq V x W b cen c hx hn hw hb hc]
  have hz' : (fun a => win1_5.index tLast a * main_v3.ty.shape.size a) = fun _ => 0 :=
    funext fun a => by fin_cases a <;> decide
  exact (Memref.read_access_unit_zero (Elt Ideal) main_v3 hz' (fun a => by rw [congrFun hz' a]; simp) (pooled x W b cen c)).symm

/-- The last point's block starts at the array's origin and has the array's extents. -/
theorem out_block : (win1_5.index tLast 0 * win1_5.size 0 = 0 ∧ win1_5.index tLast 1 * win1_5.size 1 = 0
      ∧ win1_5.index tLast 2 * win1_5.size 2 = 0)
    ∧ win1_5.xsize (grid1.coords tLast) 0 = 1 ∧ win1_5.xsize (grid1.coords tLast) 1 = 64
    ∧ win1_5.xsize (grid1.coords tLast) 2 = 128 := by decide +kernel

include hx hn hw hb hc in
/-- So after the region the result array holds the pooled descriptor of the arrays as entered. -/
theorem out_array : (dat V c).arrAt 5 cfg1.N = Cert.Pooling.out x W b cen :=
  (dat V c).arrAt_eq_of_cover 5 (pooled x W b cen c) (flushed_eq V x W b cen c hx hn hw hb hc) fun i =>
    ⟨tLast, (flush1_5 tLast).mpr rfl, by
      show i ∈ ((View.whole main_v3).slice (win1_5.rect tLast)).set
      rw [View.set_slice_whole, Rect.mem_set_unit]
      intro a
      match a with
      | ⟨0, _⟩ =>
        show win1_5.index tLast 0 * win1_5.size 0 ≤ (i 0 : Nat)
          ∧ (i 0 : Nat) < win1_5.index tLast 0 * win1_5.size 0 + win1_5.xsize (grid1.coords tLast) 0
        rw [out_block.1.1, out_block.2.1]; have : (i 0 : Nat) < 1 := (i 0).isLt; omega
      | ⟨1, _⟩ =>
        show win1_5.index tLast 1 * win1_5.size 1 ≤ (i 1 : Nat)
          ∧ (i 1 : Nat) < win1_5.index tLast 1 * win1_5.size 1 + win1_5.xsize (grid1.coords tLast) 1
        rw [out_block.1.2.1, out_block.2.2.1]; have : (i 1 : Nat) < 64 := (i 1).isLt; omega
      | ⟨2, _⟩ =>
        show win1_5.index tLast 2 * win1_5.size 2 ≤ (i 2 : Nat)
          ∧ (i 2 : Nat) < win1_5.index tLast 2 * win1_5.size 2 + win1_5.xsize (grid1.coords tLast) 2
        rw [out_block.1.2.2, out_block.2.2.2]; have : (i 2 : Nat) < 128 := (i 2).isLt; omega⟩

end

end Cert.KernelIdeal.Agg.Value

end
-- ==== Proof.KernelValue.lean ====
/-
  The idealized kernel program's result buffer, at the end of its run, is the pooled descriptor of its four argument
  arrays.

  The run over the two launches leaves the result array at what the second launch's pipeline writes back. That launch is
  entered with the points and the centres as launched, the first launch's output — the feature columns' norms over all
  points —, the weights transposed and the bias as a row; on exactly such entry contents its result array is the pooled
  descriptor.
-/
import proofs.«181373_j45552423141540_1_alg».proof.Proof.KernelIdeal.Whole
import proofs.«181373_j45552423141540_1_alg».proof.Proof.KernelIdeal.Norm.Value
import proofs.«181373_j45552423141540_1_alg».proof.Proof.KernelIdeal.Agg.Value
import proofs.«181373_j45552423141540_1_alg».proof.Proof.Pooling
import Idealize.ShloMosaic.Lib.Pipeline.Value
import Idealize.ShloMosaic.Lib.ValueIdx
import Idealize.ShloMosaic.Lib.ValueLayout

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The result array at the end of the run is the pooled descriptor of the launch memory's four argument arrays. -/
theorem result (c : Dev nD) :
    Whole.atEnd (F := Ideal) m c (Proc.devRef .tc main_v3)
      = Cert.Pooling.out (m ((c : Thread nD τ).loc main_arg0)) (m ((c : Thread nD τ).loc main_arg1))
          (m ((c : Thread nD τ).loc main_arg2)) (m ((c : Thread nD τ).loc main_arg3)) := by
  rw [Whole.atEnd_result]
  refine Agg.Value.out_array (Whole.entryAgg m) _ _ _ _ c (Whole.entryAgg_pts m c) (fun d => ?_) (fun d k => ?_) (fun k => ?_)
    (Whole.entryAgg_cen m c)
  · -- the second launch finds the first launch's output: the column norms of the points as launched
    show Whole.entryAgg m c main_v0 (ix2 0 d) = _
    rw [Whole.entryAgg_norm, Norm.Value.out_array (Whole.entryNorm m) c]
  · -- the weights, transposed by the host
    show Whole.entryAgg m c main_v1 (ix2 d k) = _
    rw [Whole.entryAgg_wT]
    exact transpose_ix2_apply _ _ d k
  · -- the bias, made a row by the host
    show Whole.entryAgg m c main_v2 (ix2 0 k) = _
    rw [Whole.entryAgg_bias]
    refine (shapeCast_addUnit_apply ![64] _ _ (ix2 0 k)).trans (congrArg _ (funext fun a => ?_))
    match a with
    | ⟨0, _⟩ => rfl

end Cert.KernelIdeal.Result

end
-- ==== Proof.RefValue.lean ====
/-
  The reference's result array is the pooled descriptor of its four argument arrays.

  The reference computes the descriptor in forty-eight array operations. Read at an index written by its coordinates,
  each stage is one of the specification's named quantities: the squares summed down a feature column and their root
  (the column norm), the point over the floored norm (the scaled point), the contraction with the layer's weights plus
  the bias (the logit), the fold of `max` along a row (the row maximum), the shifted exponential, its row sum and the
  quotient (the soft assignment), the two sums over the points (the gathered sum and the mass), their difference with
  the centre (the residual), the root of the squared residuals summed over the clusters (the cluster norm), and the
  residual over the floored cluster norm. The layout operations between them (broadcasts and transposes) only move
  an index; every sum starts from the zero word, which adds nothing.
-/
import proofs.«181373_j45552423141540_1_alg».proof.Proof.Gen.ReferenceIdeal.Read
import proofs.«181373_j45552423141540_1_alg».proof.Proof.Pooling
import proofs.«181373_j45552423141540_1_alg».proof.Proof.LibRowReduce

noncomputable section

open scoped BigOperators

namespace Cert.ReferenceIdeal.RefValue

open Cert.ReferenceIdeal Cert.ReferenceIdeal.Gen Cert.ReferenceIdeal.Read Idealize.ShloMosaic Idealize.ShloMosaic.ValueIdx Cert.Pooling

variable (x0 : (⟨S200000x128, .f32⟩ : BufTy).Contents (Elt Ideal)) (x1 : (⟨S64x128, .f32⟩ : BufTy).Contents (Elt Ideal))
  (x2 : (⟨S64, .f32⟩ : BufTy).Contents (Elt Ideal)) (x3 : (⟨S64x128, .f32⟩ : BufTy).Contents (Elt Ideal))

/-! ### The column norm and the scaled point -/

/-- Summing down a column: the reduced index `d` with point `n` put back is `(n, d)`. -/
theorem idx_v1 (d : Fin 128) (n : Fin 200000) : idx_main_v1 (ix1 d) n = ix2 n d :=
  funext fun a => Fin.ext (by match a with | ⟨0, _⟩ => rfl | ⟨1, _⟩ => rfl)

/-- The sum of the squares down column `d`. -/
theorem sumsq_col (d : Fin 128) :
    val_main_v1 (F := Ideal) x0 (ix1 d) = ∑ n : Fin 200000, x0 (ix2 n d) * x0 (ix2 n d) := by
  rw [val_main_v1_apply, val_main_cst_apply, Ideal.ofBits_def, Ideal.ofBits_zero_f32, zero_add]
  refine Finset.sum_congr rfl fun n _ => ?_
  rw [idx_v1, val_main_v0_apply, Ideal.mulf_def]

theorem idx_v2 (a : Fin 1) (d : Fin 128) : idx_main_v2 (ix2 a d) = ix1 d :=
  funext fun c => Fin.ext (by match c with | ⟨0, _⟩ => rfl)

/-- The root of that sum is the column norm. -/
theorem stage_colNorm (a : Fin 1) (d : Fin 128) :
    val_main_v3 (F := Ideal) x0 (ix2 a d) = colNorm x0 d := by
  rw [val_main_v3_apply, val_main_v2_apply, idx_v2, sumsq_col, Ideal.hostUnary_sqrt_def]
  rfl

/-- The floor under the norm is the same word at every index. -/
theorem stage_eps2 (i : S1x128.Idx) : val_main_v4 (F := Ideal) i = eps := by
  rw [val_main_v4_apply, val_main_cst_0_apply, Ideal.ofBits_def]

theorem idx_v6 (n : Fin 200000) (d : Fin 128) : idx_main_v6 (ix2 n d) = ix2 (0 : Fin 1) d :=
  funext fun c => Fin.ext (by match c with | ⟨0, _⟩ => rfl | ⟨1, _⟩ => rfl)

/-- The point with its column scaled to unit norm. -/
theorem stage_unit (n : Fin 200000) (d : Fin 128) :
    val_main_v7 (F := Ideal) x0 (ix2 n d) = unit x0 n d := by
  rw [val_main_v7_apply, val_main_v6_apply, idx_v6, val_main_v5_apply, stage_colNorm, stage_eps2,
    Ideal.hostDivf_def, Ideal.maximumf_def]
  rfl

/-! ### The logit -/

theorem lidx_v9 (n : Fin 200000) (k : Fin 64) (d : Fin 128) : lidx_main_v9 (ix2 n k) d = ix2 n d :=
  funext fun c => Fin.ext (by match c with | ⟨0, _⟩ => rfl | ⟨1, _⟩ => rfl)

theorem ridx_v9 (n : Fin 200000) (k : Fin 64) (d : Fin 128) : ridx_main_v9 (ix2 n k) d = ix2 d k :=
  funext fun c => Fin.ext (by match c with | ⟨0, _⟩ => rfl | ⟨1, _⟩ => rfl)

theorem idx_v8 (d : Fin 128) (k : Fin 64) : idx_main_v8 (ix2 d k) = ix2 k d :=
  funext fun c => Fin.ext (by match c with | ⟨0, _⟩ => rfl | ⟨1, _⟩ => rfl)

theorem idx_v11 (n : Fin 200000) (k : Fin 64) : idx_main_v11 (ix2 n k) = ix2 (0 : Fin 1) k :=
  funext fun c => Fin.ext (by match c with | ⟨0, _⟩ => rfl | ⟨1, _⟩ => rfl)

theorem idx_v10 (a : Fin 1) (k : Fin 64) : idx_main_v10 (ix2 a k) = ix1 k :=
  funext fun c => Fin.ext (by match c with | ⟨0, _⟩ => rfl)

/-- The contraction of the scaled point with the transposed weights, plus the bias spread over the points. -/
theorem stage_logit (n : Fin 200000) (k : Fin 64) :
    val_main_v12 (F := Ideal) x0 x1 x2 (ix2 n k) = logit x0 x1 x2 n k := by
  rw [val_main_v12_apply, val_main_v9_apply, val_main_v11_apply, idx_v11, val_main_v10_apply, idx_v10,
    Ideal.addf_def]
  refine congrArg (· + x2 (ix1 k)) (Finset.sum_congr rfl fun d _ => ?_)
  rw [lidx_v9, ridx_v9, stage_unit, val_main_v8_apply, idx_v8]

/-! ### The row maximum -/

/-- The fold of `max` along row `n` of the logits, from the word the reduce starts with. -/
theorem stage_rowFold (n : Fin 200000) :
    val_main_v13 (F := Ideal) x0 x1 x2 (ix1 n)
      = (Finset.univ : Finset (Fin 64)).fold max negInf (fun k => logit x0 x1 x2 n k) := by
  unfold val_main_v13
  generalize hy : val_main_v12 (F := Ideal) x0 x1 x2 = y
  rw [Cert.LibRowReduce.hostReduce_maximumf_row y _ reducesTo_S200000x64_S200000_d1 (by decide) h_S_ n,
    val_main_cst_1_apply, Ideal.ofBits_def]
  refine congrArg (fun f => Finset.fold max negInf f (Finset.univ : Finset (Fin 64))) (funext fun k => ?_)
  rw [← hy, stage_logit]

/-- Joined once more with the same word: the row maximum. -/
theorem stage_rowMax (n : Fin 200000) :
    val_main_v15 (F := Ideal) x0 x1 x2 (ix1 n) = rowMax x0 x1 x2 n := by
  rw [val_main_v15_apply, val_main_v14_apply, val_main_cst_2_apply, stage_rowFold, Ideal.ofBits_def,
    Ideal.maximumf_def]
  rfl

/-! ### The shifted exponential and the soft assignment -/

theorem idx_v17 (n : Fin 200000) (k : Fin 64) : idx_main_v17 (ix2 n k) = ix2 n (0 : Fin 1) :=
  funext fun c => Fin.ext (by match c with | ⟨0, _⟩ => rfl | ⟨1, _⟩ => rfl)

theorem idx_v16 (n : Fin 200000) (a : Fin 1) : idx_main_v16 (ix2 n a) = ix1 n :=
  funext fun c => Fin.ext (by match c with | ⟨0, _⟩ => rfl)

/-- The exponential of the logit less its row's maximum. -/
theorem stage_expo (n : Fin 200000) (k : Fin 64) :
    val_main_v19 (F := Ideal) x0 x1 x2 (ix2 n k) = expo x0 x1 x2 n k := by
  rw [val_main_v19_apply, val_main_v18_apply, val_main_v17_apply, idx_v17, val_main_v16_apply, idx_v16,
    stage_rowMax, stage_logit, Ideal.subf_def, Ideal.hostUnary_exp_def]
  rfl

theorem idx_v20 (n : Fin 200000) (k : Fin 64) : idx_main_v20 (ix1 n) k = ix2 n k :=
  funext fun c => Fin.ext (by match c with | ⟨0, _⟩ => rfl | ⟨1, _⟩ => rfl)

/-- The sum of a row of exponentials. -/
theorem stage_expoSum (n : Fin 200000) :
    val_main_v20 (F := Ideal) x0 x1 x2 (ix1 n) = ∑ k : Fin 64, expo x0 x1 x2 n k := by
  rw [val_main_v20_apply, val_main_cst_3_apply, Ideal.ofBits_def, Ideal.ofBits_zero_f32, zero_add]
  refine Finset.sum_congr rfl fun k _ => ?_
  rw [idx_v20, stage_expo]

theorem idx_v22 (n : Fin 200000) (k : Fin 64) : idx_main_v22 (ix2 n k) = ix2 n (0 : Fin 1) :=
  funext fun c => Fin.ext (by match c with | ⟨0, _⟩ => rfl | ⟨1, _⟩ => rfl)

theorem idx_v21 (n : Fin 200000) (a : Fin 1) : idx_main_v21 (ix2 n a) = ix1 n :=
  funext fun c => Fin.ext (by match c with | ⟨0, _⟩ => rfl)

/-- The exponential over its row's sum: the soft assignment. -/
theorem stage_assign (n : Fin 200000) (k : Fin 64) :
    val_main_v23 (F := Ideal) x0 x1 x2 (ix2 n k) = assign x0 x1 x2 n k := by
  rw [val_main_v23_apply, val_main_v22_apply, idx_v22, val_main_v21_apply, idx_v21, stage_expoSum, stage_expo,
    Ideal.hostDivf_def]
  rfl

/-! ### The sums over the points and the residual -/

theorem lidx_v25 (k : Fin 64) (d : Fin 128) (n : Fin 200000) : lidx_main_v25 (ix2 k d) n = ix2 k n :=
  funext fun c => Fin.ext (by match c with | ⟨0, _⟩ => rfl | ⟨1, _⟩ => rfl)

theorem ridx_v25 (k : Fin 64) (d : Fin 128) (n : Fin 200000) : ridx_main_v25 (ix2 k d) n = ix2 n d :=
  funext fun c => Fin.ext (by match c with | ⟨0, _⟩ => rfl | ⟨1, _⟩ => rfl)

theorem idx_v24 (k : Fin 64) (n : Fin 200000) : idx_main_v24 (ix2 k n) = ix2 n k :=
  funext fun c => Fin.ext (by match c with | ⟨0, _⟩ => rfl | ⟨1, _⟩ => rfl)

/-- The contraction of the transposed assignments with the scaled points: the gathered sum. -/
theorem stage_gathered (k : Fin 64) (d : Fin 128) :
    val_main_v25 (F := Ideal) x0 x1 x2 (ix2 k d) = gathered x0 x1 x2 k d := by
  rw [val_main_v25_apply]
  refine Finset.sum_congr rfl fun n _ => ?_
  rw [lidx_v25, ridx_v25, val_main_v24_apply, idx_v24, stage_assign, stage_unit]

theorem idx_v26 (k : Fin 64) (n : Fin 200000) : idx_main_v26 (ix1 k) n = ix2 n k :=
  funext fun c => Fin.ext (by match c with | ⟨0, _⟩ => rfl | ⟨1, _⟩ => rfl)

/-- The assignments of a cluster summed over the points: its mass. -/
theorem stage_mass (k : Fin 64) :
    val_main_v26 (F := Ideal) x0 x1 x2 (ix1 k) = mass x0 x1 x2 k := by
  rw [val_main_v26_apply, val_main_cst_4_apply, Ideal.ofBits_def, Ideal.ofBits_zero_f32, zero_add]
  refine Finset.sum_congr rfl fun n _ => ?_
  rw [idx_v26, stage_assign]

theorem idx_v28 (k : Fin 64) (d : Fin 128) : idx_main_v28 (ix2 k d) = ix2 k (0 : Fin 1) :=
  funext fun c => Fin.ext (by match c with | ⟨0, _⟩ => rfl | ⟨1, _⟩ => rfl)

theorem idx_v27 (k : Fin 64) (a : Fin 1) : idx_main_v27 (ix2 k a) = ix1 k :=
  funext fun c => Fin.ext (by match c with | ⟨0, _⟩ => rfl)

/-- The gathered sum less the mass times the centre: the residual. -/
theorem stage_resid (k : Fin 64) (d : Fin 128) :
    val_main_v30 (F := Ideal) x0 x1 x2 x3 (ix2 k d) = resid x0 x1 x2 x3 k d := by
  rw [val_main_v30_apply, val_main_v29_apply, val_main_v28_apply, idx_v28, val_main_v27_apply, idx_v27,
    stage_mass, stage_gathered, Ideal.mulf_def, Ideal.subf_def]
  rfl

theorem idx_v31 (a : Fin 1) (k : Fin 64) (d : Fin 128) : idx_main_v31 (ix3 a k d) = ix2 k d :=
  funext fun c => Fin.ext (by match c with | ⟨0, _⟩ => rfl | ⟨1, _⟩ => rfl)

/-- The residual under a leading axis of length one. -/
theorem stage_resid3 (a : Fin 1) (k : Fin 64) (d : Fin 128) :
    val_main_v31 (F := Ideal) x0 x1 x2 x3 (ix3 a k d) = resid x0 x1 x2 x3 k d := by
  rw [val_main_v31_apply, idx_v31, stage_resid]

/-! ### The norm over the clusters and the result -/

theorem idx_v33 (a : Fin 1) (d : Fin 128) (k : Fin 64) : idx_main_v33 (ix2 a d) k = ix3 a k d :=
  funext fun c => Fin.ext (by match c with | ⟨0, _⟩ => rfl | ⟨1, _⟩ => rfl | ⟨2, _⟩ => rfl)

theorem idx_v34 (a b : Fin 1) (d : Fin 128) : idx_main_v34 (ix3 a b d) = ix2 (0 : Fin 1) d :=
  funext fun c => Fin.ext (by match c with | ⟨0, _⟩ => rfl | ⟨1, _⟩ => rfl)

/-- The root of the squared residuals of feature `d` summed over the clusters. -/
theorem stage_clNorm (a b : Fin 1) (d : Fin 128) :
    val_main_v35 (F := Ideal) x0 x1 x2 x3 (ix3 a b d) = clNorm x0 x1 x2 x3 d := by
  rw [val_main_v35_apply, val_main_v34_apply, idx_v34, val_main_v33_apply, val_main_cst_5_apply, Ideal.ofBits_def,
    Ideal.ofBits_zero_f32, zero_add, Ideal.hostUnary_sqrt_def]
  refine congrArg Ideal.sqrt (Finset.sum_congr rfl fun k _ => ?_)
  rw [idx_v33, val_main_v32_apply, stage_resid3, Ideal.mulf_def]

/-- The floor under the cluster norm is the same word at every index. -/
theorem stage_eps3 (i : S1x1x128.Idx) : val_main_v36 (F := Ideal) i = eps := by
  rw [val_main_v36_apply, val_main_cst_6_apply, Ideal.ofBits_def]

theorem idx_v38 (a : Fin 1) (k : Fin 64) (d : Fin 128) : idx_main_v38 (ix3 a k d) = ix3 (0 : Fin 1) (0 : Fin 1) d :=
  funext fun c => Fin.ext (by match c with | ⟨0, _⟩ => rfl | ⟨1, _⟩ => rfl | ⟨2, _⟩ => rfl)

/-- The last stage at an index: the residual over the floored cluster norm. -/
theorem stage_out (a : Fin 1) (k : Fin 64) (d : Fin 128) :
    val_main_v39 (F := Ideal) x0 x1 x2 x3 (ix3 a k d) = out x0 x1 x2 x3 (ix3 a k d) := by
  rw [val_main_v39_apply, val_main_v38_apply, idx_v38, val_main_v37_apply, stage_clNorm, stage_eps3, stage_resid3,
    Ideal.maximumf_def, Ideal.hostDivf_def]
  rfl

/-- The reference's last stage is the pooled descriptor of the four argument arrays. -/
theorem result_is_pooled :
    val_main_v39 (F := Ideal) x0 x1 x2 x3 = out x0 x1 x2 x3 := by
  funext j
  obtain ⟨a, k, d, rfl⟩ : ∃ (a : Fin 1) (k : Fin 64) (d : Fin 128), j = ix3 a k d := ⟨j 0, j 1, j 2, eq_ix3 j⟩
  exact stage_out x0 x1 x2 x3 a k d

end Cert.ReferenceIdeal.RefValue

end
-- ==== Proof.lean ====
/-
  The certificate's five claims.

  Both kernel programs run two launches over 40 blocks of 5000 points each: the first accumulates every feature column's
  sum of squares and stores its square root; the second scales each point by those norms, forms its soft assignment to
  the 64 clusters, accumulates the assignment-weighted sums and the total assignments, and at the last block forms the
  residuals against the centres and scales each feature column by its norm over the clusters. The reference does the
  same on the whole arrays at once. On the extended reals the two agree entry by entry: a sum over the 200000 points is
  the sum of the 40 blocks' sums (addition of extended reals is commutative and associative, so no finiteness is used),
  and every other step is the same function applied to equal arguments.

  The frames: each kernel program runs to the end without fault and leaves its argument arrays as launched (the run over
  both launches, with each launch's accumulators carried in its invariant); the reference's frame is its run with the
  result dropped. The idealization changed no operation, so there is nothing to preserve.
-/
import proofs.«181373_j45552423141540_1_alg».proof.Defs
import proofs.«181373_j45552423141540_1_alg».proof.Proof.Gen.Kernel
import proofs.«181373_j45552423141540_1_alg».proof.Proof.Gen.KernelIdeal
import proofs.«181373_j45552423141540_1_alg».proof.Proof.Gen.ReferenceIdeal
import proofs.«181373_j45552423141540_1_alg».proof.Proof.Gen.Pre_finite_inputs
import proofs.«181373_j45552423141540_1_alg».proof.Proof.Gen.ReferenceIdeal.Run
import proofs.«181373_j45552423141540_1_alg».proof.Proof.Gen.ReferenceIdeal.Read
import proofs.«181373_j45552423141540_1_alg».proof.Proof.Kernel.Whole
import proofs.«181373_j45552423141540_1_alg».proof.Proof.KernelIdeal.Whole
import proofs.«181373_j45552423141540_1_alg».proof.Proof.KernelValue
import proofs.«181373_j45552423141540_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel (hKernel := Cert.Kernel.Gen.facts) (hPre_finite_inputs := Cert.Pre_finite_inputs.Gen.facts) :=
  fun m ρ _ => Cert.Kernel.Whole.frame (F := Bits) m ρ

/-- The idealized program runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Whole.frame (F := Ideal) m ρ

/-- The reference runs and leaves its arguments as launched: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the pooled descriptor of those arguments
    in their result arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Pooling.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Whole.run_all (F := Ideal) m ρ)
    exact ⟨(h c _ (Cert.KernelIdeal.Whole.mem_uc Cert.KernelIdeal.main_v3 (by decide))).trans (Cert.KernelIdeal.Result.result m c),
      (h c _ (Cert.KernelIdeal.Whole.mem_uc Cert.KernelIdeal.main_arg0 (by decide))).trans (Cert.KernelIdeal.Whole.atEnd_main_arg0 m c),
      (h c _ (Cert.KernelIdeal.Whole.mem_uc Cert.KernelIdeal.main_arg1 (by decide))).trans (Cert.KernelIdeal.Whole.atEnd_main_arg1 m c),
      (h c _ (Cert.KernelIdeal.Whole.mem_uc Cert.KernelIdeal.main_arg2 (by decide))).trans (Cert.KernelIdeal.Whole.atEnd_main_arg2 m c),
      (h c _ (Cert.KernelIdeal.Whole.mem_uc Cert.KernelIdeal.main_arg3 (by decide))).trans (Cert.KernelIdeal.Whole.atEnd_main_arg3 m c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v39_eq, Cert.ReferenceIdeal.RefValue.result_is_pooled,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
